-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![16384, 4096]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 4096]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Pre_finite_inputs_ReferenceIdeal.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S4096x4096 : Shape := ⟨2, ![4096, 4096]⟩
abbrev S16384x1024 : Shape := ⟨2, ![16384, 1024]⟩
abbrev S_ : Shape := ⟨0, ![]⟩
abbrev S3 : Shape := ⟨1, ![3]⟩
abbrev S4096x1024 : Shape := ⟨2, ![4096, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384x1024, .f32⟩
  | _, _ => ⟨S4096x4096, .f32⟩

abbrev bufScoped : (cs : CoreSpace) → Fin (nBuf (.core cs)) → Bool
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32 : BitVec 32 := 4096#32
  let v62 : BitVec 32 := Scalar.muli v8 c4096_i32
  let c0_i32_37 : BitVec 32 := 0#32
  ![v62.toNat, 0]
def k0_off2 (d0 : Dev nD) : Fin 2 → Nat :=
  let c0_i32_38 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32 : BitVec 32 := 1024#32
  let v61 : BitVec 32 := Scalar.muli v8 c1024_i32
  ![0, v61.toNat]
def k0_off3 (d0 : Dev nD) (c1_i32_39 : BitVec 32) : Fin 2 → Nat :=
  let c0_i32_55 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v65 : BitVec 32 := Scalar.addi v8 c1_i32_39
  let c4_i32_40 : BitVec 32 := 4#32
  let c0_i32_41 : BitVec 32 := 0#32
  let v66 : BitVec 1 := Scalar.cmpi .eq c4_i32_40 c0_i32_41
  let c1_i32_42 : BitVec 32 := 1#32
  let v67 : BitVec 32 := Scalar.select v66 c1_i32_42 c4_i32_40
  let v68 : BitVec 32 := Scalar.remsi v65 v67
  let c0_i32_44 : BitVec 32 := 0#32
  let v70 : BitVec 1 := Scalar.cmpi .slt v68 c0_i32_44
  let c0_i32_45 : BitVec 32 := 0#32
  let v71 : BitVec 1 := Scalar.cmpi .slt v67 c0_i32_45
  let v72 : BitVec 1 := Scalar.xori v70 v71
  let c0_i32_43 : BitVec 32 := 0#32
  let v69 : BitVec 1 := Scalar.cmpi .ne v68 c0_i32_43
  let v73 : BitVec 1 := Scalar.andi v72 v69
  let v74 : BitVec 32 := Scalar.addi v68 v67
  let v75 : BitVec 32 := Scalar.select v73 v74 v68
  let c1024_i32_46 : BitVec 32 := 1024#32
  let v76 : BitVec 32 := Scalar.muli v75 c1024_i32_46
  ![0, v76.toNat]
def k0_dev4 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v78 : BitVec 32 := Scalar.muli v2 c16_i32_50
  let v79 : BitVec 32 := Scalar.addi c0_i32_51 v78
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v80 : BitVec 32 := Scalar.muli v5 c4_i32_52
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c4_i32_40 : BitVec 32 := 4#32
  let c0_i32_41 : BitVec 32 := 0#32
  let v66 : BitVec 1 := Scalar.cmpi .eq c4_i32_40 c0_i32_41
  let c1_i32_42 : BitVec 32 := 1#32
  let v67 : BitVec 32 := Scalar.select v66 c1_i32_42 c4_i32_40
  let v68 : BitVec 32 := Scalar.remsi v65 v67
  let c0_i32_44 : BitVec 32 := 0#32
  let v70 : BitVec 1 := Scalar.cmpi .slt v68 c0_i32_44
  let c0_i32_45 : BitVec 32 := 0#32
  let v71 : BitVec 1 := Scalar.cmpi .slt v67 c0_i32_45
  let v72 : BitVec 1 := Scalar.xori v70 v71
  let c0_i32_43 : BitVec 32 := 0#32
  let v69 : BitVec 1 := Scalar.cmpi .ne v68 c0_i32_43
  let v73 : BitVec 1 := Scalar.andi v72 v69
  let v74 : BitVec 32 := Scalar.addi v68 v67
  let v75 : BitVec 32 := Scalar.select v73 v74 v68
  let c1_i32_53 : BitVec 32 := 1#32
  let v82 : BitVec 32 := Scalar.muli v75 c1_i32_53
  let v83 : BitVec 32 := Scalar.addi v81 v82
  v83.toNat
def k0_dev5 (d0 : Dev nD) : Nat :=
  let c0_i32_68 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_67 : BitVec 32 := 16#32
  let v103 : BitVec 32 := Scalar.muli v2 c16_i32_67
  let v104 : BitVec 32 := Scalar.addi c0_i32_68 v103
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_69 : BitVec 32 := 4#32
  let v105 : BitVec 32 := Scalar.muli v5 c4_i32_69
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_56 : BitVec 32 := 2#32
  let v90 : BitVec 32 := Scalar.addi v8 c2_i32_56
  let c4_i32_57 : BitVec 32 := 4#32
  let c0_i32_58 : BitVec 32 := 0#32
  let v91 : BitVec 1 := Scalar.cmpi .eq c4_i32_57 c0_i32_58
  let c1_i32_59 : BitVec 32 := 1#32
  let v92 : BitVec 32 := Scalar.select v91 c1_i32_59 c4_i32_57
  let v93 : BitVec 32 := Scalar.remsi v90 v92
  let c0_i32_61 : BitVec 32 := 0#32
  let v95 : BitVec 1 := Scalar.cmpi .slt v93 c0_i32_61
  let c0_i32_62 : BitVec 32 := 0#32
  let v96 : BitVec 1 := Scalar.cmpi .slt v92 c0_i32_62
  let v97 : BitVec 1 := Scalar.xori v95 v96
  let c0_i32_60 : BitVec 32 := 0#32
  let v94 : BitVec 1 := Scalar.cmpi .ne v93 c0_i32_60
  let v98 : BitVec 1 := Scalar.andi v97 v94
  let v99 : BitVec 32 := Scalar.addi v93 v92
  let v100 : BitVec 32 := Scalar.select v98 v99 v93
  let c1_i32_70 : BitVec 32 := 1#32
  let v107 : BitVec 32 := Scalar.muli v100 c1_i32_70
  let v108 : BitVec 32 := Scalar.addi v106 v107
  v108.toNat
def k0_dev6 (d0 : Dev nD) : Nat :=
  let c0_i32_85 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_84 : BitVec 32 := 16#32
  let v128 : BitVec 32 := Scalar.muli v2 c16_i32_84
  let v129 : BitVec 32 := Scalar.addi c0_i32_85 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_86 : BitVec 32 := 4#32
  let v130 : BitVec 32 := Scalar.muli v5 c4_i32_86
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_73 : BitVec 32 := 3#32
  let v115 : BitVec 32 := Scalar.addi v8 c3_i32_73
  let c4_i32_74 : BitVec 32 := 4#32
  let c0_i32_75 : BitVec 32 := 0#32
  let v116 : BitVec 1 := Scalar.cmpi .eq c4_i32_74 c0_i32_75
  let c1_i32_76 : BitVec 32 := 1#32
  let v117 : BitVec 32 := Scalar.select v116 c1_i32_76 c4_i32_74
  let v118 : BitVec 32 := Scalar.remsi v115 v117
  let c0_i32_78 : BitVec 32 := 0#32
  let v120 : BitVec 1 := Scalar.cmpi .slt v118 c0_i32_78
  let c0_i32_79 : BitVec 32 := 0#32
  let v121 : BitVec 1 := Scalar.cmpi .slt v117 c0_i32_79
  let v122 : BitVec 1 := Scalar.xori v120 v121
  let c0_i32_77 : BitVec 32 := 0#32
  let v119 : BitVec 1 := Scalar.cmpi .ne v118 c0_i32_77
  let v123 : BitVec 1 := Scalar.andi v122 v119
  let v124 : BitVec 32 := Scalar.addi v118 v117
  let v125 : BitVec 32 := Scalar.select v123 v124 v118
  let c1_i32_87 : BitVec 32 := 1#32
  let v132 : BitVec 32 := Scalar.muli v125 c1_i32_87
  let v133 : BitVec 32 := Scalar.addi v131 v132
  v133.toNat
def k0_off4 (d0 : Dev nD) (c1_i32_107 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v154 : BitVec 32 := Scalar.subi v8 c1_i32_107
  let c4_i32_108 : BitVec 32 := 4#32
  let c0_i32_109 : BitVec 32 := 0#32
  let v155 : BitVec 1 := Scalar.cmpi .eq c4_i32_108 c0_i32_109
  let c1_i32_110 : BitVec 32 := 1#32
  let v156 : BitVec 32 := Scalar.select v155 c1_i32_110 c4_i32_108
  let v157 : BitVec 32 := Scalar.remsi v154 v156
  let c0_i32_112 : BitVec 32 := 0#32
  let v159 : BitVec 1 := Scalar.cmpi .slt v157 c0_i32_112
  let c0_i32_113 : BitVec 32 := 0#32
  let v160 : BitVec 1 := Scalar.cmpi .slt v156 c0_i32_113
  let v161 : BitVec 1 := Scalar.xori v159 v160
  let c0_i32_111 : BitVec 32 := 0#32
  let v158 : BitVec 1 := Scalar.cmpi .ne v157 c0_i32_111
  let v162 : BitVec 1 := Scalar.andi v161 v158
  let v163 : BitVec 32 := Scalar.addi v157 v156
  let v164 : BitVec 32 := Scalar.select v162 v163 v157
  let c4096_i32_115 : BitVec 32 := 4096#32
  let v166 : BitVec 32 := Scalar.muli v164 c4096_i32_115
  let c0_i32_122 : BitVec 32 := 0#32
  ![v166.toNat, 0]

class Facts₀ : Prop where
  hamt_1 : (1#32 : BitVec 32).msb = false
  hamt_3 : (3#32 : BitVec 32).msb = false
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  hcc0_scratch0 : 0 + S_.numel ≤ 7
  hcc0_scratch1 : 1 + S3.numel ≤ 7
  hcc0_scratch2 : 4 + S3.numel ≤ 7
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S4096x1024.size a ≤ S16384x1024.size a
  k0_off2_inb : ∀ d0 : Dev nD, ∀ a, (k0_off2 d0) a + S4096x1024.size a ≤ S4096x4096.size a
  k0_off3_inb : ∀ d0 : Dev nD, ∀ (r : Fin 3), ∀ a, (k0_off3 d0 (BitVec.ofNat 32 (1 + r.val))) a + S4096x1024.size a ≤ S4096x4096.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off4_inb : ∀ d0 : Dev nD, ∀ (r : Fin 3), ∀ a, (k0_off4 d0 (BitVec.ofNat 32 (1 + r.val))) a + S4096x1024.size a ≤ S16384x1024.size a

variable [Facts₀]

abbrev cc0_scratch0 : DmaSems sig S_ := SemArray.consecutive 0 S_ hcc0_scratch0
abbrev cc0_scratch1 : DmaSems sig S3 := SemArray.consecutive 1 S3 hcc0_scratch1
abbrev cc0_scratch2 : DmaSems sig S3 := SemArray.consecutive 4 S3 hcc0_scratch2

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x4096 : Shape := ⟨2, ![16384, 4096]⟩

abbrev nBuf : Space → Nat
  | .hbm => 1
  | .vmem => 0
  | .smem => 0
  | _ => 0

abbrev bufTy : (tb : Table) → Fin (tcTables nBuf tb) → BufTy
  | .hbm, ⟨0, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Mesh.lean ====
/-
  The z-ring of the mesh. The thirty-two devices are numbered row-major over (x, y, z) = (2, 4, 4), so a device's
  z-coordinate is its number modulo 4 and the four devices that share (x, y) are the numbers with one quotient by 4.
  The all-to-all runs inside each such group of four: device `c` addresses the device `k` places further round its
  group, `zshift k c`. The kernel computes those device numbers, and the column and row offsets of the blocks it moves,
  by integer chains over its own number; this module states each chain in closed form, decided over the mesh.
-/
import proofs.«900657_g7700000000000658_dist_a2a_v7x_xyz2x4x4_z_m4096_n1024_f32_1_alg».proof.Proof.Gen.KernelIdeal

namespace Cert.KernelIdealProof

open Cert.KernelIdeal Cert.KernelIdeal.Gen
open Idealize.ShloMosaic

/-- The device `k` places further round `c`'s z-ring: same x and y, z-coordinate `z + k` modulo 4. -/
def zshift (k : Nat) (c : Dev nD) : Dev nD := ⟨c.val / 4 * 4 + (c.val % 4 + k) % 4, by have h : c.val < 32 := c.isLt; show _ < 32; omega⟩

/-- The device at place `s` of `c`'s z-ring: same x and y, z-coordinate `s`. -/
def zplace (s : Fin 4) (c : Dev nD) : Dev nD := ⟨c.val / 4 * 4 + s.val, by have h : c.val < 32 := c.isLt; have hs : s.val < 4 := s.isLt; show _ < 32; omega⟩

/-- The peer device `c` addresses in its step `e` (`e + 1` places on), and the device whose step `e` addresses `c`. -/
def peer (e : Fin 3) (c : Dev nD) : Dev nD := zshift (e.val + 1) c
def src (e : Fin 3) (c : Dev nD) : Dev nD := zshift (3 - e.val) c

theorem zshift_val (k : Nat) (c : Dev nD) : (zshift k c).val = c.val / 4 * 4 + (c.val % 4 + k) % 4 := rfl
theorem peer_val (e : Fin 3) (c : Dev nD) : (peer e c).val = c.val / 4 * 4 + (c.val % 4 + (e.val + 1)) % 4 := rfl
theorem src_val (e : Fin 3) (c : Dev nD) : (src e c).val = c.val / 4 * 4 + (c.val % 4 + (3 - e.val)) % 4 := rfl

theorem src_peer (e : Fin 3) (c : Dev nD) : src e (peer e c) = c := by revert e c; decide
theorem peer_src (e : Fin 3) (c : Dev nD) : peer e (src e c) = c := by revert e c; decide
theorem peer_ne (e : Fin 3) (c : Dev nD) : peer e c ≠ c := by revert e c; decide
theorem src_ne (e : Fin 3) (c : Dev nD) : src e c ≠ c := by revert e c; decide
theorem peer_inj (e e' : Fin 3) (c : Dev nD) (h : peer e c = peer e' c) : e = e' := by revert e e' c; decide
theorem src_inj (e e' : Fin 3) (c : Dev nD) (h : src e c = src e' c) : e = e' := by revert e e' c; decide
/-- The device whose step `e` reaches `c` is the one `c` reaches in its own step `2 - e`. -/
theorem src_eq_peer (e : Fin 3) (c : Dev nD) : src e c = peer (Fin.rev e) c := by revert e c; decide
theorem peer_mod (e : Fin 3) (c : Dev nD) : (peer e c).val % 4 = (c.val % 4 + (e.val + 1)) % 4 := by revert e c; decide
theorem src_mod (e : Fin 3) (c : Dev nD) : (src e c).val % 4 = (c.val % 4 + (3 - e.val)) % 4 := by revert e c; decide
theorem peer_div (e : Fin 3) (c : Dev nD) : (peer e c).val / 4 = c.val / 4 := by revert e c; decide
theorem src_div (e : Fin 3) (c : Dev nD) : (src e c).val / 4 = c.val / 4 := by revert e c; decide
theorem zplace_self (c : Dev nD) : zplace ⟨c.val % 4, Nat.mod_lt _ (by decide)⟩ c = c := by revert c; decide
theorem zplace_src (e : Fin 3) (c : Dev nD) : zplace ⟨(c.val % 4 + (3 - e.val)) % 4, Nat.mod_lt _ (by decide)⟩ c = src e c := by revert e c; decide

/-! ## The device chains -/

theorem k0_dev1_eq : ∀ c : Dev nD, k0_dev1 c = c.val / 4 * 4 + (c.val % 4 + 1) % 4 := by decide +kernel
theorem k0_dev2_eq : ∀ c : Dev nD, k0_dev2 c = c.val / 4 * 4 + (c.val % 4 + 2) % 4 := by decide +kernel
theorem k0_dev3_eq : ∀ c : Dev nD, k0_dev3 c = c.val / 4 * 4 + (c.val % 4 + 3) % 4 := by decide +kernel
theorem k0_dev4_eq : ∀ c : Dev nD, k0_dev4 c = c.val / 4 * 4 + (c.val % 4 + 1) % 4 := by decide +kernel
theorem k0_dev5_eq : ∀ c : Dev nD, k0_dev5 c = c.val / 4 * 4 + (c.val % 4 + 2) % 4 := by decide +kernel
theorem k0_dev6_eq : ∀ c : Dev nD, k0_dev6 c = c.val / 4 * 4 + (c.val % 4 + 3) % 4 := by decide +kernel

/-- The three signals go to the three peers, in step order; so do the three transfers. -/
theorem dev1_eq (c : Dev nD) : (⟨k0_dev1 c, k0_dev1_lt c⟩ : Dev nD) = peer 0 c := Fin.ext (k0_dev1_eq c)
theorem dev2_eq (c : Dev nD) : (⟨k0_dev2 c, k0_dev2_lt c⟩ : Dev nD) = peer 1 c := Fin.ext (k0_dev2_eq c)
theorem dev3_eq (c : Dev nD) : (⟨k0_dev3 c, k0_dev3_lt c⟩ : Dev nD) = peer 2 c := Fin.ext (k0_dev3_eq c)
theorem dev4_eq (c : Dev nD) : (⟨k0_dev4 c, k0_dev4_lt c⟩ : Dev nD) = peer 0 c := Fin.ext (k0_dev4_eq c)
theorem dev5_eq (c : Dev nD) : (⟨k0_dev5 c, k0_dev5_lt c⟩ : Dev nD) = peer 1 c := Fin.ext (k0_dev5_eq c)
theorem dev6_eq (c : Dev nD) : (⟨k0_dev6 c, k0_dev6_lt c⟩ : Dev nD) = peer 2 c := Fin.ext (k0_dev6_eq c)

/-! ## The offset chains the generated facts leave open -/

/-- The source of step `e`: the column block of the peer's z-coordinate. -/
theorem k0_off3_eq : ∀ (c : Dev nD) (r : Fin 3), k0_off3 c (BitVec.ofNat 32 (1 + r.val)) = ![0, 1024 * ((c.val % 4 + (r.val + 1)) % 4)] := by decide +kernel
/-- The landing place of the transfer from the device whose step `e` reaches `c`: the row block of that device's z-coordinate. -/
theorem k0_off4_eq : ∀ (c : Dev nD) (r : Fin 3), k0_off4 c (BitVec.ofNat 32 (1 + r.val)) = ![4096 * ((c.val % 4 + (3 - r.val)) % 4), 0] := by decide +kernel

end Cert.KernelIdealProof
-- ==== Proof.Spec.lean ====
/-
  What the all-to-all leaves in each device's result buffer, as one function of the argument buffers.
  Device `c`, at z-coordinate `z`, ends with a result of four row blocks of 4096 rows: row block `s` is column
  block `z` (columns `1024 z` to `1024 z + 1023`) of the argument buffer of the device at place `s` of `c`'s z-ring —
  its own for `s = z`, a peer's for the other three. Entry `(r, l)` of the result is therefore entry
  `(r mod 4096, 1024 z + l)` of the argument buffer of the device at place `r / 4096`.
-/
import proofs.«900657_g7700000000000658_dist_a2a_v7x_xyz2x4x4_z_m4096_n1024_f32_1_alg».proof.Proof.Mesh
import Idealize.ShloMosaic.Lib.ValueIdx

noncomputable section

namespace Cert.KernelIdealProof

open Cert.KernelIdeal
open Idealize.ShloMosaic Idealize.ShloMosaic.ValueIdx

variable {F : FTy → Type} [FloatOps F]

/-- The row block a result row lies in. -/
def rowBlk (i : S16384x1024.Idx) : Fin 4 := ⟨(i 0).val / 4096, by have h : (i 0).val < 16384 := (i 0).isLt; omega⟩

/-- Where entry `i` of device `c`'s result comes from in the argument buffer of the device at place `rowBlk i`. -/
def srcIdx (c : Dev nD) (i : S16384x1024.Idx) : S4096x4096.Idx :=
  ix2 ⟨(i 0).val % 4096, Nat.mod_lt _ (by decide)⟩
    ⟨1024 * (c.val % 4) + (i 1).val, by have h : (i 1).val < 1024 := (i 1).isLt; omega⟩

/-- The result buffer of device `c` after the all-to-all, from the argument buffers `m` holds at launch. -/
def outFn (m : (ℓ : Loc nD τ sig) → Buf (Elt F) ℓ) (c : Dev nD) : Buf (Elt F) ((c.tc : Thread nD τ).loc main_v1) :=
  fun (i : S16384x1024.Idx) => m (((zplace (rowBlk i) c).tc : Thread nD τ).loc main_arg0) (srcIdx c i)

theorem outFn_apply (m : (ℓ : Loc nD τ sig) → Buf (Elt F) ℓ) (c : Dev nD) (i : S16384x1024.Idx) :
    outFn m c i = m (((zplace (rowBlk i) c).tc : Thread nD τ).loc main_arg0) (srcIdx c i) := rfl

end Cert.KernelIdealProof

end
-- ==== Proof.Sched.lean ====
/-
  The protocol of the all-to-all, as a schedule of rounds.

  Device `c` (z-coordinate `z = c mod 4`) works on two buffers: its argument, 4096 x 4096, read in four column blocks
  of 1024, and its result, 16384 x 1024, written in four row blocks of 4096. Blocks are counted from the device's own:
  block `k` is the one at position `(z + k) mod 4`. The device copies its own column block 0 into its own row block 0,
  and in step `e` (`e = 0, 1, 2`) sends its column block `e + 1` — the peer's — into the PEER's row block at `c`'s
  position, which counted from the peer is the peer's block `3 - e`.

  Every device has eight semaphore cells, each with one round:
  * the barrier cell: three duties of one unit, duty `d` paid by the peer of step `d` when it signals; that signal
    hands `c` the peer's row block at `c`'s position (at whatever contents) and the fact that the peer's receive cell
    `d` is open — what `c`'s transfer of step `d` needs;
  * the copy cell: one duty, paid by `c`'s own local copy, handing back both blocks, the row block written;
  * send cell `e`: one duty, paid when the source of transfer `e` has been read, handing back that column block;
  * receive cell `e`: one duty, paid by the device whose step `e` reaches `c`, handing `c` its row block `3 - e`
    holding what the final result holds there.
-/
import proofs.«900657_g7700000000000658_dist_a2a_v7x_xyz2x4x4_z_m4096_n1024_f32_1_alg».proof.Proof.Spec
import proofs.«900657_g7700000000000658_dist_a2a_v7x_xyz2x4x4_z_m4096_n1024_f32_1_alg».proof.Proof.Gen.KernelIdeal.Skeleton
import proofs.«900657_g7700000000000658_dist_a2a_v7x_xyz2x4x4_z_m4096_n1024_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Blocks -/

/-- Where row block `k` of device `c`'s result starts, and column block `k` of its argument. -/
def rowOff (c : Dev nD) (k : Fin 4) : Fin 2 → Nat := ![4096 * ((c.val % 4 + k.val) % 4), 0]
def colOff (c : Dev nD) (k : Fin 4) : Fin 2 → Nat := ![0, 1024 * ((c.val % 4 + k.val) % 4)]

theorem rowOff_inb (c : Dev nD) (k : Fin 4) : ∀ a, rowOff c k a + S4096x1024.size a ≤ S16384x1024.size a :=
  Fin.forall_fin_two.mpr ⟨by show 4096 * ((c.val % 4 + k.val) % 4) + 4096 ≤ 16384; omega, by show 0 + 1024 ≤ 1024; omega⟩
theorem colOff_inb (c : Dev nD) (k : Fin 4) : ∀ a, colOff c k a + S4096x1024.size a ≤ S4096x4096.size a :=
  Fin.forall_fin_two.mpr ⟨by show 0 + 4096 ≤ 4096; omega, by show 1024 * ((c.val % 4 + k.val) % 4) + 1024 ≤ 4096; omega⟩

abbrev rowRect (c : Dev nD) (k : Fin 4) : Rect S16384x1024 := Rect.unit (rowOff c k) S4096x1024.size (rowOff_inb c k)
abbrev colRect (c : Dev nD) (k : Fin 4) : Rect S4096x4096 := Rect.unit (colOff c k) S4096x1024.size (colOff_inb c k)

/-- Row block `k` of a result buffer and column block `k` of an argument buffer, as the kernel slices them. -/
abbrev rowM (c : Dev nD) (k : Fin 4) : Memref sig .tc .hbm S4096x1024 .f32 :=
  (Memref.whole main_v1 : Memref sig .tc .hbm S16384x1024 .f32).slice (rowRect c k) (fun _ => rfl)
abbrev colM (c : Dev nD) (k : Fin 4) : Memref sig .tc .hbm S4096x1024 .f32 :=
  (Memref.whole main_arg0 : Memref sig .tc .hbm S4096x4096 .f32).slice (colRect c k) (fun _ => rfl)

/-- The kernel's offset chains are these blocks' offsets. -/
theorem off1_eq : ∀ c : Dev nD, k0_off1 c = rowOff c 0 := by decide +kernel
theorem off2_eq : ∀ c : Dev nD, k0_off2 c = colOff c 0 := by decide +kernel
theorem off3_eq : ∀ (c : Dev nD) (e : Fin 3), k0_off3 c (BitVec.ofNat 32 (1 + e.val)) = colOff c e.succ := by decide +kernel
theorem off4_eq : ∀ (c : Dev nD) (e : Fin 3), k0_off4 c (BitVec.ofNat 32 (1 + e.val)) = rowOff c (Fin.rev e.castSucc) := by decide +kernel

/-- The row block a device hands its step-`e` peer is the peer's own row position seen from the device; the block a
    transfer of step `e` lands in is the receiver's block `3 - e`. -/
theorem rowOff_peer : ∀ (c : Dev nD) (e : Fin 3), rowOff (peer e c) (Fin.rev e.castSucc) = rowOff c 0 := by decide +kernel
theorem rowOff_succ : ∀ (c : Dev nD) (e : Fin 3), rowOff c e.succ = rowOff (peer e c) 0 := by decide +kernel

theorem rowM_of_off {off : Fin 2 → Nat} (p : ∀ a, off a + S4096x1024.size a ≤ S16384x1024.size a) (c : Dev nD) (k : Fin 4) (h : off = rowOff c k) :
    (Memref.whole main_v1 : Memref sig .tc .hbm S16384x1024 .f32).slice (Rect.unit (s := S16384x1024) off S4096x1024.size p) (fun _ => rfl) = rowM c k := by
  subst h; rfl
theorem colM_of_off {off : Fin 2 → Nat} (p : ∀ a, off a + S4096x1024.size a ≤ S4096x4096.size a) (c : Dev nD) (k : Fin 4) (h : off = colOff c k) :
    (Memref.whole main_arg0 : Memref sig .tc .hbm S4096x4096 .f32).slice (Rect.unit (s := S4096x4096) off S4096x1024.size p) (fun _ => rfl) = colM c k := by
  subst h; rfl

/-- The elements of a result buffer in row block `k`, of an argument buffer in column block `k`. -/
theorem rowM_set (c : Dev nD) (k : Fin 4) : (rowM c k).view.set = (rowRect c k).set := by
  show ((View.whole main_v1).slice (rowRect c k)).set = _; exact View.set_slice_whole _ _
theorem colM_set (c : Dev nD) (k : Fin 4) : (colM c k).view.set = (colRect c k).set := by
  show ((View.whole main_arg0).slice (colRect c k)).set = _; exact View.set_slice_whole _ _

/-! ## Cells -/

abbrev barS : Sem sig := (SemArray.scalar (sig.barrier 0 rfl) : Sems sig S_).sem
def copyS : DmaSem sig := ⟨0, by decide⟩
def sendS (e : Fin 3) : DmaSem sig := ⟨1 + e.val, by have := e.isLt; show 1 + e.val < 7; omega⟩
def recvS (e : Fin 3) : DmaSem sig := ⟨4 + e.val, by have := e.isLt; show 4 + e.val < 7; omega⟩

theorem copyS_eq : (cc0_scratch0 : DmaSems sig S_).sem = copyS := by decide
theorem sendS_0 : ((cc0_scratch1.slice (Rect.unit (s := S3) ![0] S1.size inb_S3_S1_0)).squeeze S_ squeezes_S1_S_).sem = sendS 0 := by decide
theorem sendS_1 : ((cc0_scratch1.slice (Rect.unit (s := S3) ![1] S1.size inb_S3_S1_1)).squeeze S_ squeezes_S1_S_).sem = sendS 1 := by decide
theorem sendS_2 : ((cc0_scratch1.slice (Rect.unit (s := S3) ![2] S1.size inb_S3_S1_2)).squeeze S_ squeezes_S1_S_).sem = sendS 2 := by decide
theorem recvS_0 : ((cc0_scratch2.slice (Rect.unit (s := S3) ![0] S1.size inb_S3_S1_0)).squeeze S_ squeezes_S1_S_).sem = recvS 0 := by decide
theorem recvS_1 : ((cc0_scratch2.slice (Rect.unit (s := S3) ![1] S1.size inb_S3_S1_1)).squeeze S_ squeezes_S1_S_).sem = recvS 1 := by decide
theorem recvS_2 : ((cc0_scratch2.slice (Rect.unit (s := S3) ![2] S1.size inb_S3_S1_2)).squeeze S_ squeezes_S1_S_).sem = recvS 2 := by decide

abbrev barCell (c : Dev nD) : GSem nD τ sig := ((c : Thread nD τ), .reg barS)
abbrev copyCell (c : Dev nD) : GSem nD τ sig := ((c : Thread nD τ), .dma copyS)
abbrev sendCell (e : Fin 3) (c : Dev nD) : GSem nD τ sig := ((c : Thread nD τ), .dma (sendS e))
abbrev recvCell (e : Fin 3) (c : Dev nD) : GSem nD τ sig := ((c : Thread nD τ), .dma (recvS e))

/-- The credit of one block's transfer: the same for a row block of a result and a column block of an argument. -/
abbrev N : ℕ := (rowM 0 0).view.dmaCredit
theorem N_pos : 0 < N := View.dmaCredit_pos _ (by decide)
theorem rowM_credit (c : Dev nD) (k : Fin 4) : (rowM c k).view.dmaCredit = N := rfl
theorem colM_credit (c : Dev nD) (k : Fin 4) : (colM c k).view.dmaCredit = N := rfl

/-! ## Points-to of a block -/

/-- Row block `k` (counted from `c`) of device `d`'s result buffer at contents `f`; column block `k` of `c`'s argument
    buffer at what it held at launch. -/
def rowPts (d c : Dev nD) (k : Fin 4) (f : Buf (Elt F) ((rowM c k).view.loc (d : Thread nD τ))) : sProp 𝕄 :=
  (rowM c k).view.loc (d : Thread nD τ) ↦[(rowM c k).view.set]{fullShare} f
def colPts (c : Dev nD) (k : Fin 4) : sProp 𝕄 :=
  (colM c k).view.loc (c : Thread nD τ) ↦[(colM c k).view.set]{fullShare} m ((c : Thread nD τ).loc main_arg0)

omit [FloatOps F] in
instance rowPts_storable (d c : Dev nD) (k : Fin 4) (f) : BI.Storable (upEmb : UEmb _ 𝕄) (rowPts (F := F) d c k f) := by unfold rowPts; infer_instance
omit [FloatOps F] in
instance colPts_storable (c : Dev nD) (k : Fin 4) : BI.Storable (upEmb : UEmb _ 𝕄) (colPts (F := F) m c k) := by unfold colPts; infer_instance

/-! ## The schedule -/

/-- What the peer of step `d` hands `c` with its signal: its row block at `c`'s position, and that its receive cell `d` is open. -/
def barPay (c : Dev nD) (d : Fin 3) : sProp 𝕄 := iprop((∃ f, rowPts (peer d c) c 0 f) ∗ reached ER (recvCell d (peer d c)) 0)
/-- The local copy hands back the row block written and the column block. -/
def copyPay (c : Dev nD) : sProp 𝕄 := iprop(rowPts c c 0 (outFn m c) ∗ colPts m c 0)
def sendPay (c : Dev nD) (e : Fin 3) : sProp 𝕄 := colPts m c e.succ
def recvPay (c : Dev nD) (e : Fin 3) : sProp 𝕄 := rowPts c c (Fin.rev e.castSucc) (outFn m c)

/-- What the one duty of DMA cell number `n` of device `c` hands over: cell 0 is the local copy's, cells 1 to 3 the sends',
    cells 4 to 6 the receives'. -/
def dmaPay (c : Dev nD) (n : Nat) : sProp 𝕄 :=
  if n = 0 then copyPay m c
  else if n ≤ 3 then sendPay m c ⟨(n - 1) % 3, Nat.mod_lt _ (by decide)⟩
  else recvPay m c ⟨(n - 4) % 3, Nat.mod_lt _ (by decide)⟩

/-- One round, round 0: a barrier cell has three duties of one unit, one per peer; a DMA cell one duty of a block's credit. -/
def a2aRd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with | .reg _ => barPay g.1.1 d | .dma q => dmaPay m g.1.1 q.val
  amount_pos g _ _ _ := by
    rcases g with ⟨t, (s | q)⟩
    · exact Nat.one_pos
    · exact N_pos

omit [FloatOps F] in
instance dmaPay_storable (c : Dev nD) (n : Nat) : BI.Storable (upEmb : UEmb _ 𝕄) (dmaPay (F := F) m c n) := by
  unfold dmaPay
  by_cases h0 : n = 0
  · rw [if_pos h0]; unfold copyPay; infer_instance
  · rw [if_neg h0]
    by_cases h3 : n ≤ 3
    · rw [if_pos h3]; unfold sendPay; infer_instance
    · rw [if_neg h3]; unfold recvPay; infer_instance

omit [FloatOps F] in
instance a2aRd_payload_storable (g : GSem nD τ sig) (r : ℕ) (d : Fin 3) :
    BI.Storable (upEmb : UEmb _ 𝕄) ((a2aRd (F := F) m).payload g r d) := by
  rcases g with ⟨t, (s | q)⟩
  · show BI.Storable upEmb (barPay t.1 d); unfold barPay; infer_instance
  · show BI.Storable upEmb (dmaPay m t.1 q.val); infer_instance

end Cert.KernelIdealProof

end
-- ==== Proof.Data.lean ====
/-
  What each device owes, holds and knows when its kernel starts, and what it holds when the kernel ends.

  At launch device `c` owes: one unit to the barrier cell of each of its three peers (its three signals) and one block's
  credit to receive cell `e` of its step-`e` peer (its three transfers). Its waits: on its barrier cell for three units
  while it still owes the three receive credits, then on its copy, send and receive cells owing nothing. So a barrier
  cell sits at level 1, a receive cell at level 2 and every other cell at level 0: each wait is below what is still owed.
-/
import proofs.«900657_g7700000000000658_dist_a2a_v7x_xyz2x4x4_z_m4096_n1024_f32_1_alg».proof.Proof.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device owes at launch; the levels -/

/-- The receive credits `c` owes its peers, one per transfer; -/
def Orecv (c : Dev nD) : CellTallies nD τ sig Unit :=
  tallyAt (recvCell 2 (peer 2 c)) () N + tallyAt (recvCell 1 (peer 1 c)) () N + tallyAt (recvCell 0 (peer 0 c)) () N
/-- with the barrier units of the signals not yet made: after the first two, after the first, at launch. The summands
    stand in the order the kernel pays them off, last first. -/
def O₂ (c : Dev nD) : CellTallies nD τ sig Unit := Orecv c + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1
/-- What is still owed after the transfers of steps 0 and 1, and after step 0 alone. -/
def Or₂ (c : Dev nD) : CellTallies nD τ sig Unit := 0 + tallyAt (recvCell 2 (peer 2 c)) () N
def Or₁ (c : Dev nD) : CellTallies nD τ sig Unit := tallyAt (recvCell 2 (peer 2 c)) () N + tallyAt (recvCell 1 (peer 1 c)) () N

def L (g : GSem nD τ sig) : Finset Unit := if g.1.2 = .tc then {()} else ∅
/-- Barrier cells at 1, receive cells (DMA cells 4 to 6) at 2, every other cell at 0. -/
def lv (g : GSem nD τ sig) (_ : Unit) : ℕ := match g.2 with | .reg _ => 1 | .dma q => if 4 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (e : Fin 3) (c : Dev nD) : lv (recvCell e c) () = 2 := if_pos (by show 4 ≤ 4 + e.val; omega)

/-! ## The cells of a device, indexed -/

/-- A device's eight cells. -/
inductive CellIx where
  | bar | copy | send (e : Fin 3) | recv (e : Fin 3)
  deriving DecidableEq, Fintype

abbrev csem : CellIx → SemLoc sig
  | .bar => .reg barS | .copy => .dma copyS | .send e => .dma (sendS e) | .recv e => .dma (recvS e)
abbrev kcell (ck : Dev nD × CellIx) : GSem nD τ sig := ((ck.1 : Thread nD τ), csem ck.2)

/-- The kernel's own (scoped) semaphores, as the launch indexes them: the seven DMA semaphores. -/
abbrev osem : Fin 7 → SemLoc sig := fun q => .dma q

/-! ## Ghost state -/

/-- The cells' invariants device `c`'s body opens, under the names `K` the launch allocated them at: its own eight, and
    for each step the peer's barrier cell (its signal) and the peer's receive cell of that step (its transfer). -/
def invs (K : Dev nD × CellIx → ℕ) (c : Dev nD) : sProp 𝕄 :=
  iprop(cellInv ER (a2aRd m) (K (c, .bar)) (barCell c) ∗ cellInv ER (a2aRd m) (K (c, .copy)) (copyCell c)
    ∗ (cellInv ER (a2aRd m) (K (c, .send 0)) (sendCell 0 c) ∗ cellInv ER (a2aRd m) (K (c, .send 1)) (sendCell 1 c) ∗ cellInv ER (a2aRd m) (K (c, .send 2)) (sendCell 2 c))
    ∗ (cellInv ER (a2aRd m) (K (c, .recv 0)) (recvCell 0 c) ∗ cellInv ER (a2aRd m) (K (c, .recv 1)) (recvCell 1 c) ∗ cellInv ER (a2aRd m) (K (c, .recv 2)) (recvCell 2 c))
    ∗ (cellInv ER (a2aRd m) (K (peer 0 c, .bar)) (barCell (peer 0 c)) ∗ cellInv ER (a2aRd m) (K (peer 1 c, .bar)) (barCell (peer 1 c)) ∗ cellInv ER (a2aRd m) (K (peer 2 c, .bar)) (barCell (peer 2 c)))
    ∗ (cellInv ER (a2aRd m) (K (peer 0 c, .recv 0)) (recvCell 0 (peer 0 c)) ∗ cellInv ER (a2aRd m) (K (peer 1 c, .recv 1)) (recvCell 1 (peer 1 c)) ∗ cellInv ER (a2aRd m) (K (peer 2 c, .recv 2)) (recvCell 2 (peer 2 c))))

instance invs_persistent (K : Dev nD × CellIx → ℕ) (c : Dev nD) : BI.Persistent (invs m K c) := by unfold invs; infer_instance

/-- That round 0 is reached: of the cells `c` pays into, and of its own DMA cells. -/
def reachedAll (c : Dev nD) : sProp 𝕄 :=
  iprop((reached ER (barCell (peer 0 c)) 0 ∗ reached ER (barCell (peer 1 c)) 0 ∗ reached ER (barCell (peer 2 c)) 0)
    ∗ (reached ER (recvCell 0 (peer 0 c)) 0 ∗ reached ER (recvCell 1 (peer 1 c)) 0 ∗ reached ER (recvCell 2 (peer 2 c)) 0)
    ∗ reached ER (copyCell c) 0
    ∗ (reached ER (sendCell 0 c) 0 ∗ reached ER (sendCell 1 c) 0 ∗ reached ER (sendCell 2 c) 0)
    ∗ (reached ER (recvCell 0 c) 0 ∗ reached ER (recvCell 1 c) 0 ∗ reached ER (recvCell 2 c) 0))

instance reachedAll_persistent (c : Dev nD) : BI.Persistent (reachedAll (F := F) c) := by unfold reachedAll; infer_instance

/-- `c`'s positions: at the start of round 0 of each of its eight cells. -/
def positions (c : Dev nD) : sProp 𝕄 :=
  iprop(atPos ER (barCell c) 0 ∅ 0 ∗ atPos ER (copyCell c) 0 ∅ 0
    ∗ (atPos ER (sendCell 0 c) 0 ∅ 0 ∗ atPos ER (sendCell 1 c) 0 ∅ 0 ∗ atPos ER (sendCell 2 c) 0 ∅ 0)
    ∗ (atPos ER (recvCell 0 c) 0 ∅ 0 ∗ atPos ER (recvCell 1 c) 0 ∅ 0 ∗ atPos ER (recvCell 2 c) 0 ∅ 0))

/-- The tokens of the duties `c` pays: on the barrier cell of its step-`s` peer the duty `2 - s` (the step in which that
    peer reaches `c`); on that peer's receive cell `s`, on its own send cells and on its copy cell the one duty. -/
def payToks (c : Dev nD) : sProp 𝕄 :=
  iprop((dutyTok ER (barCell (peer 0 c)) 0 2 ∗ dutyTok ER (barCell (peer 1 c)) 0 1 ∗ dutyTok ER (barCell (peer 2 c)) 0 0)
    ∗ (dutyTok ER (recvCell 0 (peer 0 c)) 0 0 ∗ dutyTok ER (recvCell 1 (peer 1 c)) 0 0 ∗ dutyTok ER (recvCell 2 (peer 2 c)) 0 0)
    ∗ (dutyTok ER (sendCell 0 c) 0 0 ∗ dutyTok ER (sendCell 1 c) 0 0 ∗ dutyTok ER (sendCell 2 c) 0 0)
    ∗ dutyTok ER (copyCell c) 0 0)

def ghost (K : Dev nD × CellIx → ℕ) (c : Dev nD) : sProp 𝕄 :=
  iprop(invs m K c ∗ reachedAll c ∗ positions c ∗ payToks c)

/-- The credit `c` waits with: its barrier cell's three units and each receive cell's block. -/
def waitCred (c : Dev nD) : sProp 𝕄 :=
  iprop(cred (tallyAt (barCell c) () 3) ∗ cred (tallyAt (recvCell 0 c) () N) ∗ cred (tallyAt (recvCell 1 c) () N) ∗ cred (tallyAt (recvCell 2 c) () N))

/-- What device `c`'s body starts from beside its two buffers. -/
def start (c : Dev nD) : sProp 𝕄 :=
  iprop((∃ K, ghost m K c) ∗ waitCred c ∗ levAts L lv)

/-- The two buffers at launch, whole; and at the end, the argument as it was, the result at the all-to-all's value. -/
def bufs₀ (c : Dev nD) : sProp 𝕄 :=
  iprop((((c : Thread nD τ).loc main_arg0) ↦{fullShare} m ((c : Thread nD τ).loc main_arg0)) ∗ (((c : Thread nD τ).loc main_v1) ↦{fullShare} m ((c : Thread nD τ).loc main_v1)))
def bufs₁ (c : Dev nD) : sProp 𝕄 :=
  iprop((((c : Thread nD τ).loc main_arg0) ↦{fullShare} m ((c : Thread nD τ).loc main_arg0)) ∗ (((c : Thread nD τ).loc main_v1) ↦{fullShare} outFn m c))

/-- The seven own cells closed: their counters back at zero. -/
def closedSems (c : Dev nD) : sProp 𝕄 :=
  iprop(semVal (copyCell c) 0 ∗ (semVal (sendCell 0 c) 0 ∗ semVal (sendCell 1 c) 0 ∗ semVal (sendCell 2 c) 0)
    ∗ (semVal (recvCell 0 c) 0 ∗ semVal (recvCell 1 c) 0 ∗ semVal (recvCell 2 c) 0))

def Φ₀ (c : Dev nD) : sProp 𝕄 := iprop(start m c ∗ bufs₀ m c)
def Φ₁ (c : Dev nD) : sProp 𝕄 := iprop(bufs₁ m c ∗ closedSems c)

/-! ## The pipeline's proof data: no window, one point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdealProof

end
-- ==== Proof.Run.lean ====
/-
  The run of the all-to-all on the whole mesh, from what each device's kernel body does.

  Every device starts its body holding its two buffers whole, the ghost state of the protocol's cells, the credit it
  waits with and the levels; it ends holding the argument buffer as it was, the result buffer at the all-to-all's
  value, and its seven own semaphores back at zero. Given that each body meets that contract, and the launch-side
  facts (the ghost state can be allocated and dealt out, and the credit the other devices owe a device is the credit
  it waits with), every weakly fair execution of the thirty-two kernels terminates, and in every final state each
  device's result buffer holds the all-to-all of the argument buffers and its argument buffer is unchanged.
-/
import proofs.«900657_g7700000000000658_dist_a2a_v7x_xyz2x4x4_z_m4096_n1024_f32_1_alg».proof.Proof.Data
import proofs.«900657_g7700000000000658_dist_a2a_v7x_xyz2x4x4_z_m4096_n1024_f32_1_alg».proof.Proof.Gen.KernelIdeal.Launch

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The own semaphores are the copy, send and receive cells -/

/-- Own semaphore 0 is the copy cell; -/
theorem own_copy (c : Dev nD) : ((c : Thread nD τ), osem 0) = copyCell c := rfl
/-- own semaphore `1 + e` is send cell `e`; -/
theorem own_send (e : Fin 3) (c : Dev nD) : ((c : Thread nD τ), osem ⟨1 + e.val, by have := e.isLt; omega⟩) = sendCell e c := rfl
/-- own semaphore `4 + e` is receive cell `e`. -/
theorem own_recv (e : Fin 3) (c : Dev nD) : ((c : Thread nD τ), osem ⟨4 + e.val, by have := e.isLt; omega⟩) = recvCell e c := rfl

omit [FloatOps F] in
/-- The seven own semaphores at zero are the seven cells closed. -/
theorem closedSems_own (c : Dev nD) :
    (closedSems c : sProp 𝕄) ⊢ Pipeline.ownSems0 (Ix := Unit) (Name := ℕ) (U := UU) (Lvl := ℕ) (Val := Elt F) (τ := τ) osem c := by
  rw [Pipeline.ownSems0_eq_of_list c osem [0, 1, 2, 3, 4, 5, 6] (by decide) (by decide)]
  show closedSems c ⊢ iprop(semVal (copyCell c) 0 ∗ semVal (sendCell 0 c) 0 ∗ semVal (sendCell 1 c) 0 ∗ semVal (sendCell 2 c) 0
      ∗ semVal (recvCell 0 c) 0 ∗ semVal (recvCell 1 c) 0 ∗ semVal (recvCell 2 c) 0)
  unfold closedSems
  iintro ⟨Hc, ⟨Hs0, Hs1, Hs2⟩, Hr0, Hr1, Hr2⟩
  isplitl [Hc]; · iexact Hc
  isplitl [Hs0]; · iexact Hs0
  isplitl [Hs1]; · iexact Hs1
  isplitl [Hs2]; · iexact Hs2
  isplitl [Hr0]; · iexact Hr0
  isplitl [Hr1]; · iexact Hr1
  iexact Hr2

/-! ## The launch theorem's side conditions -/

omit [FloatOps F] in
theorem start_intro (ρ : Dev nD → PrngReg) (hcreds : ∀ c : Dev nD, (Pipeline.launchCred O₀ c : sProp 𝕄) ⊢ waitCred c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(iprop(start m c ∗ bufs₀ m c) ∗ emp) := by
  rw [Pipeline.unscopedRestP_none, unscopedRest0_eq c]
  iintro ⟨⟨Ha, Hv⟩, Hlev, Hcr, -, HG⟩
  ihave Hc := (hcreds c) $$ Hcr
  imodintro
  unfold start bufs₀
  isplitl
  · isplitl [HG Hc Hlev]
    · isplitl [HG]; · iexact HG
      isplitl [Hc]; · iexact Hc
      iexact Hlev
    · isplitl [Ha]; · iexact Ha
      iexact Hv
  · iempintro

theorem phi0_intro (c : Dev nD) :
    iprop(iprop(start m c ∗ bufs₀ m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨HX, -, -⟩
  iexact HX

theorem phi1_exit (c : Dev nD) :
    (dats m 0 c).Φ (Fin.last cfg0.N) ⊢ iprop(bufs₁ m c ∗ Pipeline.ownSems0 osem c ∗ Pipeline.scopedRest cfg0.spec c) := by
  rw [show (dats m 0 c).Φ (Fin.last cfg0.N) = Φ₁ m c from rfl, scopedRest0_eq]
  unfold Φ₁
  iintro ⟨Hb, Hs⟩
  ihave Ho := (closedSems_own (F := F) c) $$ Hs
  isplitl [Hb]; · iexact Hb
  isplitl [Ho]; · iexact Ho
  iempintro

theorem waits (c : Dev nD) : (levAts L lv : sProp 𝕄) ⊢ Pipeline.cellsWaits cfgs (dats m) () 0 c :=
  Pipeline.cellsWaits_intro cfgs (dats m) () 0 c fun w s t => w.elim0

/-- What is read off a final state: the result buffer at the all-to-all's value, the argument buffer as it was. -/
def QY (c : Dev nD) (s : MemSt nD τ sig (Elt F)) : Prop :=
  s.mem ((c : Thread nD τ).loc main_v1) = outFn m c ∧ s.mem ((c : Thread nD τ).loc main_arg0) = m ((c : Thread nD τ).loc main_arg0)

theorem read_final (c : Dev nD) (s' : Phys nD τ sig (Elt F)) :
    iprop(bufs₁ m c ∗ (emp : sProp 𝕄) ∗ SI s') ⊢ |={Set.univ}=> iprop(⌜QY m c s'.mem⌝ ∗ SI s') := by
  unfold bufs₁ QY
  iintro ⟨⟨Ha, Hv⟩, -, HSI⟩
  icombine HSI Ha gives %ha
  icombine HSI Hv gives %hv
  imodintro
  isplitr
  · ipureintro; exact ⟨Buf.eq_of_forall_mem_univ hv, Buf.eq_of_forall_mem_univ ha⟩
  · iexact HSI

/-! ## The run -/

set_option maxRecDepth 8000 in
/-- At the compiled mesh of thirty-two devices, for any float values, from any memory with zero counters: if each
    device's body meets its contract and the launch-side facts hold, every weakly fair execution of @main terminates,
    and every final state has each device's result buffer at the all-to-all of the argument buffers and its argument
    buffer unchanged. -/
theorem run_main_of (ρ : Dev nD → PrngReg) (G : Dev nD → sProp 𝕄) (u₀ : UU)
    (hbody : ∀ c : Dev nD, BodyObligation (dats (F := F) m 0 c) (defs₀ (F := F)) 𝒱₀ () Set.univ)
    (hown : Pipeline.OwnSemFacts cfg0.spec osem)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
        ⊢ |={Set.univ}=> bigSep Finset.univ fun c : Dev nD => iprop(∃ K, ghost m K c))
    (hcreds : ∀ c : Dev nD, (Pipeline.launchCred O₀ c : sProp 𝕄) ⊢ waitCred c) :
    θ_run defs (onTc (τ := τ) (main (F := F))) ⟨m, fun _ => 0, ρ⟩
      (fun r => ∀ c : Dev nD, r.2.mem ((c.tc : Thread nD τ).loc main_v1) = outFn m c
                             ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ hown (Pipeline.PreFacts.none _) EP defs₀ 𝒱₀ m ρ main
    (hmain := fun _ => rfl)
    (hbody := hbody) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G) (G' := fun c => iprop(∃ K, ghost m K c)) (u₀ := u₀)
    (hu₀ := hu₀)
    (hglob := hglob)
    (hA := fun _ w => w.elim0) (hpf := fun _ k => k.elim0)
    (X := fun c => iprop(start m c ∗ bufs₀ m c)) (Y := bufs₁ m) (Z := fun _ => iprop(emp))
    (hX := start_intro m ρ hcreds) (hin := phi0_intro m) (hout := phi1_exit m)
    (QY := QY m)
    (hY := read_final m)
    (hQ := fun _ h c => (h c).2.2)

/-- info: 'Cert.KernelIdealProof.run_main_of' depends on axioms: [propext, Classical.choice, Quot.sound] -/
#guard_msgs in #print axioms run_main_of

end Cert.KernelIdealProof

end
-- ==== Proof.Launch.lean ====
/-
  The launch of the all-to-all's protocol.

  The machine starts with every semaphore counter at zero and one ghost element: the pipeline library's launch element
  beside the protocol's — every one of the 32 x 8 cells in its launch state, and one token for each duty of round 0: per
  device the three duties of its barrier cell and the one duty of each of its seven DMA cells. This module deals that
  element out. Each device first gets, for its own eight cells, the round state at counter zero, its position at the
  start of round 0 and the fact that round 0 is reached, and its own cells' ten tokens. One update for the whole mesh
  then allocates the 256 invariants, and the persistent facts (invariants, reached rounds) are handed to every device
  that needs them, while the tokens travel to the devices that pay the duties: the token of duty d of a barrier cell
  goes to the device whose step 2 - d reaches the cell's owner, the token of receive cell e to the device whose step e
  reaches the owner; a device keeps the tokens of its own copy and send cells.

  The credit side: what the devices owe at launch, summed over the mesh, is for each device three units on its barrier
  cell and one block's credit on each of its receive cells — its waits' credit. And a device may wait on its barrier
  cell while it owes its three receive credits, a barrier cell standing below every receive cell.
-/
import proofs.«900657_g7700000000000658_dist_a2a_v7x_xyz2x4x4_z_m4096_n1024_f32_1_alg».proof.Proof.Data

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens of the launch element -/

theorem ownSemFacts : Pipeline.OwnSemFacts cfg0.spec osem := by decide

/-- Distinct cell indices name distinct semaphores. -/
theorem csem_injective : ∀ k k' : CellIx, csem k = csem k' → k = k' := by decide

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  have h3 : k = k' := csem_injective k k' h2
  subst h3; rfl

def a2aCells : Finset (GSem nD τ sig) := Finset.univ.map ⟨kcell, kcell_injective⟩

/-- The duties of round 0 of a device's cells: the barrier cell's three, and the one of each DMA cell. -/
inductive TokIx where
  | bar (d : Fin 3) | copy | send (e : Fin 3) | recv (e : Fin 3)
  deriving DecidableEq, Fintype

/-- The cell a duty belongs to, and its name there. -/
def tokCell : TokIx → CellIx
  | .bar _ => .bar | .copy => .copy | .send e => .send e | .recv e => .recv e
def tokDuty : TokIx → Fin 3
  | .bar d => d | .copy => 0 | .send _ => 0 | .recv _ => 0

theorem tokIx_injective : ∀ j j' : TokIx, tokCell j = tokCell j' → tokDuty j = tokDuty j' → j = j' := by decide

abbrev tokOf (cj : Dev nD × TokIx) : GSem nD τ sig × ℕ × Fin 3 := (kcell (cj.1, tokCell cj.2), 0, tokDuty cj.2)

theorem tokOf_injective : Function.Injective (tokOf : Dev nD × TokIx → GSem nD τ sig × ℕ × Fin 3) := by
  rintro ⟨c, j⟩ ⟨c', j'⟩ h
  have h1 : kcell (c, tokCell j) = kcell (c', tokCell j') := congrArg (fun x : GSem nD τ sig × ℕ × Fin 3 => x.1) h
  have h2 : tokDuty j = tokDuty j' := congrArg (fun x : GSem nD τ sig × ℕ × Fin 3 => x.2.2) h
  have h3 := kcell_injective h1
  have h4 : c = c' := congrArg Prod.fst h3
  have h5 : tokCell j = tokCell j' := congrArg Prod.snd h3
  subst h4
  have h6 : j = j' := tokIx_injective j j' h5 h2
  subst h6; rfl

def a2aToks : Finset (GSem nD τ sig × ℕ × Fin 3) := Finset.univ.map ⟨tokOf, tokOf_injective⟩

/-- The launch element: the pipeline library's beside the protocol's. -/
def u₀ : UU :=
  (initOf (Pipeline.cells cfgs cellOf_inj) (Pipeline.launchToks cfgs cellOf_inj), initOf a2aCells a2aToks)

/-! ## What the launch element deals each device -/

/-- The tokens of the duties of device `c`'s own cells. -/
def toks (c : Dev nD) : sProp 𝕄 :=
  iprop(dutyTok ER (barCell c) 0 0 ∗ dutyTok ER (barCell c) 0 1 ∗ dutyTok ER (barCell c) 0 2
    ∗ dutyTok ER (copyCell c) 0 0
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0)

/-- Device `c`'s deal: of each of its eight cells the round state at counter zero, its position at the start of round 0
    and that round 0 is reached; and its own cells' tokens. -/
def G (c : Dev nD) : sProp 𝕄 :=
  iprop((bigSep Finset.univ fun k : CellIx => roundState ER (a2aRd m) (kcell (c, k)) 0)
    ∗ (bigSep Finset.univ fun k : CellIx => iprop(atPos ER (kcell (c, k)) 0 ∅ 0 ∗ reached ER (kcell (c, k)) 0)) ∗ toks c)

/-- What the mesh-wide step makes of it. -/
def G' (c : Dev nD) : sProp 𝕄 := iprop(∃ K, ghost m K c)

theorem bigSep_cellIx (Φ : CellIx → sProp 𝕄) :
    bigSep Finset.univ Φ = iprop(Φ .bar ∗ Φ .copy ∗ Φ (.send 0) ∗ Φ (.send 1) ∗ Φ (.send 2) ∗ Φ (.recv 0) ∗ Φ (.recv 1) ∗ Φ (.recv 2)) :=
  bigSep_univ_eq_bigSepL [CellIx.bar, .copy, .send 0, .send 1, .send 2, .recv 0, .recv 1, .recv 2] (by decide) (by decide) Φ

theorem bigSep_tokIx (Φ : TokIx → sProp 𝕄) :
    bigSep Finset.univ Φ = iprop(Φ (.bar 0) ∗ Φ (.bar 1) ∗ Φ (.bar 2) ∗ Φ .copy ∗ Φ (.send 0) ∗ Φ (.send 1) ∗ Φ (.send 2) ∗ Φ (.recv 0) ∗ Φ (.recv 1) ∗ Φ (.recv 2)) :=
  bigSep_univ_eq_bigSepL [TokIx.bar 0, .bar 1, .bar 2, .copy, .send 0, .send 1, .send 2, .recv 0, .recv 1, .recv 2] (by decide) (by decide) Φ

/-- The protocol's launch element, dealt device by device. -/
theorem fund_a2a : BI.own (ER (initOf a2aCells a2aToks)) ⊢ (|==> bigSep Finset.univ (G m) : sProp 𝕄) := by
  have hX (Φ : GSem nD τ sig → sProp 𝕄) : bigSep a2aCells Φ = bigSep Finset.univ fun c : Dev nD => bigSep Finset.univ fun k : CellIx => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by unfold toks; rw [bigSep_tokIx]; rfl
  iintro HX
  imod (Rounds.fund ER (a2aRd m) a2aCells a2aToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_a2a m) $$ HX with HG
  imodintro
  isplitl [HP] <;> iassumption

/-! ## The mesh-wide step: the invariants allocated, the facts shared, the tokens sent round -/

/-- A device's own seven semaphores are its copy, send and receive cells; -/
theorem ownSems0_eq (c : Dev nD) : (Pipeline.ownSems0 (Ix := Unit) (Name := ℕ) (U := UU) (Lvl := ℕ) (Val := Elt F) (τ := τ) osem c : sProp 𝕄)
    = iprop(semVal (copyCell c) 0 ∗ semVal (sendCell 0 c) 0 ∗ semVal (sendCell 1 c) 0 ∗ semVal (sendCell 2 c) 0
        ∗ semVal (recvCell 0 c) 0 ∗ semVal (recvCell 1 c) 0 ∗ semVal (recvCell 2 c) 0) := by
  rw [Pipeline.ownSems0_eq_of_list c osem [0, 1, 2, 3, 4, 5, 6] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cellIx]
  iintro ⟨⟨Hc, Hs0, Hs1, Hs2, Hr0, Hr1, Hr2⟩, Hb⟩
  isplitl [Hb]; · iexact Hb
  isplitl [Hc]; · iexact Hc
  isplitl [Hs0]; · iexact Hs0
  isplitl [Hs1]; · iexact Hs1
  isplitl [Hs2]; · iexact Hs2
  isplitl [Hr0]; · iexact Hr0
  isplitl [Hr1]; · iexact Hr1
  iexact Hr2

/-- One device's eight invariants allocated, from its counters at zero and its round states. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (a2aRd m) (kcell (c, k)) 0)
      ⊢ (|={Set.univ}=> bigSep Finset.univ fun k => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent facts of the whole mesh under the names `K`: every cell's invariant, and that its round 0 is reached. -/
def records (K : Dev nD × CellIx → ℕ) : sProp 𝕄 :=
  iprop((bigSep Finset.univ fun ck : Dev nD × CellIx => cellInv ER (a2aRd m) (K ck) (kcell ck))
    ∗ bigSep Finset.univ fun ck : Dev nD × CellIx => reached ER (kcell ck) 0)

instance records_persistent (K : Dev nD × CellIx → ℕ) : BI.Persistent (records m K) := by unfold records; infer_instance

theorem inv_at (K : Dev nD × CellIx → ℕ) (ck : Dev nD × CellIx) :
    (bigSep Finset.univ fun ck : Dev nD × CellIx => (cellInv ER (a2aRd m) (K ck) (kcell ck) : sProp 𝕄)) ⊢ cellInv ER (a2aRd m) (K ck) (kcell ck) :=
  bigSep_elim (Finset.mem_univ ck)
theorem reached_at (ck : Dev nD × CellIx) :
    (bigSep Finset.univ fun ck : Dev nD × CellIx => (reached ER (kcell ck) 0 : sProp 𝕄)) ⊢ reached ER (kcell ck) 0 :=
  bigSep_elim (Finset.mem_univ ck)

/-- The invariants a device's body opens are among the mesh's. -/
theorem invs_of_records (K : Dev nD × CellIx → ℕ) (c : Dev nD) : records m K ⊢ invs m K c := by
  unfold records invs
  iintro ⟨#HI, #HR⟩
  isplitr; · iapply (inv_at m K (c, .bar)); iexact HI
  isplitr; · iapply (inv_at m K (c, .copy)); iexact HI
  isplitr
  · isplitr; · iapply (inv_at m K (c, .send 0)); iexact HI
    isplitr; · iapply (inv_at m K (c, .send 1)); iexact HI
    iapply (inv_at m K (c, .send 2)); iexact HI
  isplitr
  · isplitr; · iapply (inv_at m K (c, .recv 0)); iexact HI
    isplitr; · iapply (inv_at m K (c, .recv 1)); iexact HI
    iapply (inv_at m K (c, .recv 2)); iexact HI
  isplitr
  · isplitr; · iapply (inv_at m K (peer 0 c, .bar)); iexact HI
    isplitr; · iapply (inv_at m K (peer 1 c, .bar)); iexact HI
    iapply (inv_at m K (peer 2 c, .bar)); iexact HI
  · isplitr; · iapply (inv_at m K (peer 0 c, .recv 0)); iexact HI
    isplitr; · iapply (inv_at m K (peer 1 c, .recv 1)); iexact HI
    iapply (inv_at m K (peer 2 c, .recv 2)); iexact HI

/-- So are the reached rounds it presents. -/
theorem reachedAll_of_records (K : Dev nD × CellIx → ℕ) (c : Dev nD) : records m K ⊢ reachedAll c := by
  unfold records reachedAll
  iintro ⟨#HI, #HR⟩
  isplitr
  · isplitr; · iapply (reached_at (F := F) (peer 0 c, .bar)); iexact HR
    isplitr; · iapply (reached_at (F := F) (peer 1 c, .bar)); iexact HR
    iapply (reached_at (F := F) (peer 2 c, .bar)); iexact HR
  isplitr
  · isplitr; · iapply (reached_at (F := F) (peer 0 c, .recv 0)); iexact HR
    isplitr; · iapply (reached_at (F := F) (peer 1 c, .recv 1)); iexact HR
    iapply (reached_at (F := F) (peer 2 c, .recv 2)); iexact HR
  isplitr; · iapply (reached_at (F := F) (c, .copy)); iexact HR
  isplitr
  · isplitr; · iapply (reached_at (F := F) (c, .send 0)); iexact HR
    isplitr; · iapply (reached_at (F := F) (c, .send 1)); iexact HR
    iapply (reached_at (F := F) (c, .send 2)); iexact HR
  · isplitr; · iapply (reached_at (F := F) (c, .recv 0)); iexact HR
    isplitr; · iapply (reached_at (F := F) (c, .recv 1)); iexact HR
    iapply (reached_at (F := F) (c, .recv 2)); iexact HR

/-- What stays in one device's hand: its positions and the tokens of the duties it pays. -/
def linear (c : Dev nD) : sProp 𝕄 := iprop(positions c ∗ payToks c)

theorem ghost_intro (K : Dev nD × CellIx → ℕ) (c : Dev nD) : iprop(records m K ∗ linear c) ⊢ G' m c := by
  unfold linear G' ghost
  iintro ⟨#HR, Hpos, Htok⟩
  iexists K
  isplitr; · iapply (invs_of_records m K c); iexact HR
  isplitr; · iapply (reachedAll_of_records m K c); iexact HR
  isplitl [Hpos]; · iexact Hpos
  iexact Htok

/-- Step `s` as a permutation of the mesh, and a product over the mesh read along it. -/
def peerEquiv (s : Fin 3) : Dev nD ≃ Dev nD := ⟨peer s, src s, src_peer s, peer_src s⟩

theorem around (s : Fin 3) (Φ : Dev nD → sProp 𝕄) : bigSep Finset.univ Φ = bigSep Finset.univ fun c => Φ (peer s c) :=
  bigSep_univ_equiv (peerEquiv s) Φ

/-- The tokens sent round: duty `d` of a barrier cell to the device whose step `2 - d` reaches its owner, the duty of
    receive cell `e` to the device whose step `e` reaches its owner; the copy and send tokens stay. -/
theorem toks_around : (bigSep Finset.univ fun c : Dev nD => (toks c : sProp 𝕄)) ⊢ bigSep Finset.univ fun c : Dev nD => payToks c := by
  unfold toks payToks
  simp only [bigSep_sep']
  rw [around 2 (fun c : Dev nD => (dutyTok ER (barCell c) 0 0 : sProp 𝕄)),
    around 1 (fun c : Dev nD => (dutyTok ER (barCell c) 0 1 : sProp 𝕄)),
    around 0 (fun c : Dev nD => (dutyTok ER (barCell c) 0 2 : sProp 𝕄)),
    around 0 (fun c : Dev nD => (dutyTok ER (recvCell 0 c) 0 0 : sProp 𝕄)),
    around 1 (fun c : Dev nD => (dutyTok ER (recvCell 1 c) 0 0 : sProp 𝕄)),
    around 2 (fun c : Dev nD => (dutyTok ER (recvCell 2 c) 0 0 : sProp 𝕄))]
  iintro ⟨Hb0, Hb1, Hb2, Hc, Hs0, Hs1, Hs2, Hr0, Hr1, Hr2⟩
  isplitl [Hb0 Hb1 Hb2]
  · isplitl [Hb2]; · iexact Hb2
    isplitl [Hb1]; · iexact Hb1
    iexact Hb0
  isplitl [Hr0 Hr1 Hr2]
  · isplitl [Hr0]; · iexact Hr0
    isplitl [Hr1]; · iexact Hr1
    iexact Hr2
  isplitl [Hs0 Hs1 Hs2]
  · isplitl [Hs0]; · iexact Hs0
    isplitl [Hs1]; · iexact Hs1
    iexact Hs2
  iexact Hc

/-- A persistent assertion in hand serves every factor of a product. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem positions_intro (c : Dev nD) : (bigSep Finset.univ fun k : CellIx => (atPos ER (kcell (c, k)) 0 ∅ 0 : sProp 𝕄)) ⊢ positions c := by
  rw [bigSep_cellIx]; unfold positions
  iintro ⟨Hb, Hc, Hs0, Hs1, Hs2, Hr0, Hr1, Hr2⟩
  isplitl [Hb]; · iexact Hb
  isplitl [Hc]; · iexact Hc
  isplitl [Hs0 Hs1 Hs2]
  · isplitl [Hs0]; · iexact Hs0
    isplitl [Hs1]; · iexact Hs1
    iexact Hs2
  · isplitl [Hr0]; · iexact Hr0
    isplitl [Hr1]; · iexact Hr1
    iexact Hr2

theorem linear_intro (c : Dev nD) :
    iprop((bigSep Finset.univ fun k : CellIx => (atPos ER (kcell (c, k)) 0 ∅ 0 : sProp 𝕄)) ∗ payToks c) ⊢ linear c := by
  unfold linear; exact sep_mono_left (positions_intro c)

theorem regroup :
    (bigSep Finset.univ fun c : Dev nD => iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CellIx => iprop(∃ κ : ℕ, cellInv ER (a2aRd m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄)) payToks).symm).trans
      (bigSep_mono fun c _ => linear_intro c))
    isplitl [Hat]; · iexact Hat
    iexact Htk

/-- The mesh-wide step: every device's own and unscoped semaphores and its deal, into every device's ghost state. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Three units on one cell are one credit of three. -/
theorem cred_bar3 (g : GSem nD τ sig) :
    iprop(cred (tallyAt g () 1) ∗ cred (tallyAt g () 1) ∗ cred (tallyAt g () 1)) ⊢ (cred (tallyAt g () 3) : sProp 𝕄) :=
  (sep_mono_right (cred_add _ _).2).trans (((cred_add _ _).2).trans (Entails.of_eq (by rw [tallyAt_add, tallyAt_add])))

/-- What the mesh owes at launch is, device by device, the credit of that device's waits: each of a device's three peers
    owes its barrier cell a unit, and the device whose step `e` reaches it owes its receive cell `e` a block's credit. -/
theorem creds (c : Dev nD) : (Pipeline.launchCred O₀ c : sProp 𝕄) ⊢ waitCred c := by
  have e0 : (Pipeline.launchCred O₀ c : sProp 𝕄)
      = iprop(Pipeline.launchCred O₁ c ∗ Pipeline.launchCred (fun d => tallyAt (barCell (peer 0 d)) () 1) c) :=
    Pipeline.launchCred_add O₁ (fun d => tallyAt (barCell (peer 0 d)) () 1) c
  have e1 : (Pipeline.launchCred O₁ c : sProp 𝕄)
      = iprop(Pipeline.launchCred O₂ c ∗ Pipeline.launchCred (fun d => tallyAt (barCell (peer 1 d)) () 1) c) :=
    Pipeline.launchCred_add O₂ (fun d => tallyAt (barCell (peer 1 d)) () 1) c
  have e2 : (Pipeline.launchCred O₂ c : sProp 𝕄)
      = iprop(Pipeline.launchCred Orecv c ∗ Pipeline.launchCred (fun d => tallyAt (barCell (peer 2 d)) () 1) c) :=
    Pipeline.launchCred_add Orecv (fun d => tallyAt (barCell (peer 2 d)) () 1) c
  have e3 : (Pipeline.launchCred Orecv c : sProp 𝕄)
      = iprop(Pipeline.launchCred (fun d => tallyAt (recvCell 2 (peer 2 d)) () N + tallyAt (recvCell 1 (peer 1 d)) () N) c
          ∗ Pipeline.launchCred (fun d => tallyAt (recvCell 0 (peer 0 d)) () N) c) :=
    Pipeline.launchCred_add (fun d => tallyAt (recvCell 2 (peer 2 d)) () N + tallyAt (recvCell 1 (peer 1 d)) () N) (fun d => tallyAt (recvCell 0 (peer 0 d)) () N) c
  have e4 : (Pipeline.launchCred (fun d => tallyAt (recvCell 2 (peer 2 d)) () N + tallyAt (recvCell 1 (peer 1 d)) () N) c : sProp 𝕄)
      = iprop(Pipeline.launchCred (fun d => tallyAt (recvCell 2 (peer 2 d)) () N) c ∗ Pipeline.launchCred (fun d => tallyAt (recvCell 1 (peer 1 d)) () N) c) :=
    Pipeline.launchCred_add (fun d => tallyAt (recvCell 2 (peer 2 d)) () N) (fun d => tallyAt (recvCell 1 (peer 1 d)) () N) c
  rw [e0, e1, e2, e3, e4]
  unfold waitCred
  iintro ⟨⟨⟨⟨⟨H2, H1⟩, H0⟩, Hb2⟩, Hb1⟩, Hb0⟩
  ihave Hr2 := (Pipeline.launchCred_tallyAt (.dma (recvS 2)) (peer 2) (src 2) (peer_src 2) (src_peer 2) () N c) $$ H2
  ihave Hr1 := (Pipeline.launchCred_tallyAt (.dma (recvS 1)) (peer 1) (src 1) (peer_src 1) (src_peer 1) () N c) $$ H1
  ihave Hr0 := (Pipeline.launchCred_tallyAt (.dma (recvS 0)) (peer 0) (src 0) (peer_src 0) (src_peer 0) () N c) $$ H0
  ihave Hc2 := (Pipeline.launchCred_tallyAt (.reg barS) (peer 2) (src 2) (peer_src 2) (src_peer 2) () 1 c) $$ Hb2
  ihave Hc1 := (Pipeline.launchCred_tallyAt (.reg barS) (peer 1) (src 1) (peer_src 1) (src_peer 1) () 1 c) $$ Hb1
  ihave Hc0 := (Pipeline.launchCred_tallyAt (.reg barS) (peer 0) (src 0) (peer_src 0) (src_peer 0) () 1 c) $$ Hb0
  isplitl [Hc0 Hc1 Hc2]
  · iapply (cred_bar3 (F := F) (barCell c))
    isplitl [Hc0]; · iexact Hc0
    isplitl [Hc1]; · iexact Hc1
    iexact Hc2
  isplitl [Hr0]; · iexact Hr0
  isplitl [Hr1]; · iexact Hr1
  iexact Hr2

/-- At its barrier wait a device owes its three receive credits only: receive cells, above its barrier cell. -/
theorem mayWait_bar (c : Dev nD) : (levAts L lv : sProp 𝕄) ⊢ MayWait (c : Thread nD τ) (.reg barS) () (Orecv c) :=
  Pipeline.mayWait_of_levAts (by rw [L_tc]; exact Finset.mem_singleton_self _) fun g i hg => by
    have hlt (e : Fin 3) : lv ((c : Thread nD τ), .reg barS) () < lv (recvCell e (peer e c)) () := by
      rw [lv_recv, lv_bar]; decide
    unfold Orecv at hg
    rcases Pipeline.add_pos_cases hg with h | h
    · rcases Pipeline.add_pos_cases h with h | h
      · obtain ⟨rfl, rfl⟩ := Pipeline.tallyAt_pos h
        exact ⟨by rw [L_tc]; exact Finset.mem_singleton_self _, hlt 2⟩
      · obtain ⟨rfl, rfl⟩ := Pipeline.tallyAt_pos h
        exact ⟨by rw [L_tc]; exact Finset.mem_singleton_self _, hlt 1⟩
    · obtain ⟨rfl, rfl⟩ := Pipeline.tallyAt_pos h
      exact ⟨by rw [L_tc]; exact Finset.mem_singleton_self _, hlt 0⟩

/-- info: 'Cert.KernelIdealProof.glob' depends on axioms: [propext, Classical.choice, Quot.sound] -/
#guard_msgs in #print axioms glob
/-- info: 'Cert.KernelIdealProof.hu₀' depends on axioms: [propext, Classical.choice, Quot.sound] -/
#guard_msgs in #print axioms hu₀
/-- info: 'Cert.KernelIdealProof.creds' depends on axioms: [propext, Classical.choice, Quot.sound] -/
#guard_msgs in #print axioms creds

end Cert.KernelIdealProof

end
-- ==== Proof.Blocks.lean ====
/-
  The all-to-all's result as a block of the whole array. The whole array `X` has 16384 rows and 4096 columns. Device
  `c`, at z-coordinate `z = c mod 4`, holds at launch row block `z` of `X` (rows `4096 z` to `4096 z + 4095`, all the
  columns), and is to end holding column block `z` of `X` (all the rows, columns `1024 z` to `1024 z + 1023`). The
  function `outFn` reads entry `(r, l)` of device `c`'s result from entry `(r mod 4096, 1024 z + l)` of the argument
  buffer of the device at place `s = r / 4096` of `c`'s z-ring. That device's z-coordinate is `s`, so its argument buffer
  is row block `s` of `X`, and the entry read is `X` at row `4096 s + r mod 4096 = r` and column `1024 z + l`: entry
  `(r, l)` of column block `z` of `X`.
-/
import proofs.«900657_g7700000000000658_dist_a2a_v7x_xyz2x4x4_z_m4096_n1024_f32_1_alg».proof.Defs
import proofs.«900657_g7700000000000658_dist_a2a_v7x_xyz2x4x4_z_m4096_n1024_f32_1_alg».proof.Proof.Spec
import Idealize.ShloMosaic.Lib.Layout
import Idealize.ShloMosaic.Lib.ValueIdx

noncomputable section

namespace Cert.KernelIdealProof

open Cert.KernelIdeal
open Idealize.ShloMosaic Idealize.ShloMosaic.ValueIdx

/-- Along a dimension cut by the mesh's z axis (the innermost of sizes 2, 4, 4), a device's block is its z-coordinate:
    its number modulo 4. -/
theorem meshLin_z : ∀ c : Dev 32, Layout.meshLin [2, 4, 4] c.val [2] = c.val % 4 := by decide

/-- A dimension that is not cut is one block: every device's block coordinate along it is 0. -/
theorem meshLin_nil (c : Nat) : Layout.meshLin [2, 4, 4] c [] = 0 := rfl

/-- The device at place `s` of a z-ring has z-coordinate `s`. -/
theorem zplace_mod (s : Fin 4) (c : Dev nD) : (zplace s c).val % 4 = s.val := by revert s c; decide

/-- If every device's argument buffer is its row block of `X`, then `outFn` of device `c` is `c`'s column block of `X`.
    Index by index: both sides are `X` at an index of the whole array, and the two indices agree in each coordinate. -/
theorem outFn_eq_block {F : FTy → Type} [FloatOps F]
    (m : (ℓ : Loc Cert.KernelIdeal.nD Cert.KernelIdeal.τ Cert.KernelIdeal.sig) → Buf (Elt F) ℓ)
    (X : Buf (Elt F) (((0 : Dev Cert.ReferenceIdeal.nD).tc : Thread Cert.ReferenceIdeal.nD Cert.ReferenceIdeal.τ).loc Cert.ReferenceIdeal.main_arg0))
    (hagree : ∀ c : Dev Cert.KernelIdeal.nD, m ((c.tc : Thread Cert.KernelIdeal.nD Cert.KernelIdeal.τ).loc Cert.KernelIdeal.main_arg0)
        = Layout.blockN ⟨2, ![4096, 4096]⟩ ⟨2, ![16384, 4096]⟩ (Layout.meshBlock [2, 4, 4] ![[2], []] c) X)
    (c : Dev Cert.KernelIdeal.nD) :
    outFn m c = Layout.blockN ⟨2, ![16384, 1024]⟩ ⟨2, ![16384, 4096]⟩ (Layout.meshBlock [2, 4, 4] ![[], [2]] c) X := by
  funext i
  rw [outFn_apply, hagree, Layout.blockN_apply, Layout.blockN_apply]
  congr 1
  funext b
  apply Fin.ext
  rw [Layout.TilesN.idx_val, Layout.TilesN.idx_val]
  match b with
  | ⟨0, _⟩ =>
    -- the row: `4096 · (z-coordinate of the device at place r / 4096) + r mod 4096` against `16384 · 0 + r`
    show Layout.meshLin [2, 4, 4] (zplace (rowBlk i) c).val [2] * 4096 + (i 0).val % 4096
        = Layout.meshLin [2, 4, 4] c.val [] * 16384 + (i 0).val
    rw [meshLin_z, zplace_mod, meshLin_nil]
    show (i 0).val / 4096 * 4096 + (i 0).val % 4096 = 0 * 16384 + (i 0).val
    omega
  | ⟨1, _⟩ =>
    -- the column: `4096 · 0 + (1024 z + l)` against `1024 · z + l`
    show Layout.meshLin [2, 4, 4] (zplace (rowBlk i) c).val [] * 4096 + (1024 * (c.val % 4) + (i 1).val)
        = Layout.meshLin [2, 4, 4] c.val [2] * 1024 + (i 1).val
    rw [meshLin_nil, meshLin_z]
    omega

/-- info: 'Cert.KernelIdealProof.outFn_eq_block' depends on axioms: [propext, Classical.choice, Quot.sound] -/
#guard_msgs in #print axioms Cert.KernelIdealProof.outFn_eq_block

end Cert.KernelIdealProof

end
-- ==== Proof.RefRun.lean ====
/-
  The reference's run. The reference program runs on one device and its @main has no operation: it returns its
  argument array as its result. So a run of it from any memory with zero counters terminates at once, and the
  argument buffer — which is also the result buffer — ends holding what it held at launch. The program is the
  straight line of NO host operations, and the fold of no operations' results over the launch contents is the
  launch contents.
-/
import proofs.«900657_g7700000000000658_dist_a2a_v7x_xyz2x4x4_z_m4096_n1024_f32_1_alg».proof.ReferenceIdeal
import proofs.«900657_g7700000000000658_dist_a2a_v7x_xyz2x4x4_z_m4096_n1024_f32_1_alg».proof.Proof.Gen.ReferenceIdeal
import Idealize.ShloMosaic.Lib.StableHlo.Run

noncomputable section

namespace Cert.ReferenceIdealProof

open Cert.ReferenceIdeal Cert.ReferenceIdeal.Gen Idealize.ShloMosaic Idealize.SL.Sem Idealize.ShloMosaic.StableHlo

variable {F : FTy → Type} [FloatOps F]

/-- @main's operations: none. -/
abbrev ops : List (HloOp τ sig (Elt F)) := []

/-- @main is the straight line of no operations: the return. -/
theorem main_eq (c : Dev nD) : main (F := F) c = seq ops := rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation of the line — there is none — touches only TensorCore buffers. -/
theorem ops_sub : (ops : List (HloOp τ sig (Elt F))).Forall fun op => op.bufs ⊆ tcRefs τ sig := trivial

/-- From any memory with zero counters, every weakly fair execution of the reference's @main terminates, and its
    argument array (the result) ends holding its launch contents. -/
theorem run (m' : (ℓ : Loc Cert.ReferenceIdeal.nD Cert.ReferenceIdeal.τ Cert.ReferenceIdeal.sig) → Buf (Elt F) ℓ) (g' : Dev Cert.ReferenceIdeal.nD → PrngReg) :
    θ_run (Cert.ReferenceIdeal.defs (F := F)) (onTc (τ := Cert.ReferenceIdeal.τ) (Cert.ReferenceIdeal.main (F := F))) ⟨m', fun _ => 0, g'⟩
      (fun r => r.2.mem (((0 : Dev Cert.ReferenceIdeal.nD).tc : Thread Cert.ReferenceIdeal.nD Cert.ReferenceIdeal.τ).loc Cert.ReferenceIdeal.main_arg0)
                  = m' (((0 : Dev Cert.ReferenceIdeal.nD).tc : Thread Cert.ReferenceIdeal.nD Cert.ReferenceIdeal.τ).loc Cert.ReferenceIdeal.main_arg0)) :=
  (θ_run defs _ _).mono (fun _ h => (h 0 main_arg0).trans (by simp only [after_nil]))
    (run_seq scopedRefs_eq scopedSems_eq defs main (fun _ => ops) main_eq (fun _ => ops_sub) m' g'
      (fun _ _ h => nomatch h))

/-- info: 'Cert.ReferenceIdealProof.run' depends on axioms: [propext, Classical.choice, Quot.sound] -/
#guard_msgs in #print axioms Cert.ReferenceIdealProof.run

end Cert.ReferenceIdealProof

end
-- ==== Proof.Claims.lean ====
/-
  The certificate's claims about the idealized kernel and the reference, from the contract of the kernel's body.

  The run of the mesh (every device's result buffer ends at the all-to-all of the argument buffers, its argument buffer
  unchanged) holds once each device's body meets its contract: the launch-side facts it needs are all proved. From it,
  at the exact floats: the idealized kernel's frame claim is its second half; the algebraic claim adds that, when each
  device's argument buffer is its row block of the whole array, the all-to-all of the argument buffers is that
  device's column block of the whole array, which is what the reference, returning its argument, ends holding.
  The reference's own frame claim is its run: one device, no operation.
-/
import proofs.«900657_g7700000000000658_dist_a2a_v7x_xyz2x4x4_z_m4096_n1024_f32_1_alg».proof.Defs
import proofs.«900657_g7700000000000658_dist_a2a_v7x_xyz2x4x4_z_m4096_n1024_f32_1_alg».proof.Proof.Run
import proofs.«900657_g7700000000000658_dist_a2a_v7x_xyz2x4x4_z_m4096_n1024_f32_1_alg».proof.Proof.Launch
import proofs.«900657_g7700000000000658_dist_a2a_v7x_xyz2x4x4_z_m4096_n1024_f32_1_alg».proof.Proof.Blocks
import proofs.«900657_g7700000000000658_dist_a2a_v7x_xyz2x4x4_z_m4096_n1024_f32_1_alg».proof.Proof.RefRun
import proofs.«900657_g7700000000000658_dist_a2a_v7x_xyz2x4x4_z_m4096_n1024_f32_1_alg».proof.Proof.Gen.Pre_finite_inputs_Kernel
import proofs.«900657_g7700000000000658_dist_a2a_v7x_xyz2x4x4_z_m4096_n1024_f32_1_alg».proof.Proof.Gen.Pre_finite_inputs_ReferenceIdeal

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ UU ℕ

variable (m : (ℓ : Loc nD τ sig) → Buf (Elt F) ℓ)

/-- At the compiled mesh of thirty-two devices, for any float values, from any memory with zero counters: if each
    device's body meets its contract, every weakly fair execution of @main terminates, and every final state has each
    device's result buffer at the all-to-all of the argument buffers and its argument buffer unchanged. -/
theorem run_main (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩
      (fun r => ∀ c : Dev nD, r.2.mem ((c.tc : Thread nD τ).loc main_v1) = outFn m c
                             ∧ r.2.mem ((c.tc : Thread nD τ).loc main_arg0) = m ((c.tc : Thread nD τ).loc main_arg0)) :=
  run_main_of m ρ (G m) u₀ hbody ownSemFacts (hu₀ m) (glob m) (fun c => creds c)

end Run

/-! ## The claims at the exact floats -/

/-- The idealized kernel runs and leaves every device's argument buffer as it was. -/
theorem frame_ideal_of
    (hb : ∀ (m : (ℓ : Loc nD τ sig) → Buf (Elt Ideal) ℓ) (c : Dev nD), BodyObligation (dats (F := Ideal) m 0 c) (defs₀ (F := Ideal)) 𝒱₀ () Set.univ) :
    Cert.frame_KernelIdeal :=
  fun m ρ _ => (θ_run (Cert.KernelIdeal.defs (F := Ideal)) _ _).mono (fun _ h c => (h c).2) (run_main m (hb m) ρ)

/-- The reference runs and leaves its argument array as it was: on its one device. -/
theorem frame_ref : Cert.frame_ReferenceIdeal :=
  fun m' g' _ => (θ_run (Cert.ReferenceIdeal.defs (F := Ideal)) _ _).mono
    (fun _ h c => by
      obtain rfl : c = 0 := Fin.ext (Nat.lt_one_iff.mp c.isLt)
      exact h)
    (Cert.ReferenceIdealProof.run (F := Ideal) m' g')

/-- From memories where every device's argument buffer is its row block of the reference's array: both run; the
    reference ends holding that array, of which each device's result buffer ends holding its column block; and the
    arguments of both end unchanged. -/
theorem algebraic_of
    (hb : ∀ (m : (ℓ : Loc nD τ sig) → Buf (Elt Ideal) ℓ) (c : Dev nD), BodyObligation (dats (F := Ideal) m 0 c) (defs₀ (F := Ideal)) 𝒱₀ () Set.univ) :
    Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · exact (θ_run (Cert.KernelIdeal.defs (F := Ideal)) _ _).mono
      (fun _ h c => ⟨(h c).1.trans (outFn_eq_block m _ hagree c), (h c).2⟩) (run_main m (hb m) ρ)
  · exact (θ_run (Cert.ReferenceIdeal.defs (F := Ideal)) _ _).mono (fun _ h => ⟨h, h⟩) (Cert.ReferenceIdealProof.run (F := Ideal) m' ρ')

/-- info: 'Cert.KernelIdealProof.run_main' depends on axioms: [propext, Classical.choice, Quot.sound] -/
#guard_msgs in #print axioms run_main

/-- info: 'Cert.KernelIdealProof.frame_ideal_of' depends on axioms: [propext, Classical.choice, Quot.sound] -/
#guard_msgs in #print axioms frame_ideal_of

/-- info: 'Cert.KernelIdealProof.frame_ref' depends on axioms: [propext, Classical.choice, Quot.sound] -/
#guard_msgs in #print axioms frame_ref

/-- info: 'Cert.KernelIdealProof.algebraic_of' depends on axioms: [propext, Classical.choice, Quot.sound] -/
#guard_msgs in #print axioms algebraic_of

end Cert.KernelIdealProof

end
-- ==== Proof.Tables.lean ====
/-
  The schedule's tables, cell by cell: which duties round 0 of each cell has, what each is worth, what the round expects
  in all, and what each duty hands over.
-/
import proofs.«900657_g7700000000000658_dist_a2a_v7x_xyz2x4x4_z_m4096_n1024_f32_1_alg».proof.Proof.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Tables
variable (c : Dev nD)

omit [FloatOps F] in
theorem duties_bar : (a2aRd (F := F) m).duties (barCell c) 0 = Finset.univ := by
  show (if (0 : ℕ) = 0 ∧ ((c : Thread nD τ)).2 = Proc.tc then (Finset.univ : Finset (Fin 3)) else ∅) = Finset.univ
  exact if_pos ⟨rfl, rfl⟩
omit [FloatOps F] in
theorem duties_dma (q : DmaSem sig) : (a2aRd (F := F) m).duties ((c : Thread nD τ), .dma q) 0 = {0} := by
  show (if (0 : ℕ) = 0 ∧ ((c : Thread nD τ)).2 = Proc.tc then ({0} : Finset (Fin 3)) else ∅) = {0}
  exact if_pos ⟨rfl, rfl⟩
omit [FloatOps F] in
theorem duties_later (g : GSem nD τ sig) : ∀ r, 1 ≤ r → (a2aRd (F := F) m).duties g r = ∅ :=
  fun r hr => by
    show (if r = 0 ∧ g.1.2 = Proc.tc then (match g.2 with | .reg _ => (Finset.univ : Finset (Fin 3)) | .dma _ => {0}) else ∅) = ∅
    exact if_neg fun h => by omega

omit [FloatOps F] in
theorem amount_bar (d : Fin 3) : (a2aRd (F := F) m).amount (barCell c) 0 d = 1 := rfl
omit [FloatOps F] in
theorem amount_dma (q : DmaSem sig) (d : Fin 3) : (a2aRd (F := F) m).amount ((c : Thread nD τ), .dma q) 0 d = N := rfl

omit [FloatOps F] in
theorem expect_bar : (a2aRd (F := F) m).expect (barCell c) 0 = 3 := by
  show (∑ d ∈ (a2aRd (F := F) m).duties (barCell c) 0, (a2aRd (F := F) m).amount (barCell c) 0 d) = 3
  rw [duties_bar]
  show (∑ _d : Fin 3, (1 : ℕ)) = 3
  rw [Finset.sum_const, Finset.card_univ, Fintype.card_fin, smul_eq_mul]
omit [FloatOps F] in
/-- A round with one duty expects that duty's amount: for any schedule. -/
theorem expect_of_singleton (Rd : Rounds.Schedule (GSem nD τ sig) (Fin 3) 𝕄) (g : GSem nD τ sig) (r : ℕ) (d : Fin 3)
    (h : Rd.duties g r = {d}) : Rd.expect g r = Rd.amount g r d := by
  unfold Schedule.expect Schedule.amountOf; rw [h, Finset.sum_singleton]
omit [FloatOps F] in
theorem expect_dma' (q : DmaSem sig) : (a2aRd (F := F) m).expect ((c : Thread nD τ), .dma q) 0 = (a2aRd (F := F) m).amount ((c : Thread nD τ), .dma q) 0 0 :=
  expect_of_singleton (a2aRd (F := F) m) _ 0 0 (duties_dma m c q)
omit [FloatOps F] in
/-- A wait naming a row block of a result, or a column block of an argument, takes exactly what a DMA cell's round expects. -/
theorem wait_row (q : DmaSem sig) (c' : Dev nD) (k : Fin 4) : 0 + (rowM c' k).view.dmaCredit = (a2aRd (F := F) m).expect ((c : Thread nD τ), .dma q) 0 :=
  (Nat.zero_add _).trans ((rowM_credit c' k).trans ((amount_dma m c q 0).symm.trans (expect_dma' m c q).symm))
omit [FloatOps F] in
theorem wait_col (q : DmaSem sig) (c' : Dev nD) (k : Fin 4) : 0 + (colM c' k).view.dmaCredit = (a2aRd (F := F) m).expect ((c : Thread nD τ), .dma q) 0 :=
  (Nat.zero_add _).trans ((colM_credit c' k).trans ((amount_dma m c q 0).symm.trans (expect_dma' m c q).symm))

omit [FloatOps F] in
theorem payload_bar (d : Fin 3) : (a2aRd (F := F) m).payload (barCell c) 0 d = barPay c d := rfl
omit [FloatOps F] in
theorem payload_copy (d : Fin 3) : (a2aRd (F := F) m).payload (copyCell c) 0 d = copyPay m c := rfl
omit [FloatOps F] in
theorem payload_send (e d : Fin 3) : (a2aRd (F := F) m).payload (sendCell e c) 0 d = sendPay m c e := by
  show dmaPay m c (1 + e.val) = _
  have he := e.isLt
  unfold dmaPay
  rw [if_neg (by omega), if_pos (by omega)]
  exact congrArg (sendPay m c) (Fin.ext (by show (1 + e.val - 1) % 3 = e.val; omega))
omit [FloatOps F] in
theorem payload_recv (e d : Fin 3) : (a2aRd (F := F) m).payload (recvCell e c) 0 d = recvPay m c e := by
  show dmaPay m c (4 + e.val) = _
  have he := e.isLt
  unfold dmaPay
  rw [if_neg (by omega), if_neg (by omega)]
  exact congrArg (recvPay m c) (Fin.ext (by show (4 + e.val - 4) % 3 = e.val; omega))

omit [FloatOps F] in
/-- The whole of the barrier cell's round: the three peers' hand-overs. -/
theorem rest_bar : bigSep ((a2aRd (F := F) m).duties (barCell c) 0 \ ∅) (fun d => (a2aRd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
omit [FloatOps F] in
theorem rest_copy : bigSep ((a2aRd (F := F) m).duties (copyCell c) 0 \ ∅) (fun d => (a2aRd (F := F) m).payload (copyCell c) 0 d) = copyPay m c := by
  rw [Finset.sdiff_empty, duties_dma, bigSep_singleton, payload_copy]
omit [FloatOps F] in
theorem rest_send (e : Fin 3) : bigSep ((a2aRd (F := F) m).duties (sendCell e c) 0 \ ∅) (fun d => (a2aRd (F := F) m).payload (sendCell e c) 0 d) = sendPay m c e := by
  rw [Finset.sdiff_empty, duties_dma, bigSep_singleton, payload_send]
omit [FloatOps F] in
theorem rest_recv (e : Fin 3) : bigSep ((a2aRd (F := F) m).duties (recvCell e c) 0 \ ∅) (fun d => (a2aRd (F := F) m).payload (recvCell e c) 0 d) = recvPay m c e := by
  rw [Finset.sdiff_empty, duties_dma, bigSep_singleton, payload_recv]

end Tables

end Cert.KernelIdealProof

end
-- ==== Proof.Regions.lean ====
/-
  Blocks of the two buffers. A result buffer (16384 x 1024) is four row blocks of 4096 rows; an argument buffer
  (4096 x 4096) is four column blocks of 1024 columns. Block `k` counted from device `c` sits at position
  `(c mod 4 + k) mod 4`. This module says (i) where an index of a block lands in its buffer, (ii) that a column block of
  device `c`'s argument, written into the row block at `c`'s position of a result buffer — `c`'s own, or a peer's —
  is what the all-to-all's result holds there, and (iii) that a whole buffer is its four blocks.
-/
import proofs.«900657_g7700000000000658_dist_a2a_v7x_xyz2x4x4_z_m4096_n1024_f32_1_alg».proof.Proof.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Where a block's index lands -/

theorem rowM_emb_val0 (c : Dev nD) (k : Fin 4) (y : S4096x1024.Idx) :
    ((rowM c k).view.emb y 0).val = 4096 * ((c.val % 4 + k.val) % 4) + (y 0).val := by
  show 4096 * ((c.val % 4 + k.val) % 4) + 1 * (y 0).val = _; rw [Nat.one_mul]
theorem rowM_emb_val1 (c : Dev nD) (k : Fin 4) (y : S4096x1024.Idx) :
    ((rowM c k).view.emb y 1).val = (y 1).val := by
  show 0 + 1 * (y 1).val = _; rw [Nat.one_mul, Nat.zero_add]
theorem colM_emb_val0 (c : Dev nD) (k : Fin 4) (y : S4096x1024.Idx) :
    ((colM c k).view.emb y 0).val = (y 0).val := by
  show 0 + 1 * (y 0).val = _; rw [Nat.one_mul, Nat.zero_add]
theorem colM_emb_val1 (c : Dev nD) (k : Fin 4) (y : S4096x1024.Idx) :
    ((colM c k).view.emb y 1).val = 1024 * ((c.val % 4 + k.val) % 4) + (y 1).val := by
  show 1024 * ((c.val % 4 + k.val) % 4) + 1 * (y 1).val = _; rw [Nat.one_mul]

theorem rowBlk_rowM (c : Dev nD) (y : S4096x1024.Idx) :
    rowBlk ((rowM c 0).view.emb y) = ⟨c.val % 4, Nat.mod_lt _ (by decide)⟩ := by
  apply Fin.ext
  show ((rowM c 0).view.emb y 0).val / 4096 = c.val % 4
  rw [rowM_emb_val0]
  have h0 : (y 0).val < 4096 := (y 0).isLt
  show (4096 * ((c.val % 4 + 0) % 4) + (y 0).val) / 4096 = c.val % 4
  omega

theorem zplace_peer (e : Fin 3) (c : Dev nD) : zplace ⟨c.val % 4, Nat.mod_lt _ (by decide)⟩ (peer e c) = c := by
  revert e c; decide

theorem srcIdx_rowM (d c : Dev nD) (k : Fin 4) (h : d.val % 4 = (c.val % 4 + k.val) % 4) (y : S4096x1024.Idx) :
    srcIdx d ((rowM c 0).view.emb y) = (colM c k).view.emb y := by
  have h0 : (y 0).val < 4096 := (y 0).isLt
  funext a
  match a with
  | ⟨0, _⟩ =>
    apply Fin.ext
    show ((rowM c 0).view.emb y 0).val % 4096 = ((colM c k).view.emb y 0).val
    rw [rowM_emb_val0, colM_emb_val0]
    omega
  | ⟨1, _⟩ =>
    apply Fin.ext
    show 1024 * (d.val % 4) + ((rowM c 0).view.emb y 1).val = ((colM c k).view.emb y 1).val
    rw [rowM_emb_val1, colM_emb_val1, h]

/-! ## What a copy writes -/

/-- The local copy: device `c`'s own column block, written into its own row block, is the result there. -/
theorem local_write_eq (c : Dev nD) (fd : Buf (Elt F) ((rowM c 0).view.loc (c : Thread nD τ))) :
    ∀ i ∈ (rowM c 0).view.set, (rowM c 0).view.write (Elt F) fd ((colM c 0).view.read (Elt F) (m ((c : Thread nD τ).loc main_arg0))) Finset.univ i = outFn m c i := by
  intro i hi
  obtain ⟨y, rfl⟩ := View.exists_emb_of_mem_set _ hi
  rw [View.write_emb_of_mem _ _ (Finset.mem_univ y), View.read_apply, outFn_apply, rowBlk_rowM, zplace_self,
    srcIdx_rowM c c 0 (by show c.val % 4 = (c.val % 4 + 0) % 4; omega)]
  rfl

/-- The transfer of step `e`: device `c`'s column block `e + 1`, written into the peer's row block at `c`'s position,
    is the peer's result there. -/
theorem remote_write_eq (c : Dev nD) (e : Fin 3) (fd : Buf (Elt F) ((rowM c 0).view.loc ((peer e c : Dev nD) : Thread nD τ))) :
    ∀ i ∈ (rowM c 0).view.set, (rowM c 0).view.write (Elt F) fd ((colM c e.succ).view.read (Elt F) (m ((c : Thread nD τ).loc main_arg0))) Finset.univ i = outFn m (peer e c) i := by
  intro i hi
  obtain ⟨y, rfl⟩ := View.exists_emb_of_mem_set _ hi
  rw [View.write_emb_of_mem _ _ (Finset.mem_univ y), View.read_apply, outFn_apply, rowBlk_rowM, zplace_peer,
    srcIdx_rowM (peer e c) c e.succ (by rw [peer_mod]; rfl)]
  rfl

/-! ## The four blocks of a buffer -/

/-- An index lies in row block `k` (counted from `c`) when its row does. -/
theorem mem_rowRect (c : Dev nD) (k : Fin 4) (i : S16384x1024.Idx) :
    i ∈ (rowRect c k).set ↔ 4096 * ((c.val % 4 + k.val) % 4) ≤ (i 0).val ∧ (i 0).val < 4096 * ((c.val % 4 + k.val) % 4) + 4096 := by
  rw [Rect.mem_set_unit, Fin.forall_fin_two]
  have h1 : (i 1).val < 1024 := (i 1).isLt
  show (4096 * ((c.val % 4 + k.val) % 4) ≤ (i 0).val ∧ (i 0).val < 4096 * ((c.val % 4 + k.val) % 4) + 4096)
      ∧ (0 ≤ (i 1).val ∧ (i 1).val < 0 + 1024) ↔ _
  omega

/-- An index lies in column block `k` (counted from `c`) when its column does. -/
theorem mem_colRect (c : Dev nD) (k : Fin 4) (i : S4096x4096.Idx) :
    i ∈ (colRect c k).set ↔ 1024 * ((c.val % 4 + k.val) % 4) ≤ (i 1).val ∧ (i 1).val < 1024 * ((c.val % 4 + k.val) % 4) + 1024 := by
  rw [Rect.mem_set_unit, Fin.forall_fin_two]
  have h0 : (i 0).val < 4096 := (i 0).isLt
  show (0 ≤ (i 0).val ∧ (i 0).val < 0 + 4096)
      ∧ (1024 * ((c.val % 4 + k.val) % 4) ≤ (i 1).val ∧ (i 1).val < 1024 * ((c.val % 4 + k.val) % 4) + 1024) ↔ _
  omega

/-- Blocks that start at the same place are the same set of elements. -/
theorem rowRect_set_congr {c c' : Dev nD} {k k' : Fin 4} (h : rowOff c' k' = rowOff c k) : (rowRect c' k').set = (rowRect c k).set := by
  ext i; rw [Rect.mem_set_unit, Rect.mem_set_unit, h]

/-- Four consecutive positions round a ring of four, of blocks of `w` each, tile `4 w`: every place below `4 w` is in one of them. -/
theorem cover4 (w z r : Nat) (hz : z < 4) (hr : r < 4 * w) :
    (w * ((z + 0) % 4) ≤ r ∧ r < w * ((z + 0) % 4) + w) ∨ (w * ((z + 1) % 4) ≤ r ∧ r < w * ((z + 1) % 4) + w)
      ∨ (w * ((z + 2) % 4) ≤ r ∧ r < w * ((z + 2) % 4) + w) ∨ (w * ((z + 3) % 4) ≤ r ∧ r < w * ((z + 3) % 4) + w) := by
  have h4 : z = 0 ∨ z = 1 ∨ z = 2 ∨ z = 3 := by omega
  rcases h4 with rfl | rfl | rfl | rfl <;> simp only [Nat.reduceAdd, Nat.reduceMod, Nat.mul_zero, Nat.mul_one, Nat.zero_add] <;> omega

/-- Two different positions round the ring give blocks one of which ends before the other starts. -/
theorem apart4 (w z k k' : Nat) (hz : z < 4) (hk : k < 4) (hk' : k' < 4) (hne : k ≠ k') :
    w * ((z + k) % 4) + w ≤ w * ((z + k') % 4) ∨ w * ((z + k') % 4) + w ≤ w * ((z + k) % 4) := by
  have h : (z + k) % 4 + 1 ≤ (z + k') % 4 ∨ (z + k') % 4 + 1 ≤ (z + k) % 4 := by omega
  rcases h with h | h
  · left; calc w * ((z + k) % 4) + w = w * ((z + k) % 4 + 1) := (Nat.mul_succ _ _).symm
      _ ≤ w * ((z + k') % 4) := Nat.mul_le_mul_left _ h
  · right; calc w * ((z + k') % 4) + w = w * ((z + k') % 4 + 1) := (Nat.mul_succ _ _).symm
      _ ≤ w * ((z + k) % 4) := Nat.mul_le_mul_left _ h

theorem rows_cover (c : Dev nD) :
    (Finset.univ : Finset S16384x1024.Idx) = (rowRect c 0).set ∪ ((rowRect c 1).set ∪ ((rowRect c 2).set ∪ (rowRect c 3).set)) := by
  ext i
  simp only [Finset.mem_univ, Finset.mem_union, mem_rowRect, true_iff]
  exact cover4 4096 (c.val % 4) (i 0).val (Nat.mod_lt _ (by decide)) (i 0).isLt

theorem cols_cover (c : Dev nD) :
    (Finset.univ : Finset S4096x4096.Idx) = (colRect c 0).set ∪ ((colRect c 1).set ∪ ((colRect c 2).set ∪ (colRect c 3).set)) := by
  ext i
  simp only [Finset.mem_univ, Finset.mem_union, mem_colRect, true_iff]
  exact cover4 1024 (c.val % 4) (i 1).val (Nat.mod_lt _ (by decide)) (i 1).isLt

theorem rowRect_disjoint (c : Dev nD) (k k' : Fin 4) (h : k ≠ k') : Disjoint (rowRect c k).set (rowRect c k').set :=
  Rect.unit_disjoint 0 (apart4 4096 (c.val % 4) k.val k'.val (Nat.mod_lt _ (by decide)) k.isLt k'.isLt (fun e => h (Fin.ext e)))

theorem colRect_disjoint (c : Dev nD) (k k' : Fin 4) (h : k ≠ k') : Disjoint (colRect c k).set (colRect c k').set :=
  Rect.unit_disjoint 1 (apart4 1024 (c.val % 4) k.val k'.val (Nat.mod_lt _ (by decide)) k.isLt k'.isLt (fun e => h (Fin.ext e)))

/-! ## What a copy hands over -/

/-- The local copy's two blocks, the row block written, are what its cell's duty hands over. -/
theorem copy_pay (c : Dev nD) (fd : Buf (Elt F) ((rowM c 0).view.loc (c : Thread nD τ))) :
    iprop(((rowM c 0).view.loc (c : Thread nD τ) ↦[(rowM c 0).view.set]{fullShare} ((rowM c 0).view.write (Elt F) fd ((colM c 0).view.read (Elt F) (m ((c : Thread nD τ).loc main_arg0))) Finset.univ))
        ∗ ((colM c 0).view.loc (c : Thread nD τ) ↦[(colM c 0).view.set]{fullShare} m ((c : Thread nD τ).loc main_arg0)))
      ⊢ (copyPay m c : sProp 𝕄) := by
  refine Entails.of_eq ?_
  unfold copyPay rowPts colPts
  rw [pointsTo_congr (local_write_eq m c fd)]

/-- The row block a transfer of step `e` has landed in, at the receiver, is what the receiver's receive cell `e` hands over. -/
theorem recv_pay (c : Dev nD) (e : Fin 3) (fd : Buf (Elt F) ((rowM c 0).view.loc ((peer e c : Dev nD) : Thread nD τ))) :
    ((rowM c 0).view.loc ((peer e c : Dev nD) : Thread nD τ) ↦[(rowM c 0).view.set]{fullShare} ((rowM c 0).view.write (Elt F) fd ((colM c e.succ).view.read (Elt F) (m ((c : Thread nD τ).loc main_arg0))) Finset.univ))
      ⊢ (recvPay m (peer e c) e : sProp 𝕄) := by
  refine Entails.of_eq ?_
  unfold recvPay rowPts
  rw [pointsTo_congr (remote_write_eq m c e fd)]
  show pointsTo (((peer e c : Dev nD) : Thread nD τ).loc main_v1) (rowM c 0).view.set fullShare (outFn m (peer e c))
      = pointsTo (((peer e c : Dev nD) : Thread nD τ).loc main_v1) (rowM (peer e c) (Fin.rev e.castSucc)).view.set fullShare (outFn m (peer e c))
  rw [rowM_set, rowM_set, rowRect_set_congr (rowOff_peer c e)]

/-! ## A whole buffer as its four blocks -/

/-- Holding a buffer on two disjoint sets of elements is holding it on each. -/
theorem pts_union_eq {ℓ : Loc nD τ sig} {I J : Finset (Idx ℓ)} (f : Buf (Elt F) ℓ) (h : Disjoint I J) :
    (pointsTo ℓ (I ∪ J) fullShare f : sProp 𝕄) = iprop(pointsTo ℓ I fullShare f ∗ pointsTo ℓ J fullShare f) :=
  BI.equiv_iff.mp ⟨(pointsTo_union h).1, (pointsTo_union h).2⟩

/-- A result buffer, whole, is its four row blocks (counted from any device `c`). -/
theorem rows_split (d c : Dev nD) (f : Buf (Elt F) ((d : Thread nD τ).loc main_v1)) :
    ((((d : Thread nD τ).loc main_v1) ↦{fullShare} f) : sProp 𝕄) ⊣⊢ iprop(rowPts d c 0 f ∗ rowPts d c 1 f ∗ rowPts d c 2 f ∗ rowPts d c 3 f) := by
  refine BIBase.BiEntails.of_eq ?_
  unfold rowPts
  show (pointsTo ((d : Thread nD τ).loc main_v1) Finset.univ fullShare f : sProp 𝕄)
      = (iprop(pointsTo ((d : Thread nD τ).loc main_v1) (rowM c 0).view.set fullShare f
          ∗ pointsTo ((d : Thread nD τ).loc main_v1) (rowM c 1).view.set fullShare f
          ∗ pointsTo ((d : Thread nD τ).loc main_v1) (rowM c 2).view.set fullShare f
          ∗ pointsTo ((d : Thread nD τ).loc main_v1) (rowM c 3).view.set fullShare f) : sProp 𝕄)
  have d23 : Disjoint (rowRect c 2).set (rowRect c 3).set := rowRect_disjoint c 2 3 (by decide)
  have d1 : Disjoint (rowRect c 1).set ((rowRect c 2).set ∪ (rowRect c 3).set) :=
    Finset.disjoint_union_right.mpr ⟨rowRect_disjoint c 1 2 (by decide), rowRect_disjoint c 1 3 (by decide)⟩
  have d0 : Disjoint (rowRect c 0).set ((rowRect c 1).set ∪ ((rowRect c 2).set ∪ (rowRect c 3).set)) :=
    Finset.disjoint_union_right.mpr ⟨rowRect_disjoint c 0 1 (by decide),
      Finset.disjoint_union_right.mpr ⟨rowRect_disjoint c 0 2 (by decide), rowRect_disjoint c 0 3 (by decide)⟩⟩
  rw [rowM_set, rowM_set, rowM_set, rowM_set, rows_cover c,
    pts_union_eq _ d0, pts_union_eq _ d1, pts_union_eq _ d23]

/-- An argument buffer, whole and at its launch contents, is its four column blocks. -/
theorem cols_split (c : Dev nD) :
    ((((c : Thread nD τ).loc main_arg0) ↦{fullShare} m ((c : Thread nD τ).loc main_arg0)) : sProp 𝕄) ⊣⊢ iprop(colPts m c 0 ∗ colPts m c 1 ∗ colPts m c 2 ∗ colPts m c 3) := by
  refine BIBase.BiEntails.of_eq ?_
  unfold colPts
  show (pointsTo ((c : Thread nD τ).loc main_arg0) Finset.univ fullShare (m ((c : Thread nD τ).loc main_arg0)) : sProp 𝕄)
      = (iprop(pointsTo ((c : Thread nD τ).loc main_arg0) (colM c 0).view.set fullShare (m ((c : Thread nD τ).loc main_arg0))
          ∗ pointsTo ((c : Thread nD τ).loc main_arg0) (colM c 1).view.set fullShare (m ((c : Thread nD τ).loc main_arg0))
          ∗ pointsTo ((c : Thread nD τ).loc main_arg0) (colM c 2).view.set fullShare (m ((c : Thread nD τ).loc main_arg0))
          ∗ pointsTo ((c : Thread nD τ).loc main_arg0) (colM c 3).view.set fullShare (m ((c : Thread nD τ).loc main_arg0))) : sProp 𝕄)
  have d23 : Disjoint (colRect c 2).set (colRect c 3).set := colRect_disjoint c 2 3 (by decide)
  have d1 : Disjoint (colRect c 1).set ((colRect c 2).set ∪ (colRect c 3).set) :=
    Finset.disjoint_union_right.mpr ⟨colRect_disjoint c 1 2 (by decide), colRect_disjoint c 1 3 (by decide)⟩
  have d0 : Disjoint (colRect c 0).set ((colRect c 1).set ∪ ((colRect c 2).set ∪ (colRect c 3).set)) :=
    Finset.disjoint_union_right.mpr ⟨colRect_disjoint c 0 1 (by decide),
      Finset.disjoint_union_right.mpr ⟨colRect_disjoint c 0 2 (by decide), colRect_disjoint c 0 3 (by decide)⟩⟩
  rw [colM_set, colM_set, colM_set, colM_set, cols_cover c,
    pts_union_eq _ d0, pts_union_eq _ d1, pts_union_eq _ d23]

/-! ## Renaming a block -/

/-- Blocks counted from different devices that start at the same place are the same slice of the buffer. -/
theorem rowM_congr (c c' : Dev nD) (k k' : Fin 4) (h : rowOff c k = rowOff c' k') : rowM c k = rowM c' k' :=
  rowM_of_off (rowOff_inb c k) c' k' h

/-- The same, of the assertion that a device's result buffer holds `f` on the block. -/
theorem rowPts_congr (d c c' : Dev nD) (k k' : Fin 4) (h : rowOff c k = rowOff c' k') (f : Buf (Elt F) ((d : Thread nD τ).loc main_v1)) :
    (rowPts d c k f : sProp 𝕄) = rowPts d c' k' f := by
  unfold rowPts
  show (pointsTo ((d : Thread nD τ).loc main_v1) (rowM c k).view.set fullShare f : sProp 𝕄)
      = pointsTo ((d : Thread nD τ).loc main_v1) (rowM c' k').view.set fullShare f
  rw [rowM_set, rowM_set, rowRect_set_congr h]

/-- Device `c`'s row block `e + 1` is the block at its step-`e` peer's position. -/
theorem rowPts_hand (c : Dev nD) (e : Fin 3) (f : Buf (Elt F) ((c : Thread nD τ).loc main_v1)) :
    (rowPts c c e.succ f : sProp 𝕄) = rowPts c (peer e c) 0 f :=
  rowPts_congr c c (peer e c) e.succ 0 (rowOff_succ c e) f

/-- The block of the peer's result at `c`'s position is, counted from the peer, its block `3 - e`. -/
theorem rowPts_land (c : Dev nD) (e : Fin 3) (f : Buf (Elt F) (((peer e c : Dev nD) : Thread nD τ).loc main_v1)) :
    (rowPts (peer e c) c 0 f : sProp 𝕄) = rowPts (peer e c) (peer e c) (Fin.rev e.castSucc) f :=
  rowPts_congr (peer e c) c (peer e c) 0 (Fin.rev e.castSucc) (rowOff_peer c e).symm f

/-- info: 'Cert.KernelIdealProof.local_write_eq' depends on axioms: [propext, Classical.choice, Quot.sound] -/
#guard_msgs in #print axioms Cert.KernelIdealProof.local_write_eq
/-- info: 'Cert.KernelIdealProof.remote_write_eq' depends on axioms: [propext, Classical.choice, Quot.sound] -/
#guard_msgs in #print axioms Cert.KernelIdealProof.remote_write_eq
/-- info: 'Cert.KernelIdealProof.copy_pay' depends on axioms: [propext, Classical.choice, Quot.sound] -/
#guard_msgs in #print axioms Cert.KernelIdealProof.copy_pay
/-- info: 'Cert.KernelIdealProof.recv_pay' depends on axioms: [propext, Classical.choice, Quot.sound] -/
#guard_msgs in #print axioms Cert.KernelIdealProof.recv_pay
/-- info: 'Cert.KernelIdealProof.rows_split' depends on axioms: [propext, Classical.choice, Quot.sound] -/
#guard_msgs in #print axioms Cert.KernelIdealProof.rows_split
/-- info: 'Cert.KernelIdealProof.cols_split' depends on axioms: [propext, Classical.choice, Quot.sound] -/
#guard_msgs in #print axioms Cert.KernelIdealProof.cols_split
/-- info: 'Cert.KernelIdealProof.rowM_congr' depends on axioms: [propext, Classical.choice, Quot.sound] -/
#guard_msgs in #print axioms Cert.KernelIdealProof.rowM_congr
/-- info: 'Cert.KernelIdealProof.rowPts_congr' depends on axioms: [propext, Classical.choice, Quot.sound] -/
#guard_msgs in #print axioms Cert.KernelIdealProof.rowPts_congr
/-- info: 'Cert.KernelIdealProof.rowPts_hand' depends on axioms: [propext, Classical.choice, Quot.sound] -/
#guard_msgs in #print axioms Cert.KernelIdealProof.rowPts_hand
/-- info: 'Cert.KernelIdealProof.rowPts_land' depends on axioms: [propext, Classical.choice, Quot.sound] -/
#guard_msgs in #print axioms Cert.KernelIdealProof.rowPts_land

end Cert.KernelIdealProof

end
-- ==== Proof.Body.lean ====
/-
  The body of one device's kernel, stepped from its invariant.

  In program order: three signals, each paying one duty of a peer's barrier cell and handing that peer the row block
  it will write; the wait for the three units of the device's own barrier cell, which brings the three peers' row
  blocks at the device's position; the local copy of the device's own column block into its own row block; three
  transfers, each reading one column block and writing the peer's row block received with the barrier; the waits
  on the copy cell, the three send cells and the three receive cells, which bring every block back, the row
  blocks holding what the all-to-all leaves there. The four column blocks rejoin to the argument as it was and the
  four row blocks to the result.
-/
import proofs.«900657_g7700000000000658_dist_a2a_v7x_xyz2x4x4_z_m4096_n1024_f32_1_alg».proof.Proof.Data
import proofs.«900657_g7700000000000658_dist_a2a_v7x_xyz2x4x4_z_m4096_n1024_f32_1_alg».proof.Proof.Tables
import proofs.«900657_g7700000000000658_dist_a2a_v7x_xyz2x4x4_z_m4096_n1024_f32_1_alg».proof.Proof.Regions
import proofs.«900657_g7700000000000658_dist_a2a_v7x_xyz2x4x4_z_m4096_n1024_f32_1_alg».proof.Proof.Gen.KernelIdeal.Points

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.Tactic

/-- The peer of step `s` reaches the device back in its own step `2 - s`. -/
theorem peer_rev_peer : ∀ (s : Fin 3) (c : Dev nD), peer (Fin.rev s) (peer s c) = c := by decide

section Body

variable (K : Dev nD × CellIx → ℕ)

/-- The signal of step `s`: it pays duty `2 - s` of the peer's barrier cell, handing over the row block the peer will
    write and that the device's receive cell `2 - s` is open. -/
theorem wp_sig (c : Dev nD) (s : Fin 3) (t : Dev nD) (ht : t = peer s c) (O' O : CellTallies nD τ sig Unit)
    (hO : O' = O + tallyAt (barCell (peer s c)) () 1) (W : Waits sig Unit)
    (f : Buf (Elt F) ((c : Thread nD τ).loc main_v1))
    {α : Type} {Q : α → sProp 𝕄} {k : PUnit → Prog (TpuEff nD τ sig (Elt F) Λ₀ .tc) α} :
    iprop(cellInv ER (a2aRd m) (K (peer s c, .bar)) (barCell (peer s c))
        ∗ owes (c : Thread nD τ) O' W
        ∗ dutyTok ER (barCell (peer s c)) 0 (Fin.rev s)
        ∗ rowPts c c s.succ f ∗ reached ER (recvCell (Fin.rev s) c) 0
        ∗ reached ER (barCell (peer s c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((t : Dev nD), Proc.tc) barS 1) k) Q) := by
  subst ht
  iintro ⟨#HI, HO, Ht, Hv, #Hrq, #Hrb⟩
  iapply (Rounds.wp_signal 𝒱₀ ER (a2aRd m) (c : Thread nD τ) none (dst := ((peer s c : Dev nD) : Thread nD τ)) (κ := K (peer s c, .bar))
      (d := Fin.rev s) (by rw [duties_bar]; exact Finset.mem_univ _) (amount_bar m (peer s c) (Fin.rev s)) () O hO)
    $$ [HO Ht Hv]
  · isplitr; · iexact HI
    isplitl [HO]; · iexact HO
    isplitl [Ht]; · iexact Ht
    isplitl [Hv]
    · rw [payload_bar]; unfold barPay; rw [peer_rev_peer]
      isplitl [Hv]
      · iexists f; rw [← rowPts_hand]; iexact Hv
      · iexact Hrq
    · iexact Hrb

/-- The transfer of step `e`: it reads column block `e + 1` and writes the peer's row block at the device's position,
    paying the one duty of the device's send cell `e` and of the peer's receive cell `e`. Stated for any spelling of the
    peer, the source block and the two semaphores that equals these. -/
theorem wp_xfer (c : Dev nD) (e : Fin 3) (t : Dev nD) (ht : t = peer e c)
    {src : Memref sig .tc .hbm S4096x1024 .f32} (hs : src = colM c e.succ)
    {sS sR : DmaSem sig} (hsS : sS = sendS e) (hsR : sR = recvS e)
    {hsc : (rowM c 0 : Memref sig (Dev.tc t : Thread nD τ).2.kind .hbm S4096x1024 .f32).view.ref.isScScratch = false}
    {hsrc : src.view.WordExact} {hdst : (rowM c 0).view.WordExact}
    {hsem : DmaTarget.Typed .hbm (.dma sR) (.remote (Dev.tc t : Thread nD τ) (rowM c 0) (.dma sS) hsc)}
    {α : Type} {Q : α → sProp 𝕄} {k : PUnit → Prog (TpuEff nD τ sig (Elt F) Λ₀ .tc) α}
    (fd : Buf (Elt F) ((rowM c 0).view.loc ((peer e c : Dev nD) : Thread nD τ))) (O' O : CellTallies nD τ sig Unit)
    (hO : O' = O + tallyAt (recvCell e (peer e c)) () N) (W : Waits sig Unit) :
    iprop(cellInv ER (a2aRd m) (K (c, .send e)) (sendCell e c) ∗ cellInv ER (a2aRd m) (K (peer e c, .recv e)) (recvCell e (peer e c))
        ∗ colPts m c e.succ ∗ rowPts (peer e c) c 0 fd
        ∗ owes (c : Thread nD τ) O' W
        ∗ dutyTok ER (sendCell e c) 0 0 ∗ reached ER (sendCell e c) 0
        ∗ dutyTok ER (recvCell e (peer e c)) 0 0 ∗ reached ER (recvCell e (peer e c)) 0)
      ⊢ iprop(((cred (tallyAt (sendCell e c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t : Thread nD τ) (rowM c 0) (.dma sS) hsc) (.dma sR) hsrc hdst hsem) k) Q) := by
  subst ht hs hsS hsR
  unfold colPts rowPts
  exact Rounds.wp_send_pointsTo 𝒱₀ ER (a2aRd m) (c : Thread nD τ) none (src := colM c e.succ) (dst := rowM c 0) (c' := ((peer e c : Dev nD) : Thread nD τ))
    (q := fullShare) (fs := m ((c : Thread nD τ).loc main_arg0))
    (κ₁ := K (c, .send e)) (κ₂ := K (peer e c, .recv e))
    (r₁ := 0) (r₂ := 0) (d₁ := 0) (d₂ := 0) (fd := fd)
    (by rw [duties_dma]; exact Finset.mem_singleton_self _) (by rw [duties_dma]; exact Finset.mem_singleton_self _)
    () () N rfl (amount_dma m c (sendS e) 0) (amount_dma m (peer e c) (recvS e) 0) O hO (W := W)
    (by rw [payload_send]; unfold sendPay colPts; exact BI.Entails.refl _)
    (by rw [payload_recv]; exact recv_pay m c e fd)

/-- The wait on one of the device's own DMA cells, owing nothing: the whole of its one round comes back. Stated for any
    spelling of the semaphore that equals the cell's, and any views whose destination carries a block's credit. -/
theorem wp_dwait (c : Dev nD) (q : DmaSem sig) (κ : ℕ) {sem : DmaSem sig} (hq : sem = q)
    {sp sp' : Space} {s s' : Shape} {e e' : EltTy} {src : Memref sig .tc sp' s' e'} {dst : Memref sig .tc sp s e}
    {hsrc : src.view.WordExact} {hdst : dst.view.WordExact} (hcr : dst.view.dmaCredit = N) (W : Waits sig Unit)
    {α : Type} {Q : α → sProp 𝕄} {k : PUnit → Prog (TpuEff nD τ sig (Elt F) Λ₀ .tc) α} :
    iprop(cellInv ER (a2aRd m) κ ((c : Thread nD τ), .dma q) ∗ cred (tallyAt ((c : Thread nD τ), .dma q) () N)
        ∗ owes (c : Thread nD τ) 0 W ∗ atPos ER ((c : Thread nD τ), .dma q) 0 ∅ 0)
      ⊢ iprop(((owes (c : Thread nD τ) 0 (insert (SemLoc.dma q, ()) W)
              ∗ atPos ER ((c : Thread nD τ), .dma q) (0 + 1) ∅ 0 ∗ reached ER ((c : Thread nD τ), .dma q) (0 + 1)
              ∗ bigSep ((a2aRd m).duties ((c : Thread nD τ), .dma q) 0 \ ∅) (fun d => (a2aRd m).payload ((c : Thread nD τ), .dma q) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hq
  iintro ⟨#HI, Hc, HO, Hat⟩
  iapply (Rounds.wp_wait_rest_token 𝒱₀ ER (a2aRd m) (c : Thread nD τ) none (κ := κ)
      (wpE_waitDma2_eq 𝒱₀ (c : Thread nD τ) none Set.univ) (Set.mem_univ _) () (O := 0) (W := W) (R := 0) (m := 0) (T := ∅)
      ((Nat.zero_add _).trans (hcr.trans ((amount_dma m c sem 0).symm.trans (expect_dma' m c sem).symm)))) $$ [Hc HO Hat]
  isplitr; · iexact HI
  isplitl [Hc]; · rw [hcr]; iexact Hc
  isplitl [HO]; · iexact HO
  isplitr; · rw [MayWait_zero]; iempintro
  iexact Hat

/-- The local copy: it reads the device's own column block and writes its own row block, paying the one duty of the copy cell. -/
theorem wp_lcopy (c : Dev nD) {hsrc : (colM c 0).view.WordExact} {hdst : (rowM c 0).view.WordExact}
    {hsem}
    {α : Type} {Q : α → sProp 𝕄} {k : PUnit → Prog (TpuEff nD τ sig (Elt F) Λ₀ .tc) α}
    (fd : Buf (Elt F) ((rowM c 0).view.loc (c : Thread nD τ))) :
    iprop(cellInv ER (a2aRd m) (K (c, .copy)) (copyCell c) ∗ colPts m c 0 ∗ rowPts c c 0 fd
        ∗ dutyTok ER (copyCell c) 0 0 ∗ reached ER (copyCell c) 0)
      ⊢ iprop((cred (tallyAt (copyCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (colM c 0) (.here (rowM c 0)) (.dma copyS) hsrc hdst hsem) k) Q) := by
  unfold colPts rowPts
  exact Rounds.wp_copy_pointsTo 𝒱₀ ER (a2aRd m) (c : Thread nD τ) none (src := colM c 0) (dst := rowM c 0) (sem := .dma copyS) (q := fullShare)
    (fs := m ((c : Thread nD τ).loc main_arg0)) (fd := fd) (r := 0) (d := 0) (κ := K (c, .copy))
    (by rw [duties_dma]; exact Finset.mem_singleton_self _) () N rfl (amount_dma m c copyS 0)
    (by rw [payload_copy]; exact copy_pay m c fd)

def bodyPre (c : Dev nD) : sProp 𝕄 :=
  iprop((ghost m K c ∗ waitCred c ∗ levAts L lv ∗ bufs₀ m c) ∗ (dats m 0 c).owesAt () t₀.castSucc)

def bodyPost (c : Dev nD) : sProp 𝕄 :=
  iprop(Φ₁ m c ∗ (dats m 0 c).owesAt () t₀.succ)

set_option maxHeartbeats 1600000 in
/-- The body, one rule per effect in program order, from `bodyPre` to `bodyPost`. -/
theorem sound_body (hmw : ∀ c : Dev nD, (levAts L lv : sProp 𝕄) ⊢ MayWait (c : Thread nD τ) (.reg barS) () (Orecv c))
    (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _) cc0_scratch0 cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  have e31 : k0_off3 c 1#32 = colOff c 1 := off3_eq c 0
  have e32 : k0_off3 c 2#32 = colOff c 2 := off3_eq c 1
  have e33 : k0_off3 c 3#32 = colOff c 3 := off3_eq c 2
  have e41 : k0_off4 c 1#32 = rowOff c 3 := off4_eq c 0
  have e42 : k0_off4 c 2#32 = rowOff c 2 := off4_eq c 1
  have e43 : k0_off4 c 3#32 = rowOff c 1 := off4_eq c 2
  simp only [dev1_eq c, dev2_eq c, dev3_eq c, copyS_eq,
    rowM_of_off (k0_off1_inb c) c 0 (off1_eq c), colM_of_off (k0_off2_inb c) c 0 (off2_eq c)]
  unfold bodyPre ghost invs reachedAll positions payToks waitCred bufs₀
  iintro ⟨⟨⟨⟨⟨#HIbar, #HIcp, ⟨#HIs0, #HIs1, #HIs2⟩, ⟨#HIr0, #HIr1, #HIr2⟩, ⟨#HIb0, #HIb1, #HIb2⟩, ⟨#HIq0, #HIq1, #HIq2⟩⟩,
        ⟨⟨#HRb0, #HRb1, #HRb2⟩, ⟨#HRq0, #HRq1, #HRq2⟩, #HRcp, ⟨#HRs0, #HRs1, #HRs2⟩, ⟨#HRr0, #HRr1, #HRr2⟩⟩,
        ⟨HaB, HaC, ⟨HaS0, HaS1, HaS2⟩, ⟨HaR0, HaR1, HaR2⟩⟩,
        ⟨⟨HtB0, HtB1, HtB2⟩, ⟨HtQ0, HtQ1, HtQ2⟩, ⟨HtS0, HtS1, HtS2⟩, HtC⟩⟩,
      ⟨HcB, HcR0, HcR1, HcR2⟩, #Hlev, ⟨Hx, Hv⟩⟩, Ho⟩, Hk⟩
  unfold Dat.owesAt Pipeline.owesWithin
  icases Ho with ⟨%W, %hW, HO⟩
  rw [show (dats m 0 c).owed t₀.castSucc = O₀ c from rfl]
  -- the two buffers by blocks
  ihave Hx4 := (cols_split m c).1 $$ Hx
  icases Hx4 with ⟨Hx0, Hx1, Hx2, Hx3⟩
  ihave Hv4 := (rows_split c c (m ((c : Thread nD τ).loc main_v1))).1 $$ Hv
  icases Hv4 with ⟨Hv0, Hv1, Hv2, Hv3⟩
  -- the three signals
  iapply (wp_sig m K c 0 (peer 0 c) rfl (O₀ c) (O₁ c) rfl W (m ((c : Thread nD τ).loc main_v1))) $$ [HO HtB0 Hv1]
  · isplitr; · iexact HIb0
    isplitl [HO]; · iexact HO
    isplitl [HtB0]; · iexact HtB0
    isplitl [Hv1]; · iexact Hv1
    isplitr; · iexact HRr2
    iexact HRb0
  iintro HO
  iapply (wp_sig m K c 1 (peer 1 c) rfl (O₁ c) (O₂ c) rfl W (m ((c : Thread nD τ).loc main_v1))) $$ [HO HtB1 Hv2]
  · isplitr; · iexact HIb1
    isplitl [HO]; · iexact HO
    isplitl [HtB1]; · iexact HtB1
    isplitl [Hv2]; · iexact Hv2
    isplitr; · iexact HRr1
    iexact HRb1
  iintro HO
  iapply (wp_sig m K c 2 (peer 2 c) rfl (O₂ c) (Orecv c) rfl W (m ((c : Thread nD τ).loc main_v1))) $$ [HO HtB2 Hv3]
  · isplitr; · iexact HIb2
    isplitl [HO]; · iexact HO
    isplitl [HtB2]; · iexact HtB2
    isplitl [Hv3]; · iexact Hv3
    isplitr; · iexact HRr0
    iexact HRb2
  iintro HO
  -- the wait for the three units of the device's own barrier cell, owing the three receive credits
  iapply (Rounds.wp_wait_rest_token 𝒱₀ ER (a2aRd m) (c : Thread nD τ) none (κ := K (c, .bar))
      (wpE_semWait_eq 𝒱₀ (c : Thread nD τ) none Set.univ) (Set.mem_univ _) () (O := Orecv c) (W := W) (R := 0) (m := 0) (T := ∅)
      (show 0 + _ = _ from (Nat.zero_add _).trans (expect_bar m c).symm)) $$ [HcB HO HaB]
  · isplitr; · iexact HIbar
    isplitl [HcB]; · iexact HcB
    isplitl [HO]; · iexact HO
    isplitr; · iapply (hmw c); iexact Hlev
    iexact HaB
  iintro ⟨HO, HaB, -, Hpay⟩
  ihave Hp := (Entails.of_eq (rest_bar m c)) $$ Hpay
  unfold barPay
  icases Hp with ⟨⟨⟨%g0, Hd0⟩, #Hq0⟩, ⟨⟨%g1, Hd1⟩, #Hq1⟩, ⟨%g2, Hd2⟩, #Hq2⟩
  -- the local copy
  iapply (wp_lcopy m K c (m ((c : Thread nD τ).loc main_v1))) $$ [Hx0 Hv0 HtC]
  · isplitr; · iexact HIcp
    isplitl [Hx0]; · iexact Hx0
    isplitl [Hv0]; · iexact Hv0
    isplitl [HtC]; · iexact HtC
    iexact HRcp
  iintro HcC
  -- the three transfers
  iapply (wp_xfer m K c 0 ⟨k0_dev4 c, k0_dev4_lt c⟩ (dev4_eq c)
      (colM_of_off (off := k0_off3 c 1#32) (k0_off3_inb c 0) c 1 e31) sendS_0 recvS_0 g0 (Orecv c) (Or₁ c) rfl (insert (SemLoc.reg barS, ()) W)) $$ [Hx1 Hd0 HO HtS0 HtQ0]
  · isplitr; · iexact HIs0
    isplitr; · iexact HIq0
    isplitl [Hx1]; · iexact Hx1
    isplitl [Hd0]; · iexact Hd0
    isplitl [HO]; · iexact HO
    isplitl [HtS0]; · iexact HtS0
    isplitr; · iexact HRs0
    isplitl [HtQ0]; · iexact HtQ0
    iexact HRq0
  iintro ⟨HcS0, HO⟩
  iapply (wp_xfer m K c 1 ⟨k0_dev5 c, k0_dev5_lt c⟩ (dev5_eq c)
      (colM_of_off (off := k0_off3 c 2#32) (k0_off3_inb c 1) c 2 e32) sendS_1 recvS_1 g1 (Or₁ c) (tallyAt (recvCell 2 (peer 2 c)) () N) rfl (insert (SemLoc.reg barS, ()) W)) $$ [Hx2 Hd1 HO HtS1 HtQ1]
  · isplitr; · iexact HIs1
    isplitr; · iexact HIq1
    isplitl [Hx2]; · iexact Hx2
    isplitl [Hd1]; · iexact Hd1
    isplitl [HO]; · iexact HO
    isplitl [HtS1]; · iexact HtS1
    isplitr; · iexact HRs1
    isplitl [HtQ1]; · iexact HtQ1
    iexact HRq1
  iintro ⟨HcS1, HO⟩
  iapply (wp_xfer m K c 2 ⟨k0_dev6 c, k0_dev6_lt c⟩ (dev6_eq c)
      (colM_of_off (off := k0_off3 c 3#32) (k0_off3_inb c 2) c 3 e33) sendS_2 recvS_2 g2 (tallyAt (recvCell 2 (peer 2 c)) () N) (0) (zero_add _).symm (insert (SemLoc.reg barS, ()) W)) $$ [Hx3 Hd2 HO HtS2 HtQ2]
  · isplitr; · iexact HIs2
    isplitr; · iexact HIq2
    isplitl [Hx3]; · iexact Hx3
    isplitl [Hd2]; · iexact Hd2
    isplitl [HO]; · iexact HO
    isplitl [HtS2]; · iexact HtS2
    isplitr; · iexact HRs2
    isplitl [HtQ2]; · iexact HtQ2
    iexact HRq2
  iintro ⟨HcS2, HO⟩
  -- the waits: copy, sends, receives
  iapply (wp_dwait m c copyS (K (c, .copy)) rfl (dst := rowM c 0) rfl (insert (SemLoc.reg barS, ()) W)) $$ [HcC HO HaC]
  · isplitr; · iexact HIcp
    isplitl [HcC]; · iexact HcC
    isplitl [HO]; · iexact HO
    iexact HaC
  iintro ⟨HO, HaC, -, Hpay⟩
  ihave Hcp := (Entails.of_eq (rest_copy m c)) $$ Hpay
  unfold copyPay
  icases Hcp with ⟨Hv0, Hx0⟩
  iapply (wp_dwait m c (sendS 0) (K (c, .send 0)) sendS_0 (dst := ((Memref.whole main_arg0 : Memref sig .tc .hbm S4096x4096 .f32).slice (Rect.unit (s := S4096x4096) (k0_off3 c 1#32) S4096x1024.size (k0_off3_inb c 0)) (fun _ => rfl))) rfl (insert (SemLoc.dma copyS, ()) (insert (SemLoc.reg barS, ()) W))) $$ [HcS0 HO HaS0]
  · isplitr; · iexact HIs0
    isplitl [HcS0]; · iexact HcS0
    isplitl [HO]; · iexact HO
    iexact HaS0
  iintro ⟨HO, HaS0, -, Hpay⟩
  ihave Hx1 := (Entails.of_eq (rest_send m c 0)) $$ Hpay
  iapply (wp_dwait m c (sendS 1) (K (c, .send 1)) sendS_1 (dst := ((Memref.whole main_arg0 : Memref sig .tc .hbm S4096x4096 .f32).slice (Rect.unit (s := S4096x4096) (k0_off3 c 2#32) S4096x1024.size (k0_off3_inb c 1)) (fun _ => rfl))) rfl (insert (SemLoc.dma (sendS 0), ()) (insert (SemLoc.dma copyS, ()) (insert (SemLoc.reg barS, ()) W)))) $$ [HcS1 HO HaS1]
  · isplitr; · iexact HIs1
    isplitl [HcS1]; · iexact HcS1
    isplitl [HO]; · iexact HO
    iexact HaS1
  iintro ⟨HO, HaS1, -, Hpay⟩
  ihave Hx2 := (Entails.of_eq (rest_send m c 1)) $$ Hpay
  iapply (wp_dwait m c (sendS 2) (K (c, .send 2)) sendS_2 (dst := ((Memref.whole main_arg0 : Memref sig .tc .hbm S4096x4096 .f32).slice (Rect.unit (s := S4096x4096) (k0_off3 c 3#32) S4096x1024.size (k0_off3_inb c 2)) (fun _ => rfl))) rfl (insert (SemLoc.dma (sendS 1), ()) (insert (SemLoc.dma (sendS 0), ()) (insert (SemLoc.dma copyS, ()) (insert (SemLoc.reg barS, ()) W))))) $$ [HcS2 HO HaS2]
  · isplitr; · iexact HIs2
    isplitl [HcS2]; · iexact HcS2
    isplitl [HO]; · iexact HO
    iexact HaS2
  iintro ⟨HO, HaS2, -, Hpay⟩
  ihave Hx3 := (Entails.of_eq (rest_send m c 2)) $$ Hpay
  unfold sendPay
  iapply (wp_dwait m c (recvS 0) (K (c, .recv 0)) recvS_0 (dst := ((Memref.whole main_v1 : Memref sig .tc .hbm S16384x1024 .f32).slice (Rect.unit (s := S16384x1024) (k0_off4 c 1#32) S4096x1024.size (k0_off4_inb c 0)) (fun _ => rfl))) rfl (insert (SemLoc.dma (sendS 2), ()) (insert (SemLoc.dma (sendS 1), ()) (insert (SemLoc.dma (sendS 0), ()) (insert (SemLoc.dma copyS, ()) (insert (SemLoc.reg barS, ()) W)))))) $$ [HcR0 HO HaR0]
  · isplitr; · iexact HIr0
    isplitl [HcR0]; · iexact HcR0
    isplitl [HO]; · iexact HO
    iexact HaR0
  iintro ⟨HO, HaR0, -, Hpay⟩
  ihave Hv3 := (Entails.of_eq (rest_recv m c 0)) $$ Hpay
  iapply (wp_dwait m c (recvS 1) (K (c, .recv 1)) recvS_1 (dst := ((Memref.whole main_v1 : Memref sig .tc .hbm S16384x1024 .f32).slice (Rect.unit (s := S16384x1024) (k0_off4 c 2#32) S4096x1024.size (k0_off4_inb c 1)) (fun _ => rfl))) rfl (insert (SemLoc.dma (recvS 0), ()) (insert (SemLoc.dma (sendS 2), ()) (insert (SemLoc.dma (sendS 1), ()) (insert (SemLoc.dma (sendS 0), ()) (insert (SemLoc.dma copyS, ()) (insert (SemLoc.reg barS, ()) W))))))) $$ [HcR1 HO HaR1]
  · isplitr; · iexact HIr1
    isplitl [HcR1]; · iexact HcR1
    isplitl [HO]; · iexact HO
    iexact HaR1
  iintro ⟨HO, HaR1, -, Hpay⟩
  ihave Hv2 := (Entails.of_eq (rest_recv m c 1)) $$ Hpay
  iapply (wp_dwait m c (recvS 2) (K (c, .recv 2)) recvS_2 (dst := ((Memref.whole main_v1 : Memref sig .tc .hbm S16384x1024 .f32).slice (Rect.unit (s := S16384x1024) (k0_off4 c 3#32) S4096x1024.size (k0_off4_inb c 2)) (fun _ => rfl))) rfl (insert (SemLoc.dma (recvS 1), ()) (insert (SemLoc.dma (recvS 0), ()) (insert (SemLoc.dma (sendS 2), ()) (insert (SemLoc.dma (sendS 1), ()) (insert (SemLoc.dma (sendS 0), ()) (insert (SemLoc.dma copyS, ()) (insert (SemLoc.reg barS, ()) W)))))))) $$ [HcR2 HO HaR2]
  · isplitr; · iexact HIr2
    isplitl [HcR2]; · iexact HcR2
    isplitl [HO]; · iexact HO
    iexact HaR2
  iintro ⟨HO, HaR2, -, Hpay⟩
  ihave Hv1 := (Entails.of_eq (rest_recv m c 2)) $$ Hpay
  unfold recvPay
  -- the seven own cells close
  imod (Rounds.cell_close ER (a2aRd m) (Set.mem_univ (K (c, .copy))) (fun h => h) (R := 0 + 1) (duties_later m (copyCell c))) $$ [HaC] with HzC
  · isplitr; · iexact HIcp
    iexact HaC
  imod (Rounds.cell_close ER (a2aRd m) (Set.mem_univ (K (c, .send 0))) (fun h => h) (R := 0 + 1) (duties_later m (sendCell 0 c))) $$ [HaS0] with HzS0
  · isplitr; · iexact HIs0
    iexact HaS0
  imod (Rounds.cell_close ER (a2aRd m) (Set.mem_univ (K (c, .send 1))) (fun h => h) (R := 0 + 1) (duties_later m (sendCell 1 c))) $$ [HaS1] with HzS1
  · isplitr; · iexact HIs1
    iexact HaS1
  imod (Rounds.cell_close ER (a2aRd m) (Set.mem_univ (K (c, .send 2))) (fun h => h) (R := 0 + 1) (duties_later m (sendCell 2 c))) $$ [HaS2] with HzS2
  · isplitr; · iexact HIs2
    iexact HaS2
  imod (Rounds.cell_close ER (a2aRd m) (Set.mem_univ (K (c, .recv 0))) (fun h => h) (R := 0 + 1) (duties_later m (recvCell 0 c))) $$ [HaR0] with HzR0
  · isplitr; · iexact HIr0
    iexact HaR0
  imod (Rounds.cell_close ER (a2aRd m) (Set.mem_univ (K (c, .recv 1))) (fun h => h) (R := 0 + 1) (duties_later m (recvCell 1 c))) $$ [HaR1] with HzR1
  · isplitr; · iexact HIr1
    iexact HaR1
  imod (Rounds.cell_close ER (a2aRd m) (Set.mem_univ (K (c, .recv 2))) (fun h => h) (R := 0 + 1) (duties_later m (recvCell 2 c))) $$ [HaR2] with HzR2
  · isplitr; · iexact HIr2
    iexact HaR2
  -- the blocks rejoin
  ihave Hx := (cols_split m c).2 $$ [Hx0 Hx1 Hx2 Hx3]
  · isplitl [Hx0]; · iexact Hx0
    isplitl [Hx1]; · iexact Hx1
    isplitl [Hx2]; · iexact Hx2
    iexact Hx3
  ihave Hv := (rows_split c c (outFn m c)).2 $$ [Hv0 Hv1 Hv2 Hv3]
  · isplitl [Hv0]; · iexact Hv0
    isplitl [Hv1]; · iexact Hv1
    isplitl [Hv2]; · iexact Hv2
    iexact Hv3
  rw [wp_ret]; imodintro
  iapply Hk
  unfold bodyPost Φ₁ bufs₁ closedSems Dat.owesAt Pipeline.owesWithin
  rw [show (dats m 0 c).owed t₀.succ = 0 from rfl]
  isplitr [HO]
  · isplitl [Hx Hv]
    · isplitl [Hx]; · iexact Hx
      iexact Hv
    · isplitl [HzC]; · iexact HzC
      isplitl [HzS0 HzS1 HzS2]
      · isplitl [HzS0]; · iexact HzS0
        isplitl [HzS1]; · iexact HzS1
        iexact HzS2
      · isplitl [HzR0]; · iexact HzR0
        isplitl [HzR1]; · iexact HzR1
        iexact HzR2
  · iexists (insert (SemLoc.dma (recvS 2), ()) (insert (SemLoc.dma (recvS 1), ()) (insert (SemLoc.dma (recvS 0), ()) (insert (SemLoc.dma (sendS 2), ()) (insert (SemLoc.dma (sendS 1), ()) (insert (SemLoc.dma (sendS 0), ()) (insert (SemLoc.dma copyS, ()) (insert (SemLoc.reg barS, ()) W))))))))
    isplitr; · ipureintro; exact fun _ _ => Or.inl trivial
    iexact HO

omit [FloatOps F] in
/-- A product over the windows of a pipeline that has none. -/
theorem bigSep_W (Φ : Fin cfg0.W → sProp 𝕄) : bigSep Finset.univ Φ = iprop(emp) := by
  rw [show (Finset.univ : Finset (Fin cfg0.W)) = ∅ from Finset.eq_empty_of_forall_notMem fun w => w.elim0]
  exact BI.bigSep_empty

/-- The library's body obligation on device `c`: no window, one point. -/
theorem body_obligation (hmw : ∀ c : Dev nD, (levAts L lv : sProp 𝕄) ⊢ MayWait (c : Thread nD τ) (.reg barS) () (Orecv c)) (c : Dev nD) :
    BodyObligation (dats (F := F) m 0 c) (defs₀ (F := F)) 𝒱₀ () Set.univ := fun t => by
  rw [fin_N t, bigSep_W, bigSep_W]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _) cc0_scratch0 cc0_scratch1 cc0_scratch2)
    (fun _ => iprop(Φ₁ m c ∗ (dats m 0 c).owesAt () t₀.succ ∗ emp))
  unfold Φ₀ start
  iintro ⟨⟨⟨⟨%K, Hg⟩, Hcr, Hlev⟩, Hb⟩, Ho, -⟩
  iapply (sound_body m K hmw c fun _ => iprop(Φ₁ m c ∗ (dats m 0 c).owesAt () t₀.succ ∗ emp))
  unfold bodyPre
  isplitr []
  · isplitl [Hg Hcr Hlev Hb]
    · isplitl [Hg]; · iexact Hg
      isplitl [Hcr]; · iexact Hcr
      isplitl [Hlev]; · iexact Hlev
      iexact Hb
    · iexact Ho
  · unfold bodyPost
    iintro ⟨H1, H2⟩
    isplitl [H1]; · iexact H1
    isplitl [H2]; · iexact H2
    iempintro

end Body

end Cert.KernelIdealProof

end
-- ==== Proof.KMesh.lean ====
/-
  The z-ring of the mesh. The thirty-two devices are numbered row-major over (x, y, z) = (2, 4, 4), so a device's
  z-coordinate is its number modulo 4 and the four devices that share (x, y) are the numbers with one quotient by 4.
  The all-to-all runs inside each such group of four: device `c` addresses the device `k` places further round its
  group, `zshift k c`. The kernel computes those device numbers, and the column and row offsets of the blocks it moves,
  by integer chains over its own number; this module states each chain in closed form, decided over the mesh.
-/
import proofs.«900657_g7700000000000658_dist_a2a_v7x_xyz2x4x4_z_m4096_n1024_f32_1_alg».proof.Proof.Gen.Kernel

namespace Cert.KernelProof

open Cert.Kernel Cert.Kernel.Gen
open Idealize.ShloMosaic

/-- The device `k` places further round `c`'s z-ring: same x and y, z-coordinate `z + k` modulo 4. -/
def zshift (k : Nat) (c : Dev nD) : Dev nD := ⟨c.val / 4 * 4 + (c.val % 4 + k) % 4, by have h : c.val < 32 := c.isLt; show _ < 32; omega⟩

/-- The device at place `s` of `c`'s z-ring: same x and y, z-coordinate `s`. -/
def zplace (s : Fin 4) (c : Dev nD) : Dev nD := ⟨c.val / 4 * 4 + s.val, by have h : c.val < 32 := c.isLt; have hs : s.val < 4 := s.isLt; show _ < 32; omega⟩

/-- The peer device `c` addresses in its step `e` (`e + 1` places on), and the device whose step `e` addresses `c`. -/
def peer (e : Fin 3) (c : Dev nD) : Dev nD := zshift (e.val + 1) c
def src (e : Fin 3) (c : Dev nD) : Dev nD := zshift (3 - e.val) c

theorem zshift_val (k : Nat) (c : Dev nD) : (zshift k c).val = c.val / 4 * 4 + (c.val % 4 + k) % 4 := rfl
theorem peer_val (e : Fin 3) (c : Dev nD) : (peer e c).val = c.val / 4 * 4 + (c.val % 4 + (e.val + 1)) % 4 := rfl
theorem src_val (e : Fin 3) (c : Dev nD) : (src e c).val = c.val / 4 * 4 + (c.val % 4 + (3 - e.val)) % 4 := rfl

theorem src_peer (e : Fin 3) (c : Dev nD) : src e (peer e c) = c := by revert e c; decide
theorem peer_src (e : Fin 3) (c : Dev nD) : peer e (src e c) = c := by revert e c; decide
theorem peer_ne (e : Fin 3) (c : Dev nD) : peer e c ≠ c := by revert e c; decide
theorem src_ne (e : Fin 3) (c : Dev nD) : src e c ≠ c := by revert e c; decide
theorem peer_inj (e e' : Fin 3) (c : Dev nD) (h : peer e c = peer e' c) : e = e' := by revert e e' c; decide
theorem src_inj (e e' : Fin 3) (c : Dev nD) (h : src e c = src e' c) : e = e' := by revert e e' c; decide
/-- The device whose step `e` reaches `c` is the one `c` reaches in its own step `2 - e`. -/
theorem src_eq_peer (e : Fin 3) (c : Dev nD) : src e c = peer (Fin.rev e) c := by revert e c; decide
theorem peer_mod (e : Fin 3) (c : Dev nD) : (peer e c).val % 4 = (c.val % 4 + (e.val + 1)) % 4 := by revert e c; decide
theorem src_mod (e : Fin 3) (c : Dev nD) : (src e c).val % 4 = (c.val % 4 + (3 - e.val)) % 4 := by revert e c; decide
theorem peer_div (e : Fin 3) (c : Dev nD) : (peer e c).val / 4 = c.val / 4 := by revert e c; decide
theorem src_div (e : Fin 3) (c : Dev nD) : (src e c).val / 4 = c.val / 4 := by revert e c; decide
theorem zplace_self (c : Dev nD) : zplace ⟨c.val % 4, Nat.mod_lt _ (by decide)⟩ c = c := by revert c; decide
theorem zplace_src (e : Fin 3) (c : Dev nD) : zplace ⟨(c.val % 4 + (3 - e.val)) % 4, Nat.mod_lt _ (by decide)⟩ c = src e c := by revert e c; decide

/-! ## The device chains -/

theorem k0_dev1_eq : ∀ c : Dev nD, k0_dev1 c = c.val / 4 * 4 + (c.val % 4 + 1) % 4 := by decide +kernel
theorem k0_dev2_eq : ∀ c : Dev nD, k0_dev2 c = c.val / 4 * 4 + (c.val % 4 + 2) % 4 := by decide +kernel
theorem k0_dev3_eq : ∀ c : Dev nD, k0_dev3 c = c.val / 4 * 4 + (c.val % 4 + 3) % 4 := by decide +kernel
theorem k0_dev4_eq : ∀ c : Dev nD, k0_dev4 c = c.val / 4 * 4 + (c.val % 4 + 1) % 4 := by decide +kernel
theorem k0_dev5_eq : ∀ c : Dev nD, k0_dev5 c = c.val / 4 * 4 + (c.val % 4 + 2) % 4 := by decide +kernel
theorem k0_dev6_eq : ∀ c : Dev nD, k0_dev6 c = c.val / 4 * 4 + (c.val % 4 + 3) % 4 := by decide +kernel

/-- The three signals go to the three peers, in step order; so do the three transfers. -/
theorem dev1_eq (c : Dev nD) : (⟨k0_dev1 c, k0_dev1_lt c⟩ : Dev nD) = peer 0 c := Fin.ext (k0_dev1_eq c)
theorem dev2_eq (c : Dev nD) : (⟨k0_dev2 c, k0_dev2_lt c⟩ : Dev nD) = peer 1 c := Fin.ext (k0_dev2_eq c)
theorem dev3_eq (c : Dev nD) : (⟨k0_dev3 c, k0_dev3_lt c⟩ : Dev nD) = peer 2 c := Fin.ext (k0_dev3_eq c)
theorem dev4_eq (c : Dev nD) : (⟨k0_dev4 c, k0_dev4_lt c⟩ : Dev nD) = peer 0 c := Fin.ext (k0_dev4_eq c)
theorem dev5_eq (c : Dev nD) : (⟨k0_dev5 c, k0_dev5_lt c⟩ : Dev nD) = peer 1 c := Fin.ext (k0_dev5_eq c)
theorem dev6_eq (c : Dev nD) : (⟨k0_dev6 c, k0_dev6_lt c⟩ : Dev nD) = peer 2 c := Fin.ext (k0_dev6_eq c)

/-! ## The offset chains the generated facts leave open -/

/-- The source of step `e`: the column block of the peer's z-coordinate. -/
theorem k0_off3_eq : ∀ (c : Dev nD) (r : Fin 3), k0_off3 c (BitVec.ofNat 32 (1 + r.val)) = ![0, 1024 * ((c.val % 4 + (r.val + 1)) % 4)] := by decide +kernel
/-- The landing place of the transfer from the device whose step `e` reaches `c`: the row block of that device's z-coordinate. -/
theorem k0_off4_eq : ∀ (c : Dev nD) (r : Fin 3), k0_off4 c (BitVec.ofNat 32 (1 + r.val)) = ![4096 * ((c.val % 4 + (3 - r.val)) % 4), 0] := by decide +kernel

end Cert.KernelProof
-- ==== Proof.KSpec.lean ====
/-
  What the all-to-all leaves in each device's result buffer, as one function of the argument buffers.
  Device `c`, at z-coordinate `z`, ends with a result of four row blocks of 4096 rows: row block `s` is column
  block `z` (columns `1024 z` to `1024 z + 1023`) of the argument buffer of the device at place `s` of `c`'s z-ring —
  its own for `s = z`, a peer's for the other three. Entry `(r, l)` of the result is therefore entry
  `(r mod 4096, 1024 z + l)` of the argument buffer of the device at place `r / 4096`.
-/
import proofs.«900657_g7700000000000658_dist_a2a_v7x_xyz2x4x4_z_m4096_n1024_f32_1_alg».proof.Proof.KMesh
import Idealize.ShloMosaic.Lib.ValueIdx

noncomputable section

namespace Cert.KernelProof

open Cert.Kernel
open Idealize.ShloMosaic Idealize.ShloMosaic.ValueIdx

variable {F : FTy → Type} [FloatOps F]

/-- The row block a result row lies in. -/
def rowBlk (i : S16384x1024.Idx) : Fin 4 := ⟨(i 0).val / 4096, by have h : (i 0).val < 16384 := (i 0).isLt; omega⟩

/-- Where entry `i` of device `c`'s result comes from in the argument buffer of the device at place `rowBlk i`. -/
def srcIdx (c : Dev nD) (i : S16384x1024.Idx) : S4096x4096.Idx :=
  ix2 ⟨(i 0).val % 4096, Nat.mod_lt _ (by decide)⟩
    ⟨1024 * (c.val % 4) + (i 1).val, by have h : (i 1).val < 1024 := (i 1).isLt; omega⟩

/-- The result buffer of device `c` after the all-to-all, from the argument buffers `m` holds at launch. -/
def outFn (m : (ℓ : Loc nD τ sig) → Buf (Elt F) ℓ) (c : Dev nD) : Buf (Elt F) ((c.tc : Thread nD τ).loc main_v1) :=
  fun (i : S16384x1024.Idx) => m (((zplace (rowBlk i) c).tc : Thread nD τ).loc main_arg0) (srcIdx c i)

theorem outFn_apply (m : (ℓ : Loc nD τ sig) → Buf (Elt F) ℓ) (c : Dev nD) (i : S16384x1024.Idx) :
    outFn m c i = m (((zplace (rowBlk i) c).tc : Thread nD τ).loc main_arg0) (srcIdx c i) := rfl

end Cert.KernelProof

end
-- ==== Proof.KSched.lean ====
/-
  The protocol of the all-to-all, as a schedule of rounds.

  Device `c` (z-coordinate `z = c mod 4`) works on two buffers: its argument, 4096 x 4096, read in four column blocks
  of 1024, and its result, 16384 x 1024, written in four row blocks of 4096. Blocks are counted from the device's own:
  block `k` is the one at position `(z + k) mod 4`. The device copies its own column block 0 into its own row block 0,
  and in step `e` (`e = 0, 1, 2`) sends its column block `e + 1` — the peer's — into the PEER's row block at `c`'s
  position, which counted from the peer is the peer's block `3 - e`.

  Every device has eight semaphore cells, each with one round:
  * the barrier cell: three duties of one unit, duty `d` paid by the peer of step `d` when it signals; that signal
    hands `c` the peer's row block at `c`'s position (at whatever contents) and the fact that the peer's receive cell
    `d` is open — what `c`'s transfer of step `d` needs;
  * the copy cell: one duty, paid by `c`'s own local copy, handing back both blocks, the row block written;
  * send cell `e`: one duty, paid when the source of transfer `e` has been read, handing back that column block;
  * receive cell `e`: one duty, paid by the device whose step `e` reaches `c`, handing `c` its row block `3 - e`
    holding what the final result holds there.
-/
import proofs.«900657_g7700000000000658_dist_a2a_v7x_xyz2x4x4_z_m4096_n1024_f32_1_alg».proof.Proof.KSpec
import proofs.«900657_g7700000000000658_dist_a2a_v7x_xyz2x4x4_z_m4096_n1024_f32_1_alg».proof.Proof.Gen.Kernel.Skeleton
import proofs.«900657_g7700000000000658_dist_a2a_v7x_xyz2x4x4_z_m4096_n1024_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Blocks -/

/-- Where row block `k` of device `c`'s result starts, and column block `k` of its argument. -/
def rowOff (c : Dev nD) (k : Fin 4) : Fin 2 → Nat := ![4096 * ((c.val % 4 + k.val) % 4), 0]
def colOff (c : Dev nD) (k : Fin 4) : Fin 2 → Nat := ![0, 1024 * ((c.val % 4 + k.val) % 4)]

theorem rowOff_inb (c : Dev nD) (k : Fin 4) : ∀ a, rowOff c k a + S4096x1024.size a ≤ S16384x1024.size a :=
  Fin.forall_fin_two.mpr ⟨by show 4096 * ((c.val % 4 + k.val) % 4) + 4096 ≤ 16384; omega, by show 0 + 1024 ≤ 1024; omega⟩
theorem colOff_inb (c : Dev nD) (k : Fin 4) : ∀ a, colOff c k a + S4096x1024.size a ≤ S4096x4096.size a :=
  Fin.forall_fin_two.mpr ⟨by show 0 + 4096 ≤ 4096; omega, by show 1024 * ((c.val % 4 + k.val) % 4) + 1024 ≤ 4096; omega⟩

abbrev rowRect (c : Dev nD) (k : Fin 4) : Rect S16384x1024 := Rect.unit (rowOff c k) S4096x1024.size (rowOff_inb c k)
abbrev colRect (c : Dev nD) (k : Fin 4) : Rect S4096x4096 := Rect.unit (colOff c k) S4096x1024.size (colOff_inb c k)

/-- Row block `k` of a result buffer and column block `k` of an argument buffer, as the kernel slices them. -/
abbrev rowM (c : Dev nD) (k : Fin 4) : Memref sig .tc .hbm S4096x1024 .f32 :=
  (Memref.whole main_v1 : Memref sig .tc .hbm S16384x1024 .f32).slice (rowRect c k) (fun _ => rfl)
abbrev colM (c : Dev nD) (k : Fin 4) : Memref sig .tc .hbm S4096x1024 .f32 :=
  (Memref.whole main_arg0 : Memref sig .tc .hbm S4096x4096 .f32).slice (colRect c k) (fun _ => rfl)

/-- The kernel's offset chains are these blocks' offsets. -/
theorem off1_eq : ∀ c : Dev nD, k0_off1 c = rowOff c 0 := by decide +kernel
theorem off2_eq : ∀ c : Dev nD, k0_off2 c = colOff c 0 := by decide +kernel
theorem off3_eq : ∀ (c : Dev nD) (e : Fin 3), k0_off3 c (BitVec.ofNat 32 (1 + e.val)) = colOff c e.succ := by decide +kernel
theorem off4_eq : ∀ (c : Dev nD) (e : Fin 3), k0_off4 c (BitVec.ofNat 32 (1 + e.val)) = rowOff c (Fin.rev e.castSucc) := by decide +kernel

/-- The row block a device hands its step-`e` peer is the peer's own row position seen from the device; the block a
    transfer of step `e` lands in is the receiver's block `3 - e`. -/
theorem rowOff_peer : ∀ (c : Dev nD) (e : Fin 3), rowOff (peer e c) (Fin.rev e.castSucc) = rowOff c 0 := by decide +kernel
theorem rowOff_succ : ∀ (c : Dev nD) (e : Fin 3), rowOff c e.succ = rowOff (peer e c) 0 := by decide +kernel

theorem rowM_of_off {off : Fin 2 → Nat} (p : ∀ a, off a + S4096x1024.size a ≤ S16384x1024.size a) (c : Dev nD) (k : Fin 4) (h : off = rowOff c k) :
    (Memref.whole main_v1 : Memref sig .tc .hbm S16384x1024 .f32).slice (Rect.unit (s := S16384x1024) off S4096x1024.size p) (fun _ => rfl) = rowM c k := by
  subst h; rfl
theorem colM_of_off {off : Fin 2 → Nat} (p : ∀ a, off a + S4096x1024.size a ≤ S4096x4096.size a) (c : Dev nD) (k : Fin 4) (h : off = colOff c k) :
    (Memref.whole main_arg0 : Memref sig .tc .hbm S4096x4096 .f32).slice (Rect.unit (s := S4096x4096) off S4096x1024.size p) (fun _ => rfl) = colM c k := by
  subst h; rfl

/-- The elements of a result buffer in row block `k`, of an argument buffer in column block `k`. -/
theorem rowM_set (c : Dev nD) (k : Fin 4) : (rowM c k).view.set = (rowRect c k).set := by
  show ((View.whole main_v1).slice (rowRect c k)).set = _; exact View.set_slice_whole _ _
theorem colM_set (c : Dev nD) (k : Fin 4) : (colM c k).view.set = (colRect c k).set := by
  show ((View.whole main_arg0).slice (colRect c k)).set = _; exact View.set_slice_whole _ _

/-! ## Cells -/

abbrev barS : Sem sig := (SemArray.scalar (sig.barrier 0 rfl) : Sems sig S_).sem
def copyS : DmaSem sig := ⟨0, by decide⟩
def sendS (e : Fin 3) : DmaSem sig := ⟨1 + e.val, by have := e.isLt; show 1 + e.val < 7; omega⟩
def recvS (e : Fin 3) : DmaSem sig := ⟨4 + e.val, by have := e.isLt; show 4 + e.val < 7; omega⟩

theorem copyS_eq : (cc0_scratch0 : DmaSems sig S_).sem = copyS := by decide
theorem sendS_0 : ((cc0_scratch1.slice (Rect.unit (s := S3) ![0] S1.size inb_S3_S1_0)).squeeze S_ squeezes_S1_S_).sem = sendS 0 := by decide
theorem sendS_1 : ((cc0_scratch1.slice (Rect.unit (s := S3) ![1] S1.size inb_S3_S1_1)).squeeze S_ squeezes_S1_S_).sem = sendS 1 := by decide
theorem sendS_2 : ((cc0_scratch1.slice (Rect.unit (s := S3) ![2] S1.size inb_S3_S1_2)).squeeze S_ squeezes_S1_S_).sem = sendS 2 := by decide
theorem recvS_0 : ((cc0_scratch2.slice (Rect.unit (s := S3) ![0] S1.size inb_S3_S1_0)).squeeze S_ squeezes_S1_S_).sem = recvS 0 := by decide
theorem recvS_1 : ((cc0_scratch2.slice (Rect.unit (s := S3) ![1] S1.size inb_S3_S1_1)).squeeze S_ squeezes_S1_S_).sem = recvS 1 := by decide
theorem recvS_2 : ((cc0_scratch2.slice (Rect.unit (s := S3) ![2] S1.size inb_S3_S1_2)).squeeze S_ squeezes_S1_S_).sem = recvS 2 := by decide

abbrev barCell (c : Dev nD) : GSem nD τ sig := ((c : Thread nD τ), .reg barS)
abbrev copyCell (c : Dev nD) : GSem nD τ sig := ((c : Thread nD τ), .dma copyS)
abbrev sendCell (e : Fin 3) (c : Dev nD) : GSem nD τ sig := ((c : Thread nD τ), .dma (sendS e))
abbrev recvCell (e : Fin 3) (c : Dev nD) : GSem nD τ sig := ((c : Thread nD τ), .dma (recvS e))

/-- The credit of one block's transfer: the same for a row block of a result and a column block of an argument. -/
abbrev N : ℕ := (rowM 0 0).view.dmaCredit
theorem N_pos : 0 < N := View.dmaCredit_pos _ (by decide)
theorem rowM_credit (c : Dev nD) (k : Fin 4) : (rowM c k).view.dmaCredit = N := rfl
theorem colM_credit (c : Dev nD) (k : Fin 4) : (colM c k).view.dmaCredit = N := rfl

/-! ## Points-to of a block -/

/-- Row block `k` (counted from `c`) of device `d`'s result buffer at contents `f`; column block `k` of `c`'s argument
    buffer at what it held at launch. -/
def rowPts (d c : Dev nD) (k : Fin 4) (f : Buf (Elt F) ((rowM c k).view.loc (d : Thread nD τ))) : sProp 𝕄 :=
  (rowM c k).view.loc (d : Thread nD τ) ↦[(rowM c k).view.set]{fullShare} f
def colPts (c : Dev nD) (k : Fin 4) : sProp 𝕄 :=
  (colM c k).view.loc (c : Thread nD τ) ↦[(colM c k).view.set]{fullShare} m ((c : Thread nD τ).loc main_arg0)

omit [FloatOps F] in
instance rowPts_storable (d c : Dev nD) (k : Fin 4) (f) : BI.Storable (upEmb : UEmb _ 𝕄) (rowPts (F := F) d c k f) := by unfold rowPts; infer_instance
omit [FloatOps F] in
instance colPts_storable (c : Dev nD) (k : Fin 4) : BI.Storable (upEmb : UEmb _ 𝕄) (colPts (F := F) m c k) := by unfold colPts; infer_instance

/-! ## The schedule -/

/-- What the peer of step `d` hands `c` with its signal: its row block at `c`'s position, and that its receive cell `d` is open. -/
def barPay (c : Dev nD) (d : Fin 3) : sProp 𝕄 := iprop((∃ f, rowPts (peer d c) c 0 f) ∗ reached ER (recvCell d (peer d c)) 0)
/-- The local copy hands back the row block written and the column block. -/
def copyPay (c : Dev nD) : sProp 𝕄 := iprop(rowPts c c 0 (outFn m c) ∗ colPts m c 0)
def sendPay (c : Dev nD) (e : Fin 3) : sProp 𝕄 := colPts m c e.succ
def recvPay (c : Dev nD) (e : Fin 3) : sProp 𝕄 := rowPts c c (Fin.rev e.castSucc) (outFn m c)

/-- What the one duty of DMA cell number `n` of device `c` hands over: cell 0 is the local copy's, cells 1 to 3 the sends',
    cells 4 to 6 the receives'. -/
def dmaPay (c : Dev nD) (n : Nat) : sProp 𝕄 :=
  if n = 0 then copyPay m c
  else if n ≤ 3 then sendPay m c ⟨(n - 1) % 3, Nat.mod_lt _ (by decide)⟩
  else recvPay m c ⟨(n - 4) % 3, Nat.mod_lt _ (by decide)⟩

/-- One round, round 0: a barrier cell has three duties of one unit, one per peer; a DMA cell one duty of a block's credit. -/
def a2aRd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with | .reg _ => barPay g.1.1 d | .dma q => dmaPay m g.1.1 q.val
  amount_pos g _ _ _ := by
    rcases g with ⟨t, (s | q)⟩
    · exact Nat.one_pos
    · exact N_pos

omit [FloatOps F] in
instance dmaPay_storable (c : Dev nD) (n : Nat) : BI.Storable (upEmb : UEmb _ 𝕄) (dmaPay (F := F) m c n) := by
  unfold dmaPay
  by_cases h0 : n = 0
  · rw [if_pos h0]; unfold copyPay; infer_instance
  · rw [if_neg h0]
    by_cases h3 : n ≤ 3
    · rw [if_pos h3]; unfold sendPay; infer_instance
    · rw [if_neg h3]; unfold recvPay; infer_instance

omit [FloatOps F] in
instance a2aRd_payload_storable (g : GSem nD τ sig) (r : ℕ) (d : Fin 3) :
    BI.Storable (upEmb : UEmb _ 𝕄) ((a2aRd (F := F) m).payload g r d) := by
  rcases g with ⟨t, (s | q)⟩
  · show BI.Storable upEmb (barPay t.1 d); unfold barPay; infer_instance
  · show BI.Storable upEmb (dmaPay m t.1 q.val); infer_instance

end Cert.KernelProof

end
-- ==== Proof.KData.lean ====
/-
  What each device owes, holds and knows when its kernel starts, and what it holds when the kernel ends.

  At launch device `c` owes: one unit to the barrier cell of each of its three peers (its three signals) and one block's
  credit to receive cell `e` of its step-`e` peer (its three transfers). Its waits: on its barrier cell for three units
  while it still owes the three receive credits, then on its copy, send and receive cells owing nothing. So a barrier
  cell sits at level 1, a receive cell at level 2 and every other cell at level 0: each wait is below what is still owed.
-/
import proofs.«900657_g7700000000000658_dist_a2a_v7x_xyz2x4x4_z_m4096_n1024_f32_1_alg».proof.Proof.KSched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device owes at launch; the levels -/

/-- The receive credits `c` owes its peers, one per transfer; -/
def Orecv (c : Dev nD) : CellTallies nD τ sig Unit :=
  tallyAt (recvCell 2 (peer 2 c)) () N + tallyAt (recvCell 1 (peer 1 c)) () N + tallyAt (recvCell 0 (peer 0 c)) () N
/-- with the barrier units of the signals not yet made: after the first two, after the first, at launch. The summands
    stand in the order the kernel pays them off, last first. -/
def O₂ (c : Dev nD) : CellTallies nD τ sig Unit := Orecv c + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1
/-- What is still owed after the transfers of steps 0 and 1, and after step 0 alone. -/
def Or₂ (c : Dev nD) : CellTallies nD τ sig Unit := 0 + tallyAt (recvCell 2 (peer 2 c)) () N
def Or₁ (c : Dev nD) : CellTallies nD τ sig Unit := tallyAt (recvCell 2 (peer 2 c)) () N + tallyAt (recvCell 1 (peer 1 c)) () N

def L (g : GSem nD τ sig) : Finset Unit := if g.1.2 = .tc then {()} else ∅
/-- Barrier cells at 1, receive cells (DMA cells 4 to 6) at 2, every other cell at 0. -/
def lv (g : GSem nD τ sig) (_ : Unit) : ℕ := match g.2 with | .reg _ => 1 | .dma q => if 4 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (e : Fin 3) (c : Dev nD) : lv (recvCell e c) () = 2 := if_pos (by show 4 ≤ 4 + e.val; omega)

/-! ## The cells of a device, indexed -/

/-- A device's eight cells. -/
inductive CellIx where
  | bar | copy | send (e : Fin 3) | recv (e : Fin 3)
  deriving DecidableEq, Fintype

abbrev csem : CellIx → SemLoc sig
  | .bar => .reg barS | .copy => .dma copyS | .send e => .dma (sendS e) | .recv e => .dma (recvS e)
abbrev kcell (ck : Dev nD × CellIx) : GSem nD τ sig := ((ck.1 : Thread nD τ), csem ck.2)

/-- The kernel's own (scoped) semaphores, as the launch indexes them: the seven DMA semaphores. -/
abbrev osem : Fin 7 → SemLoc sig := fun q => .dma q

/-! ## Ghost state -/

/-- The cells' invariants device `c`'s body opens, under the names `K` the launch allocated them at: its own eight, and
    for each step the peer's barrier cell (its signal) and the peer's receive cell of that step (its transfer). -/
def invs (K : Dev nD × CellIx → ℕ) (c : Dev nD) : sProp 𝕄 :=
  iprop(cellInv ER (a2aRd m) (K (c, .bar)) (barCell c) ∗ cellInv ER (a2aRd m) (K (c, .copy)) (copyCell c)
    ∗ (cellInv ER (a2aRd m) (K (c, .send 0)) (sendCell 0 c) ∗ cellInv ER (a2aRd m) (K (c, .send 1)) (sendCell 1 c) ∗ cellInv ER (a2aRd m) (K (c, .send 2)) (sendCell 2 c))
    ∗ (cellInv ER (a2aRd m) (K (c, .recv 0)) (recvCell 0 c) ∗ cellInv ER (a2aRd m) (K (c, .recv 1)) (recvCell 1 c) ∗ cellInv ER (a2aRd m) (K (c, .recv 2)) (recvCell 2 c))
    ∗ (cellInv ER (a2aRd m) (K (peer 0 c, .bar)) (barCell (peer 0 c)) ∗ cellInv ER (a2aRd m) (K (peer 1 c, .bar)) (barCell (peer 1 c)) ∗ cellInv ER (a2aRd m) (K (peer 2 c, .bar)) (barCell (peer 2 c)))
    ∗ (cellInv ER (a2aRd m) (K (peer 0 c, .recv 0)) (recvCell 0 (peer 0 c)) ∗ cellInv ER (a2aRd m) (K (peer 1 c, .recv 1)) (recvCell 1 (peer 1 c)) ∗ cellInv ER (a2aRd m) (K (peer 2 c, .recv 2)) (recvCell 2 (peer 2 c))))

instance invs_persistent (K : Dev nD × CellIx → ℕ) (c : Dev nD) : BI.Persistent (invs m K c) := by unfold invs; infer_instance

/-- That round 0 is reached: of the cells `c` pays into, and of its own DMA cells. -/
def reachedAll (c : Dev nD) : sProp 𝕄 :=
  iprop((reached ER (barCell (peer 0 c)) 0 ∗ reached ER (barCell (peer 1 c)) 0 ∗ reached ER (barCell (peer 2 c)) 0)
    ∗ (reached ER (recvCell 0 (peer 0 c)) 0 ∗ reached ER (recvCell 1 (peer 1 c)) 0 ∗ reached ER (recvCell 2 (peer 2 c)) 0)
    ∗ reached ER (copyCell c) 0
    ∗ (reached ER (sendCell 0 c) 0 ∗ reached ER (sendCell 1 c) 0 ∗ reached ER (sendCell 2 c) 0)
    ∗ (reached ER (recvCell 0 c) 0 ∗ reached ER (recvCell 1 c) 0 ∗ reached ER (recvCell 2 c) 0))

instance reachedAll_persistent (c : Dev nD) : BI.Persistent (reachedAll (F := F) c) := by unfold reachedAll; infer_instance

/-- `c`'s positions: at the start of round 0 of each of its eight cells. -/
def positions (c : Dev nD) : sProp 𝕄 :=
  iprop(atPos ER (barCell c) 0 ∅ 0 ∗ atPos ER (copyCell c) 0 ∅ 0
    ∗ (atPos ER (sendCell 0 c) 0 ∅ 0 ∗ atPos ER (sendCell 1 c) 0 ∅ 0 ∗ atPos ER (sendCell 2 c) 0 ∅ 0)
    ∗ (atPos ER (recvCell 0 c) 0 ∅ 0 ∗ atPos ER (recvCell 1 c) 0 ∅ 0 ∗ atPos ER (recvCell 2 c) 0 ∅ 0))

/-- The tokens of the duties `c` pays: on the barrier cell of its step-`s` peer the duty `2 - s` (the step in which that
    peer reaches `c`); on that peer's receive cell `s`, on its own send cells and on its copy cell the one duty. -/
def payToks (c : Dev nD) : sProp 𝕄 :=
  iprop((dutyTok ER (barCell (peer 0 c)) 0 2 ∗ dutyTok ER (barCell (peer 1 c)) 0 1 ∗ dutyTok ER (barCell (peer 2 c)) 0 0)
    ∗ (dutyTok ER (recvCell 0 (peer 0 c)) 0 0 ∗ dutyTok ER (recvCell 1 (peer 1 c)) 0 0 ∗ dutyTok ER (recvCell 2 (peer 2 c)) 0 0)
    ∗ (dutyTok ER (sendCell 0 c) 0 0 ∗ dutyTok ER (sendCell 1 c) 0 0 ∗ dutyTok ER (sendCell 2 c) 0 0)
    ∗ dutyTok ER (copyCell c) 0 0)

def ghost (K : Dev nD × CellIx → ℕ) (c : Dev nD) : sProp 𝕄 :=
  iprop(invs m K c ∗ reachedAll c ∗ positions c ∗ payToks c)

/-- The credit `c` waits with: its barrier cell's three units and each receive cell's block. -/
def waitCred (c : Dev nD) : sProp 𝕄 :=
  iprop(cred (tallyAt (barCell c) () 3) ∗ cred (tallyAt (recvCell 0 c) () N) ∗ cred (tallyAt (recvCell 1 c) () N) ∗ cred (tallyAt (recvCell 2 c) () N))

/-- What device `c`'s body starts from beside its two buffers. -/
def start (c : Dev nD) : sProp 𝕄 :=
  iprop((∃ K, ghost m K c) ∗ waitCred c ∗ levAts L lv)

/-- The two buffers at launch, whole; and at the end, the argument as it was, the result at the all-to-all's value. -/
def bufs₀ (c : Dev nD) : sProp 𝕄 :=
  iprop((((c : Thread nD τ).loc main_arg0) ↦{fullShare} m ((c : Thread nD τ).loc main_arg0)) ∗ (((c : Thread nD τ).loc main_v1) ↦{fullShare} m ((c : Thread nD τ).loc main_v1)))
def bufs₁ (c : Dev nD) : sProp 𝕄 :=
  iprop((((c : Thread nD τ).loc main_arg0) ↦{fullShare} m ((c : Thread nD τ).loc main_arg0)) ∗ (((c : Thread nD τ).loc main_v1) ↦{fullShare} outFn m c))

/-- The seven own cells closed: their counters back at zero. -/
def closedSems (c : Dev nD) : sProp 𝕄 :=
  iprop(semVal (copyCell c) 0 ∗ (semVal (sendCell 0 c) 0 ∗ semVal (sendCell 1 c) 0 ∗ semVal (sendCell 2 c) 0)
    ∗ (semVal (recvCell 0 c) 0 ∗ semVal (recvCell 1 c) 0 ∗ semVal (recvCell 2 c) 0))

def Φ₀ (c : Dev nD) : sProp 𝕄 := iprop(start m c ∗ bufs₀ m c)
def Φ₁ (c : Dev nD) : sProp 𝕄 := iprop(bufs₁ m c ∗ closedSems c)

/-! ## The pipeline's proof data: no window, one point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelProof

end
-- ==== Proof.KRun.lean ====
/-
  The run of the all-to-all on the whole mesh, from what each device's kernel body does.

  Every device starts its body holding its two buffers whole, the ghost state of the protocol's cells, the credit it
  waits with and the levels; it ends holding the argument buffer as it was, the result buffer at the all-to-all's
  value, and its seven own semaphores back at zero. Given that each body meets that contract, and the launch-side
  facts (the ghost state can be allocated and dealt out, and the credit the other devices owe a device is the credit
  it waits with), every weakly fair execution of the thirty-two kernels terminates, and in every final state each
  device's result buffer holds the all-to-all of the argument buffers and its argument buffer is unchanged.
-/
import proofs.«900657_g7700000000000658_dist_a2a_v7x_xyz2x4x4_z_m4096_n1024_f32_1_alg».proof.Proof.KData
import proofs.«900657_g7700000000000658_dist_a2a_v7x_xyz2x4x4_z_m4096_n1024_f32_1_alg».proof.Proof.Gen.Kernel.Launch

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The own semaphores are the copy, send and receive cells -/

/-- Own semaphore 0 is the copy cell; -/
theorem own_copy (c : Dev nD) : ((c : Thread nD τ), osem 0) = copyCell c := rfl
/-- own semaphore `1 + e` is send cell `e`; -/
theorem own_send (e : Fin 3) (c : Dev nD) : ((c : Thread nD τ), osem ⟨1 + e.val, by have := e.isLt; omega⟩) = sendCell e c := rfl
/-- own semaphore `4 + e` is receive cell `e`. -/
theorem own_recv (e : Fin 3) (c : Dev nD) : ((c : Thread nD τ), osem ⟨4 + e.val, by have := e.isLt; omega⟩) = recvCell e c := rfl

omit [FloatOps F] in
/-- The seven own semaphores at zero are the seven cells closed. -/
theorem closedSems_own (c : Dev nD) :
    (closedSems c : sProp 𝕄) ⊢ Pipeline.ownSems0 (Ix := Unit) (Name := ℕ) (U := UU) (Lvl := ℕ) (Val := Elt F) (τ := τ) osem c := by
  rw [Pipeline.ownSems0_eq_of_list c osem [0, 1, 2, 3, 4, 5, 6] (by decide) (by decide)]
  show closedSems c ⊢ iprop(semVal (copyCell c) 0 ∗ semVal (sendCell 0 c) 0 ∗ semVal (sendCell 1 c) 0 ∗ semVal (sendCell 2 c) 0
      ∗ semVal (recvCell 0 c) 0 ∗ semVal (recvCell 1 c) 0 ∗ semVal (recvCell 2 c) 0)
  unfold closedSems
  iintro ⟨Hc, ⟨Hs0, Hs1, Hs2⟩, Hr0, Hr1, Hr2⟩
  isplitl [Hc]; · iexact Hc
  isplitl [Hs0]; · iexact Hs0
  isplitl [Hs1]; · iexact Hs1
  isplitl [Hs2]; · iexact Hs2
  isplitl [Hr0]; · iexact Hr0
  isplitl [Hr1]; · iexact Hr1
  iexact Hr2

/-! ## The launch theorem's side conditions -/

omit [FloatOps F] in
theorem start_intro (ρ : Dev nD → PrngReg) (hcreds : ∀ c : Dev nD, (Pipeline.launchCred O₀ c : sProp 𝕄) ⊢ waitCred c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(iprop(start m c ∗ bufs₀ m c) ∗ emp) := by
  rw [Pipeline.unscopedRestP_none, unscopedRest0_eq c]
  iintro ⟨⟨Ha, Hv⟩, Hlev, Hcr, -, HG⟩
  ihave Hc := (hcreds c) $$ Hcr
  imodintro
  unfold start bufs₀
  isplitl
  · isplitl [HG Hc Hlev]
    · isplitl [HG]; · iexact HG
      isplitl [Hc]; · iexact Hc
      iexact Hlev
    · isplitl [Ha]; · iexact Ha
      iexact Hv
  · iempintro

theorem phi0_intro (c : Dev nD) :
    iprop(iprop(start m c ∗ bufs₀ m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨HX, -, -⟩
  iexact HX

theorem phi1_exit (c : Dev nD) :
    (dats m 0 c).Φ (Fin.last cfg0.N) ⊢ iprop(bufs₁ m c ∗ Pipeline.ownSems0 osem c ∗ Pipeline.scopedRest cfg0.spec c) := by
  rw [show (dats m 0 c).Φ (Fin.last cfg0.N) = Φ₁ m c from rfl, scopedRest0_eq]
  unfold Φ₁
  iintro ⟨Hb, Hs⟩
  ihave Ho := (closedSems_own (F := F) c) $$ Hs
  isplitl [Hb]; · iexact Hb
  isplitl [Ho]; · iexact Ho
  iempintro

theorem waits (c : Dev nD) : (levAts L lv : sProp 𝕄) ⊢ Pipeline.cellsWaits cfgs (dats m) () 0 c :=
  Pipeline.cellsWaits_intro cfgs (dats m) () 0 c fun w s t => w.elim0

/-- What is read off a final state: the result buffer at the all-to-all's value, the argument buffer as it was. -/
def QY (c : Dev nD) (s : MemSt nD τ sig (Elt F)) : Prop :=
  s.mem ((c : Thread nD τ).loc main_v1) = outFn m c ∧ s.mem ((c : Thread nD τ).loc main_arg0) = m ((c : Thread nD τ).loc main_arg0)

theorem read_final (c : Dev nD) (s' : Phys nD τ sig (Elt F)) :
    iprop(bufs₁ m c ∗ (emp : sProp 𝕄) ∗ SI s') ⊢ |={Set.univ}=> iprop(⌜QY m c s'.mem⌝ ∗ SI s') := by
  unfold bufs₁ QY
  iintro ⟨⟨Ha, Hv⟩, -, HSI⟩
  icombine HSI Ha gives %ha
  icombine HSI Hv gives %hv
  imodintro
  isplitr
  · ipureintro; exact ⟨Buf.eq_of_forall_mem_univ hv, Buf.eq_of_forall_mem_univ ha⟩
  · iexact HSI

/-! ## The run -/

set_option maxRecDepth 8000 in
/-- At the compiled mesh of thirty-two devices, for any float values, from any memory with zero counters: if each
    device's body meets its contract and the launch-side facts hold, every weakly fair execution of @main terminates,
    and every final state has each device's result buffer at the all-to-all of the argument buffers and its argument
    buffer unchanged. -/
theorem run_main_of (ρ : Dev nD → PrngReg) (G : Dev nD → sProp 𝕄) (u₀ : UU)
    (hbody : ∀ c : Dev nD, BodyObligation (dats (F := F) m 0 c) (defs₀ (F := F)) 𝒱₀ () Set.univ)
    (hown : Pipeline.OwnSemFacts cfg0.spec osem)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
        ⊢ |={Set.univ}=> bigSep Finset.univ fun c : Dev nD => iprop(∃ K, ghost m K c))
    (hcreds : ∀ c : Dev nD, (Pipeline.launchCred O₀ c : sProp 𝕄) ⊢ waitCred c) :
    θ_run defs (onTc (τ := τ) (main (F := F))) ⟨m, fun _ => 0, ρ⟩
      (fun r => ∀ c : Dev nD, r.2.mem ((c.tc : Thread nD τ).loc main_v1) = outFn m c
                             ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ hown (Pipeline.PreFacts.none _) EP defs₀ 𝒱₀ m ρ main
    (hmain := fun _ => rfl)
    (hbody := hbody) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G) (G' := fun c => iprop(∃ K, ghost m K c)) (u₀ := u₀)
    (hu₀ := hu₀)
    (hglob := hglob)
    (hA := fun _ w => w.elim0) (hpf := fun _ k => k.elim0)
    (X := fun c => iprop(start m c ∗ bufs₀ m c)) (Y := bufs₁ m) (Z := fun _ => iprop(emp))
    (hX := start_intro m ρ hcreds) (hin := phi0_intro m) (hout := phi1_exit m)
    (QY := QY m)
    (hY := read_final m)
    (hQ := fun _ h c => (h c).2.2)

/-- info: 'Cert.KernelProof.run_main_of' depends on axioms: [propext, Classical.choice, Quot.sound] -/
#guard_msgs in #print axioms run_main_of

end Cert.KernelProof

end
-- ==== Proof.KLaunch.lean ====
/-
  The launch of the all-to-all's protocol.

  The machine starts with every semaphore counter at zero and one ghost element: the pipeline library's launch element
  beside the protocol's — every one of the 32 x 8 cells in its launch state, and one token for each duty of round 0: per
  device the three duties of its barrier cell and the one duty of each of its seven DMA cells. This module deals that
  element out. Each device first gets, for its own eight cells, the round state at counter zero, its position at the
  start of round 0 and the fact that round 0 is reached, and its own cells' ten tokens. One update for the whole mesh
  then allocates the 256 invariants, and the persistent facts (invariants, reached rounds) are handed to every device
  that needs them, while the tokens travel to the devices that pay the duties: the token of duty d of a barrier cell
  goes to the device whose step 2 - d reaches the cell's owner, the token of receive cell e to the device whose step e
  reaches the owner; a device keeps the tokens of its own copy and send cells.

  The credit side: what the devices owe at launch, summed over the mesh, is for each device three units on its barrier
  cell and one block's credit on each of its receive cells — its waits' credit. And a device may wait on its barrier
  cell while it owes its three receive credits, a barrier cell standing below every receive cell.
-/
import proofs.«900657_g7700000000000658_dist_a2a_v7x_xyz2x4x4_z_m4096_n1024_f32_1_alg».proof.Proof.KData

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens of the launch element -/

theorem ownSemFacts : Pipeline.OwnSemFacts cfg0.spec osem := by decide

/-- Distinct cell indices name distinct semaphores. -/
theorem csem_injective : ∀ k k' : CellIx, csem k = csem k' → k = k' := by decide

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  have h3 : k = k' := csem_injective k k' h2
  subst h3; rfl

def a2aCells : Finset (GSem nD τ sig) := Finset.univ.map ⟨kcell, kcell_injective⟩

/-- The duties of round 0 of a device's cells: the barrier cell's three, and the one of each DMA cell. -/
inductive TokIx where
  | bar (d : Fin 3) | copy | send (e : Fin 3) | recv (e : Fin 3)
  deriving DecidableEq, Fintype

/-- The cell a duty belongs to, and its name there. -/
def tokCell : TokIx → CellIx
  | .bar _ => .bar | .copy => .copy | .send e => .send e | .recv e => .recv e
def tokDuty : TokIx → Fin 3
  | .bar d => d | .copy => 0 | .send _ => 0 | .recv _ => 0

theorem tokIx_injective : ∀ j j' : TokIx, tokCell j = tokCell j' → tokDuty j = tokDuty j' → j = j' := by decide

abbrev tokOf (cj : Dev nD × TokIx) : GSem nD τ sig × ℕ × Fin 3 := (kcell (cj.1, tokCell cj.2), 0, tokDuty cj.2)

theorem tokOf_injective : Function.Injective (tokOf : Dev nD × TokIx → GSem nD τ sig × ℕ × Fin 3) := by
  rintro ⟨c, j⟩ ⟨c', j'⟩ h
  have h1 : kcell (c, tokCell j) = kcell (c', tokCell j') := congrArg (fun x : GSem nD τ sig × ℕ × Fin 3 => x.1) h
  have h2 : tokDuty j = tokDuty j' := congrArg (fun x : GSem nD τ sig × ℕ × Fin 3 => x.2.2) h
  have h3 := kcell_injective h1
  have h4 : c = c' := congrArg Prod.fst h3
  have h5 : tokCell j = tokCell j' := congrArg Prod.snd h3
  subst h4
  have h6 : j = j' := tokIx_injective j j' h5 h2
  subst h6; rfl

def a2aToks : Finset (GSem nD τ sig × ℕ × Fin 3) := Finset.univ.map ⟨tokOf, tokOf_injective⟩

/-- The launch element: the pipeline library's beside the protocol's. -/
def u₀ : UU :=
  (initOf (Pipeline.cells cfgs cellOf_inj) (Pipeline.launchToks cfgs cellOf_inj), initOf a2aCells a2aToks)

/-! ## What the launch element deals each device -/

/-- The tokens of the duties of device `c`'s own cells. -/
def toks (c : Dev nD) : sProp 𝕄 :=
  iprop(dutyTok ER (barCell c) 0 0 ∗ dutyTok ER (barCell c) 0 1 ∗ dutyTok ER (barCell c) 0 2
    ∗ dutyTok ER (copyCell c) 0 0
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0)

/-- Device `c`'s deal: of each of its eight cells the round state at counter zero, its position at the start of round 0
    and that round 0 is reached; and its own cells' tokens. -/
def G (c : Dev nD) : sProp 𝕄 :=
  iprop((bigSep Finset.univ fun k : CellIx => roundState ER (a2aRd m) (kcell (c, k)) 0)
    ∗ (bigSep Finset.univ fun k : CellIx => iprop(atPos ER (kcell (c, k)) 0 ∅ 0 ∗ reached ER (kcell (c, k)) 0)) ∗ toks c)

/-- What the mesh-wide step makes of it. -/
def G' (c : Dev nD) : sProp 𝕄 := iprop(∃ K, ghost m K c)

theorem bigSep_cellIx (Φ : CellIx → sProp 𝕄) :
    bigSep Finset.univ Φ = iprop(Φ .bar ∗ Φ .copy ∗ Φ (.send 0) ∗ Φ (.send 1) ∗ Φ (.send 2) ∗ Φ (.recv 0) ∗ Φ (.recv 1) ∗ Φ (.recv 2)) :=
  bigSep_univ_eq_bigSepL [CellIx.bar, .copy, .send 0, .send 1, .send 2, .recv 0, .recv 1, .recv 2] (by decide) (by decide) Φ

theorem bigSep_tokIx (Φ : TokIx → sProp 𝕄) :
    bigSep Finset.univ Φ = iprop(Φ (.bar 0) ∗ Φ (.bar 1) ∗ Φ (.bar 2) ∗ Φ .copy ∗ Φ (.send 0) ∗ Φ (.send 1) ∗ Φ (.send 2) ∗ Φ (.recv 0) ∗ Φ (.recv 1) ∗ Φ (.recv 2)) :=
  bigSep_univ_eq_bigSepL [TokIx.bar 0, .bar 1, .bar 2, .copy, .send 0, .send 1, .send 2, .recv 0, .recv 1, .recv 2] (by decide) (by decide) Φ

/-- The protocol's launch element, dealt device by device. -/
theorem fund_a2a : BI.own (ER (initOf a2aCells a2aToks)) ⊢ (|==> bigSep Finset.univ (G m) : sProp 𝕄) := by
  have hX (Φ : GSem nD τ sig → sProp 𝕄) : bigSep a2aCells Φ = bigSep Finset.univ fun c : Dev nD => bigSep Finset.univ fun k : CellIx => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by unfold toks; rw [bigSep_tokIx]; rfl
  iintro HX
  imod (Rounds.fund ER (a2aRd m) a2aCells a2aToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_a2a m) $$ HX with HG
  imodintro
  isplitl [HP] <;> iassumption

/-! ## The mesh-wide step: the invariants allocated, the facts shared, the tokens sent round -/

/-- A device's own seven semaphores are its copy, send and receive cells; -/
theorem ownSems0_eq (c : Dev nD) : (Pipeline.ownSems0 (Ix := Unit) (Name := ℕ) (U := UU) (Lvl := ℕ) (Val := Elt F) (τ := τ) osem c : sProp 𝕄)
    = iprop(semVal (copyCell c) 0 ∗ semVal (sendCell 0 c) 0 ∗ semVal (sendCell 1 c) 0 ∗ semVal (sendCell 2 c) 0
        ∗ semVal (recvCell 0 c) 0 ∗ semVal (recvCell 1 c) 0 ∗ semVal (recvCell 2 c) 0) := by
  rw [Pipeline.ownSems0_eq_of_list c osem [0, 1, 2, 3, 4, 5, 6] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cellIx]
  iintro ⟨⟨Hc, Hs0, Hs1, Hs2, Hr0, Hr1, Hr2⟩, Hb⟩
  isplitl [Hb]; · iexact Hb
  isplitl [Hc]; · iexact Hc
  isplitl [Hs0]; · iexact Hs0
  isplitl [Hs1]; · iexact Hs1
  isplitl [Hs2]; · iexact Hs2
  isplitl [Hr0]; · iexact Hr0
  isplitl [Hr1]; · iexact Hr1
  iexact Hr2

/-- One device's eight invariants allocated, from its counters at zero and its round states. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (a2aRd m) (kcell (c, k)) 0)
      ⊢ (|={Set.univ}=> bigSep Finset.univ fun k => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent facts of the whole mesh under the names `K`: every cell's invariant, and that its round 0 is reached. -/
def records (K : Dev nD × CellIx → ℕ) : sProp 𝕄 :=
  iprop((bigSep Finset.univ fun ck : Dev nD × CellIx => cellInv ER (a2aRd m) (K ck) (kcell ck))
    ∗ bigSep Finset.univ fun ck : Dev nD × CellIx => reached ER (kcell ck) 0)

instance records_persistent (K : Dev nD × CellIx → ℕ) : BI.Persistent (records m K) := by unfold records; infer_instance

theorem inv_at (K : Dev nD × CellIx → ℕ) (ck : Dev nD × CellIx) :
    (bigSep Finset.univ fun ck : Dev nD × CellIx => (cellInv ER (a2aRd m) (K ck) (kcell ck) : sProp 𝕄)) ⊢ cellInv ER (a2aRd m) (K ck) (kcell ck) :=
  bigSep_elim (Finset.mem_univ ck)
theorem reached_at (ck : Dev nD × CellIx) :
    (bigSep Finset.univ fun ck : Dev nD × CellIx => (reached ER (kcell ck) 0 : sProp 𝕄)) ⊢ reached ER (kcell ck) 0 :=
  bigSep_elim (Finset.mem_univ ck)

/-- The invariants a device's body opens are among the mesh's. -/
theorem invs_of_records (K : Dev nD × CellIx → ℕ) (c : Dev nD) : records m K ⊢ invs m K c := by
  unfold records invs
  iintro ⟨#HI, #HR⟩
  isplitr; · iapply (inv_at m K (c, .bar)); iexact HI
  isplitr; · iapply (inv_at m K (c, .copy)); iexact HI
  isplitr
  · isplitr; · iapply (inv_at m K (c, .send 0)); iexact HI
    isplitr; · iapply (inv_at m K (c, .send 1)); iexact HI
    iapply (inv_at m K (c, .send 2)); iexact HI
  isplitr
  · isplitr; · iapply (inv_at m K (c, .recv 0)); iexact HI
    isplitr; · iapply (inv_at m K (c, .recv 1)); iexact HI
    iapply (inv_at m K (c, .recv 2)); iexact HI
  isplitr
  · isplitr; · iapply (inv_at m K (peer 0 c, .bar)); iexact HI
    isplitr; · iapply (inv_at m K (peer 1 c, .bar)); iexact HI
    iapply (inv_at m K (peer 2 c, .bar)); iexact HI
  · isplitr; · iapply (inv_at m K (peer 0 c, .recv 0)); iexact HI
    isplitr; · iapply (inv_at m K (peer 1 c, .recv 1)); iexact HI
    iapply (inv_at m K (peer 2 c, .recv 2)); iexact HI

/-- So are the reached rounds it presents. -/
theorem reachedAll_of_records (K : Dev nD × CellIx → ℕ) (c : Dev nD) : records m K ⊢ reachedAll c := by
  unfold records reachedAll
  iintro ⟨#HI, #HR⟩
  isplitr
  · isplitr; · iapply (reached_at (F := F) (peer 0 c, .bar)); iexact HR
    isplitr; · iapply (reached_at (F := F) (peer 1 c, .bar)); iexact HR
    iapply (reached_at (F := F) (peer 2 c, .bar)); iexact HR
  isplitr
  · isplitr; · iapply (reached_at (F := F) (peer 0 c, .recv 0)); iexact HR
    isplitr; · iapply (reached_at (F := F) (peer 1 c, .recv 1)); iexact HR
    iapply (reached_at (F := F) (peer 2 c, .recv 2)); iexact HR
  isplitr; · iapply (reached_at (F := F) (c, .copy)); iexact HR
  isplitr
  · isplitr; · iapply (reached_at (F := F) (c, .send 0)); iexact HR
    isplitr; · iapply (reached_at (F := F) (c, .send 1)); iexact HR
    iapply (reached_at (F := F) (c, .send 2)); iexact HR
  · isplitr; · iapply (reached_at (F := F) (c, .recv 0)); iexact HR
    isplitr; · iapply (reached_at (F := F) (c, .recv 1)); iexact HR
    iapply (reached_at (F := F) (c, .recv 2)); iexact HR

/-- What stays in one device's hand: its positions and the tokens of the duties it pays. -/
def linear (c : Dev nD) : sProp 𝕄 := iprop(positions c ∗ payToks c)

theorem ghost_intro (K : Dev nD × CellIx → ℕ) (c : Dev nD) : iprop(records m K ∗ linear c) ⊢ G' m c := by
  unfold linear G' ghost
  iintro ⟨#HR, Hpos, Htok⟩
  iexists K
  isplitr; · iapply (invs_of_records m K c); iexact HR
  isplitr; · iapply (reachedAll_of_records m K c); iexact HR
  isplitl [Hpos]; · iexact Hpos
  iexact Htok

/-- Step `s` as a permutation of the mesh, and a product over the mesh read along it. -/
def peerEquiv (s : Fin 3) : Dev nD ≃ Dev nD := ⟨peer s, src s, src_peer s, peer_src s⟩

theorem around (s : Fin 3) (Φ : Dev nD → sProp 𝕄) : bigSep Finset.univ Φ = bigSep Finset.univ fun c => Φ (peer s c) :=
  bigSep_univ_equiv (peerEquiv s) Φ

/-- The tokens sent round: duty `d` of a barrier cell to the device whose step `2 - d` reaches its owner, the duty of
    receive cell `e` to the device whose step `e` reaches its owner; the copy and send tokens stay. -/
theorem toks_around : (bigSep Finset.univ fun c : Dev nD => (toks c : sProp 𝕄)) ⊢ bigSep Finset.univ fun c : Dev nD => payToks c := by
  unfold toks payToks
  simp only [bigSep_sep']
  rw [around 2 (fun c : Dev nD => (dutyTok ER (barCell c) 0 0 : sProp 𝕄)),
    around 1 (fun c : Dev nD => (dutyTok ER (barCell c) 0 1 : sProp 𝕄)),
    around 0 (fun c : Dev nD => (dutyTok ER (barCell c) 0 2 : sProp 𝕄)),
    around 0 (fun c : Dev nD => (dutyTok ER (recvCell 0 c) 0 0 : sProp 𝕄)),
    around 1 (fun c : Dev nD => (dutyTok ER (recvCell 1 c) 0 0 : sProp 𝕄)),
    around 2 (fun c : Dev nD => (dutyTok ER (recvCell 2 c) 0 0 : sProp 𝕄))]
  iintro ⟨Hb0, Hb1, Hb2, Hc, Hs0, Hs1, Hs2, Hr0, Hr1, Hr2⟩
  isplitl [Hb0 Hb1 Hb2]
  · isplitl [Hb2]; · iexact Hb2
    isplitl [Hb1]; · iexact Hb1
    iexact Hb0
  isplitl [Hr0 Hr1 Hr2]
  · isplitl [Hr0]; · iexact Hr0
    isplitl [Hr1]; · iexact Hr1
    iexact Hr2
  isplitl [Hs0 Hs1 Hs2]
  · isplitl [Hs0]; · iexact Hs0
    isplitl [Hs1]; · iexact Hs1
    iexact Hs2
  iexact Hc

/-- A persistent assertion in hand serves every factor of a product. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem positions_intro (c : Dev nD) : (bigSep Finset.univ fun k : CellIx => (atPos ER (kcell (c, k)) 0 ∅ 0 : sProp 𝕄)) ⊢ positions c := by
  rw [bigSep_cellIx]; unfold positions
  iintro ⟨Hb, Hc, Hs0, Hs1, Hs2, Hr0, Hr1, Hr2⟩
  isplitl [Hb]; · iexact Hb
  isplitl [Hc]; · iexact Hc
  isplitl [Hs0 Hs1 Hs2]
  · isplitl [Hs0]; · iexact Hs0
    isplitl [Hs1]; · iexact Hs1
    iexact Hs2
  · isplitl [Hr0]; · iexact Hr0
    isplitl [Hr1]; · iexact Hr1
    iexact Hr2

theorem linear_intro (c : Dev nD) :
    iprop((bigSep Finset.univ fun k : CellIx => (atPos ER (kcell (c, k)) 0 ∅ 0 : sProp 𝕄)) ∗ payToks c) ⊢ linear c := by
  unfold linear; exact sep_mono_left (positions_intro c)

theorem regroup :
    (bigSep Finset.univ fun c : Dev nD => iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CellIx => iprop(∃ κ : ℕ, cellInv ER (a2aRd m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄)) payToks).symm).trans
      (bigSep_mono fun c _ => linear_intro c))
    isplitl [Hat]; · iexact Hat
    iexact Htk

/-- The mesh-wide step: every device's own and unscoped semaphores and its deal, into every device's ghost state. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Three units on one cell are one credit of three. -/
theorem cred_bar3 (g : GSem nD τ sig) :
    iprop(cred (tallyAt g () 1) ∗ cred (tallyAt g () 1) ∗ cred (tallyAt g () 1)) ⊢ (cred (tallyAt g () 3) : sProp 𝕄) :=
  (sep_mono_right (cred_add _ _).2).trans (((cred_add _ _).2).trans (Entails.of_eq (by rw [tallyAt_add, tallyAt_add])))

/-- What the mesh owes at launch is, device by device, the credit of that device's waits: each of a device's three peers
    owes its barrier cell a unit, and the device whose step `e` reaches it owes its receive cell `e` a block's credit. -/
theorem creds (c : Dev nD) : (Pipeline.launchCred O₀ c : sProp 𝕄) ⊢ waitCred c := by
  have e0 : (Pipeline.launchCred O₀ c : sProp 𝕄)
      = iprop(Pipeline.launchCred O₁ c ∗ Pipeline.launchCred (fun d => tallyAt (barCell (peer 0 d)) () 1) c) :=
    Pipeline.launchCred_add O₁ (fun d => tallyAt (barCell (peer 0 d)) () 1) c
  have e1 : (Pipeline.launchCred O₁ c : sProp 𝕄)
      = iprop(Pipeline.launchCred O₂ c ∗ Pipeline.launchCred (fun d => tallyAt (barCell (peer 1 d)) () 1) c) :=
    Pipeline.launchCred_add O₂ (fun d => tallyAt (barCell (peer 1 d)) () 1) c
  have e2 : (Pipeline.launchCred O₂ c : sProp 𝕄)
      = iprop(Pipeline.launchCred Orecv c ∗ Pipeline.launchCred (fun d => tallyAt (barCell (peer 2 d)) () 1) c) :=
    Pipeline.launchCred_add Orecv (fun d => tallyAt (barCell (peer 2 d)) () 1) c
  have e3 : (Pipeline.launchCred Orecv c : sProp 𝕄)
      = iprop(Pipeline.launchCred (fun d => tallyAt (recvCell 2 (peer 2 d)) () N + tallyAt (recvCell 1 (peer 1 d)) () N) c
          ∗ Pipeline.launchCred (fun d => tallyAt (recvCell 0 (peer 0 d)) () N) c) :=
    Pipeline.launchCred_add (fun d => tallyAt (recvCell 2 (peer 2 d)) () N + tallyAt (recvCell 1 (peer 1 d)) () N) (fun d => tallyAt (recvCell 0 (peer 0 d)) () N) c
  have e4 : (Pipeline.launchCred (fun d => tallyAt (recvCell 2 (peer 2 d)) () N + tallyAt (recvCell 1 (peer 1 d)) () N) c : sProp 𝕄)
      = iprop(Pipeline.launchCred (fun d => tallyAt (recvCell 2 (peer 2 d)) () N) c ∗ Pipeline.launchCred (fun d => tallyAt (recvCell 1 (peer 1 d)) () N) c) :=
    Pipeline.launchCred_add (fun d => tallyAt (recvCell 2 (peer 2 d)) () N) (fun d => tallyAt (recvCell 1 (peer 1 d)) () N) c
  rw [e0, e1, e2, e3, e4]
  unfold waitCred
  iintro ⟨⟨⟨⟨⟨H2, H1⟩, H0⟩, Hb2⟩, Hb1⟩, Hb0⟩
  ihave Hr2 := (Pipeline.launchCred_tallyAt (.dma (recvS 2)) (peer 2) (src 2) (peer_src 2) (src_peer 2) () N c) $$ H2
  ihave Hr1 := (Pipeline.launchCred_tallyAt (.dma (recvS 1)) (peer 1) (src 1) (peer_src 1) (src_peer 1) () N c) $$ H1
  ihave Hr0 := (Pipeline.launchCred_tallyAt (.dma (recvS 0)) (peer 0) (src 0) (peer_src 0) (src_peer 0) () N c) $$ H0
  ihave Hc2 := (Pipeline.launchCred_tallyAt (.reg barS) (peer 2) (src 2) (peer_src 2) (src_peer 2) () 1 c) $$ Hb2
  ihave Hc1 := (Pipeline.launchCred_tallyAt (.reg barS) (peer 1) (src 1) (peer_src 1) (src_peer 1) () 1 c) $$ Hb1
  ihave Hc0 := (Pipeline.launchCred_tallyAt (.reg barS) (peer 0) (src 0) (peer_src 0) (src_peer 0) () 1 c) $$ Hb0
  isplitl [Hc0 Hc1 Hc2]
  · iapply (cred_bar3 (F := F) (barCell c))
    isplitl [Hc0]; · iexact Hc0
    isplitl [Hc1]; · iexact Hc1
    iexact Hc2
  isplitl [Hr0]; · iexact Hr0
  isplitl [Hr1]; · iexact Hr1
  iexact Hr2

/-- At its barrier wait a device owes its three receive credits only: receive cells, above its barrier cell. -/
theorem mayWait_bar (c : Dev nD) : (levAts L lv : sProp 𝕄) ⊢ MayWait (c : Thread nD τ) (.reg barS) () (Orecv c) :=
  Pipeline.mayWait_of_levAts (by rw [L_tc]; exact Finset.mem_singleton_self _) fun g i hg => by
    have hlt (e : Fin 3) : lv ((c : Thread nD τ), .reg barS) () < lv (recvCell e (peer e c)) () := by
      rw [lv_recv, lv_bar]; decide
    unfold Orecv at hg
    rcases Pipeline.add_pos_cases hg with h | h
    · rcases Pipeline.add_pos_cases h with h | h
      · obtain ⟨rfl, rfl⟩ := Pipeline.tallyAt_pos h
        exact ⟨by rw [L_tc]; exact Finset.mem_singleton_self _, hlt 2⟩
      · obtain ⟨rfl, rfl⟩ := Pipeline.tallyAt_pos h
        exact ⟨by rw [L_tc]; exact Finset.mem_singleton_self _, hlt 1⟩
    · obtain ⟨rfl, rfl⟩ := Pipeline.tallyAt_pos h
      exact ⟨by rw [L_tc]; exact Finset.mem_singleton_self _, hlt 0⟩

/-- info: 'Cert.KernelProof.glob' depends on axioms: [propext, Classical.choice, Quot.sound] -/
#guard_msgs in #print axioms glob
/-- info: 'Cert.KernelProof.hu₀' depends on axioms: [propext, Classical.choice, Quot.sound] -/
#guard_msgs in #print axioms hu₀
/-- info: 'Cert.KernelProof.creds' depends on axioms: [propext, Classical.choice, Quot.sound] -/
#guard_msgs in #print axioms creds

end Cert.KernelProof

end
-- ==== Proof.KTables.lean ====
/-
  The schedule's tables, cell by cell: which duties round 0 of each cell has, what each is worth, what the round expects
  in all, and what each duty hands over.
-/
import proofs.«900657_g7700000000000658_dist_a2a_v7x_xyz2x4x4_z_m4096_n1024_f32_1_alg».proof.Proof.KSched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Tables
variable (c : Dev nD)

omit [FloatOps F] in
theorem duties_bar : (a2aRd (F := F) m).duties (barCell c) 0 = Finset.univ := by
  show (if (0 : ℕ) = 0 ∧ ((c : Thread nD τ)).2 = Proc.tc then (Finset.univ : Finset (Fin 3)) else ∅) = Finset.univ
  exact if_pos ⟨rfl, rfl⟩
omit [FloatOps F] in
theorem duties_dma (q : DmaSem sig) : (a2aRd (F := F) m).duties ((c : Thread nD τ), .dma q) 0 = {0} := by
  show (if (0 : ℕ) = 0 ∧ ((c : Thread nD τ)).2 = Proc.tc then ({0} : Finset (Fin 3)) else ∅) = {0}
  exact if_pos ⟨rfl, rfl⟩
omit [FloatOps F] in
theorem duties_later (g : GSem nD τ sig) : ∀ r, 1 ≤ r → (a2aRd (F := F) m).duties g r = ∅ :=
  fun r hr => by
    show (if r = 0 ∧ g.1.2 = Proc.tc then (match g.2 with | .reg _ => (Finset.univ : Finset (Fin 3)) | .dma _ => {0}) else ∅) = ∅
    exact if_neg fun h => by omega

omit [FloatOps F] in
theorem amount_bar (d : Fin 3) : (a2aRd (F := F) m).amount (barCell c) 0 d = 1 := rfl
omit [FloatOps F] in
theorem amount_dma (q : DmaSem sig) (d : Fin 3) : (a2aRd (F := F) m).amount ((c : Thread nD τ), .dma q) 0 d = N := rfl

omit [FloatOps F] in
theorem expect_bar : (a2aRd (F := F) m).expect (barCell c) 0 = 3 := by
  show (∑ d ∈ (a2aRd (F := F) m).duties (barCell c) 0, (a2aRd (F := F) m).amount (barCell c) 0 d) = 3
  rw [duties_bar]
  show (∑ _d : Fin 3, (1 : ℕ)) = 3
  rw [Finset.sum_const, Finset.card_univ, Fintype.card_fin, smul_eq_mul]
omit [FloatOps F] in
/-- A round with one duty expects that duty's amount: for any schedule. -/
theorem expect_of_singleton (Rd : Rounds.Schedule (GSem nD τ sig) (Fin 3) 𝕄) (g : GSem nD τ sig) (r : ℕ) (d : Fin 3)
    (h : Rd.duties g r = {d}) : Rd.expect g r = Rd.amount g r d := by
  unfold Schedule.expect Schedule.amountOf; rw [h, Finset.sum_singleton]
omit [FloatOps F] in
theorem expect_dma' (q : DmaSem sig) : (a2aRd (F := F) m).expect ((c : Thread nD τ), .dma q) 0 = (a2aRd (F := F) m).amount ((c : Thread nD τ), .dma q) 0 0 :=
  expect_of_singleton (a2aRd (F := F) m) _ 0 0 (duties_dma m c q)
omit [FloatOps F] in
/-- A wait naming a row block of a result, or a column block of an argument, takes exactly what a DMA cell's round expects. -/
theorem wait_row (q : DmaSem sig) (c' : Dev nD) (k : Fin 4) : 0 + (rowM c' k).view.dmaCredit = (a2aRd (F := F) m).expect ((c : Thread nD τ), .dma q) 0 :=
  (Nat.zero_add _).trans ((rowM_credit c' k).trans ((amount_dma m c q 0).symm.trans (expect_dma' m c q).symm))
omit [FloatOps F] in
theorem wait_col (q : DmaSem sig) (c' : Dev nD) (k : Fin 4) : 0 + (colM c' k).view.dmaCredit = (a2aRd (F := F) m).expect ((c : Thread nD τ), .dma q) 0 :=
  (Nat.zero_add _).trans ((colM_credit c' k).trans ((amount_dma m c q 0).symm.trans (expect_dma' m c q).symm))

omit [FloatOps F] in
theorem payload_bar (d : Fin 3) : (a2aRd (F := F) m).payload (barCell c) 0 d = barPay c d := rfl
omit [FloatOps F] in
theorem payload_copy (d : Fin 3) : (a2aRd (F := F) m).payload (copyCell c) 0 d = copyPay m c := rfl
omit [FloatOps F] in
theorem payload_send (e d : Fin 3) : (a2aRd (F := F) m).payload (sendCell e c) 0 d = sendPay m c e := by
  show dmaPay m c (1 + e.val) = _
  have he := e.isLt
  unfold dmaPay
  rw [if_neg (by omega), if_pos (by omega)]
  exact congrArg (sendPay m c) (Fin.ext (by show (1 + e.val - 1) % 3 = e.val; omega))
omit [FloatOps F] in
theorem payload_recv (e d : Fin 3) : (a2aRd (F := F) m).payload (recvCell e c) 0 d = recvPay m c e := by
  show dmaPay m c (4 + e.val) = _
  have he := e.isLt
  unfold dmaPay
  rw [if_neg (by omega), if_neg (by omega)]
  exact congrArg (recvPay m c) (Fin.ext (by show (4 + e.val - 4) % 3 = e.val; omega))

omit [FloatOps F] in
/-- The whole of the barrier cell's round: the three peers' hand-overs. -/
theorem rest_bar : bigSep ((a2aRd (F := F) m).duties (barCell c) 0 \ ∅) (fun d => (a2aRd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
omit [FloatOps F] in
theorem rest_copy : bigSep ((a2aRd (F := F) m).duties (copyCell c) 0 \ ∅) (fun d => (a2aRd (F := F) m).payload (copyCell c) 0 d) = copyPay m c := by
  rw [Finset.sdiff_empty, duties_dma, bigSep_singleton, payload_copy]
omit [FloatOps F] in
theorem rest_send (e : Fin 3) : bigSep ((a2aRd (F := F) m).duties (sendCell e c) 0 \ ∅) (fun d => (a2aRd (F := F) m).payload (sendCell e c) 0 d) = sendPay m c e := by
  rw [Finset.sdiff_empty, duties_dma, bigSep_singleton, payload_send]
omit [FloatOps F] in
theorem rest_recv (e : Fin 3) : bigSep ((a2aRd (F := F) m).duties (recvCell e c) 0 \ ∅) (fun d => (a2aRd (F := F) m).payload (recvCell e c) 0 d) = recvPay m c e := by
  rw [Finset.sdiff_empty, duties_dma, bigSep_singleton, payload_recv]

end Tables

end Cert.KernelProof

end
-- ==== Proof.KRegions.lean ====
/-
  Blocks of the two buffers. A result buffer (16384 x 1024) is four row blocks of 4096 rows; an argument buffer
  (4096 x 4096) is four column blocks of 1024 columns. Block `k` counted from device `c` sits at position
  `(c mod 4 + k) mod 4`. This module says (i) where an index of a block lands in its buffer, (ii) that a column block of
  device `c`'s argument, written into the row block at `c`'s position of a result buffer — `c`'s own, or a peer's —
  is what the all-to-all's result holds there, and (iii) that a whole buffer is its four blocks.
-/
import proofs.«900657_g7700000000000658_dist_a2a_v7x_xyz2x4x4_z_m4096_n1024_f32_1_alg».proof.Proof.KSched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Where a block's index lands -/

theorem rowM_emb_val0 (c : Dev nD) (k : Fin 4) (y : S4096x1024.Idx) :
    ((rowM c k).view.emb y 0).val = 4096 * ((c.val % 4 + k.val) % 4) + (y 0).val := by
  show 4096 * ((c.val % 4 + k.val) % 4) + 1 * (y 0).val = _; rw [Nat.one_mul]
theorem rowM_emb_val1 (c : Dev nD) (k : Fin 4) (y : S4096x1024.Idx) :
    ((rowM c k).view.emb y 1).val = (y 1).val := by
  show 0 + 1 * (y 1).val = _; rw [Nat.one_mul, Nat.zero_add]
theorem colM_emb_val0 (c : Dev nD) (k : Fin 4) (y : S4096x1024.Idx) :
    ((colM c k).view.emb y 0).val = (y 0).val := by
  show 0 + 1 * (y 0).val = _; rw [Nat.one_mul, Nat.zero_add]
theorem colM_emb_val1 (c : Dev nD) (k : Fin 4) (y : S4096x1024.Idx) :
    ((colM c k).view.emb y 1).val = 1024 * ((c.val % 4 + k.val) % 4) + (y 1).val := by
  show 1024 * ((c.val % 4 + k.val) % 4) + 1 * (y 1).val = _; rw [Nat.one_mul]

theorem rowBlk_rowM (c : Dev nD) (y : S4096x1024.Idx) :
    rowBlk ((rowM c 0).view.emb y) = ⟨c.val % 4, Nat.mod_lt _ (by decide)⟩ := by
  apply Fin.ext
  show ((rowM c 0).view.emb y 0).val / 4096 = c.val % 4
  rw [rowM_emb_val0]
  have h0 : (y 0).val < 4096 := (y 0).isLt
  show (4096 * ((c.val % 4 + 0) % 4) + (y 0).val) / 4096 = c.val % 4
  omega

theorem zplace_peer (e : Fin 3) (c : Dev nD) : zplace ⟨c.val % 4, Nat.mod_lt _ (by decide)⟩ (peer e c) = c := by
  revert e c; decide

theorem srcIdx_rowM (d c : Dev nD) (k : Fin 4) (h : d.val % 4 = (c.val % 4 + k.val) % 4) (y : S4096x1024.Idx) :
    srcIdx d ((rowM c 0).view.emb y) = (colM c k).view.emb y := by
  have h0 : (y 0).val < 4096 := (y 0).isLt
  funext a
  match a with
  | ⟨0, _⟩ =>
    apply Fin.ext
    show ((rowM c 0).view.emb y 0).val % 4096 = ((colM c k).view.emb y 0).val
    rw [rowM_emb_val0, colM_emb_val0]
    omega
  | ⟨1, _⟩ =>
    apply Fin.ext
    show 1024 * (d.val % 4) + ((rowM c 0).view.emb y 1).val = ((colM c k).view.emb y 1).val
    rw [rowM_emb_val1, colM_emb_val1, h]

/-! ## What a copy writes -/

/-- The local copy: device `c`'s own column block, written into its own row block, is the result there. -/
theorem local_write_eq (c : Dev nD) (fd : Buf (Elt F) ((rowM c 0).view.loc (c : Thread nD τ))) :
    ∀ i ∈ (rowM c 0).view.set, (rowM c 0).view.write (Elt F) fd ((colM c 0).view.read (Elt F) (m ((c : Thread nD τ).loc main_arg0))) Finset.univ i = outFn m c i := by
  intro i hi
  obtain ⟨y, rfl⟩ := View.exists_emb_of_mem_set _ hi
  rw [View.write_emb_of_mem _ _ (Finset.mem_univ y), View.read_apply, outFn_apply, rowBlk_rowM, zplace_self,
    srcIdx_rowM c c 0 (by show c.val % 4 = (c.val % 4 + 0) % 4; omega)]
  rfl

/-- The transfer of step `e`: device `c`'s column block `e + 1`, written into the peer's row block at `c`'s position,
    is the peer's result there. -/
theorem remote_write_eq (c : Dev nD) (e : Fin 3) (fd : Buf (Elt F) ((rowM c 0).view.loc ((peer e c : Dev nD) : Thread nD τ))) :
    ∀ i ∈ (rowM c 0).view.set, (rowM c 0).view.write (Elt F) fd ((colM c e.succ).view.read (Elt F) (m ((c : Thread nD τ).loc main_arg0))) Finset.univ i = outFn m (peer e c) i := by
  intro i hi
  obtain ⟨y, rfl⟩ := View.exists_emb_of_mem_set _ hi
  rw [View.write_emb_of_mem _ _ (Finset.mem_univ y), View.read_apply, outFn_apply, rowBlk_rowM, zplace_peer,
    srcIdx_rowM (peer e c) c e.succ (by rw [peer_mod]; rfl)]
  rfl

/-! ## The four blocks of a buffer -/

/-- An index lies in row block `k` (counted from `c`) when its row does. -/
theorem mem_rowRect (c : Dev nD) (k : Fin 4) (i : S16384x1024.Idx) :
    i ∈ (rowRect c k).set ↔ 4096 * ((c.val % 4 + k.val) % 4) ≤ (i 0).val ∧ (i 0).val < 4096 * ((c.val % 4 + k.val) % 4) + 4096 := by
  rw [Rect.mem_set_unit, Fin.forall_fin_two]
  have h1 : (i 1).val < 1024 := (i 1).isLt
  show (4096 * ((c.val % 4 + k.val) % 4) ≤ (i 0).val ∧ (i 0).val < 4096 * ((c.val % 4 + k.val) % 4) + 4096)
      ∧ (0 ≤ (i 1).val ∧ (i 1).val < 0 + 1024) ↔ _
  omega

/-- An index lies in column block `k` (counted from `c`) when its column does. -/
theorem mem_colRect (c : Dev nD) (k : Fin 4) (i : S4096x4096.Idx) :
    i ∈ (colRect c k).set ↔ 1024 * ((c.val % 4 + k.val) % 4) ≤ (i 1).val ∧ (i 1).val < 1024 * ((c.val % 4 + k.val) % 4) + 1024 := by
  rw [Rect.mem_set_unit, Fin.forall_fin_two]
  have h0 : (i 0).val < 4096 := (i 0).isLt
  show (0 ≤ (i 0).val ∧ (i 0).val < 0 + 4096)
      ∧ (1024 * ((c.val % 4 + k.val) % 4) ≤ (i 1).val ∧ (i 1).val < 1024 * ((c.val % 4 + k.val) % 4) + 1024) ↔ _
  omega

/-- Blocks that start at the same place are the same set of elements. -/
theorem rowRect_set_congr {c c' : Dev nD} {k k' : Fin 4} (h : rowOff c' k' = rowOff c k) : (rowRect c' k').set = (rowRect c k).set := by
  ext i; rw [Rect.mem_set_unit, Rect.mem_set_unit, h]

/-- Four consecutive positions round a ring of four, of blocks of `w` each, tile `4 w`: every place below `4 w` is in one of them. -/
theorem cover4 (w z r : Nat) (hz : z < 4) (hr : r < 4 * w) :
    (w * ((z + 0) % 4) ≤ r ∧ r < w * ((z + 0) % 4) + w) ∨ (w * ((z + 1) % 4) ≤ r ∧ r < w * ((z + 1) % 4) + w)
      ∨ (w * ((z + 2) % 4) ≤ r ∧ r < w * ((z + 2) % 4) + w) ∨ (w * ((z + 3) % 4) ≤ r ∧ r < w * ((z + 3) % 4) + w) := by
  have h4 : z = 0 ∨ z = 1 ∨ z = 2 ∨ z = 3 := by omega
  rcases h4 with rfl | rfl | rfl | rfl <;> simp only [Nat.reduceAdd, Nat.reduceMod, Nat.mul_zero, Nat.mul_one, Nat.zero_add] <;> omega

/-- Two different positions round the ring give blocks one of which ends before the other starts. -/
theorem apart4 (w z k k' : Nat) (hz : z < 4) (hk : k < 4) (hk' : k' < 4) (hne : k ≠ k') :
    w * ((z + k) % 4) + w ≤ w * ((z + k') % 4) ∨ w * ((z + k') % 4) + w ≤ w * ((z + k) % 4) := by
  have h : (z + k) % 4 + 1 ≤ (z + k') % 4 ∨ (z + k') % 4 + 1 ≤ (z + k) % 4 := by omega
  rcases h with h | h
  · left; calc w * ((z + k) % 4) + w = w * ((z + k) % 4 + 1) := (Nat.mul_succ _ _).symm
      _ ≤ w * ((z + k') % 4) := Nat.mul_le_mul_left _ h
  · right; calc w * ((z + k') % 4) + w = w * ((z + k') % 4 + 1) := (Nat.mul_succ _ _).symm
      _ ≤ w * ((z + k) % 4) := Nat.mul_le_mul_left _ h

theorem rows_cover (c : Dev nD) :
    (Finset.univ : Finset S16384x1024.Idx) = (rowRect c 0).set ∪ ((rowRect c 1).set ∪ ((rowRect c 2).set ∪ (rowRect c 3).set)) := by
  ext i
  simp only [Finset.mem_univ, Finset.mem_union, mem_rowRect, true_iff]
  exact cover4 4096 (c.val % 4) (i 0).val (Nat.mod_lt _ (by decide)) (i 0).isLt

theorem cols_cover (c : Dev nD) :
    (Finset.univ : Finset S4096x4096.Idx) = (colRect c 0).set ∪ ((colRect c 1).set ∪ ((colRect c 2).set ∪ (colRect c 3).set)) := by
  ext i
  simp only [Finset.mem_univ, Finset.mem_union, mem_colRect, true_iff]
  exact cover4 1024 (c.val % 4) (i 1).val (Nat.mod_lt _ (by decide)) (i 1).isLt

theorem rowRect_disjoint (c : Dev nD) (k k' : Fin 4) (h : k ≠ k') : Disjoint (rowRect c k).set (rowRect c k').set :=
  Rect.unit_disjoint 0 (apart4 4096 (c.val % 4) k.val k'.val (Nat.mod_lt _ (by decide)) k.isLt k'.isLt (fun e => h (Fin.ext e)))

theorem colRect_disjoint (c : Dev nD) (k k' : Fin 4) (h : k ≠ k') : Disjoint (colRect c k).set (colRect c k').set :=
  Rect.unit_disjoint 1 (apart4 1024 (c.val % 4) k.val k'.val (Nat.mod_lt _ (by decide)) k.isLt k'.isLt (fun e => h (Fin.ext e)))

/-! ## What a copy hands over -/

/-- The local copy's two blocks, the row block written, are what its cell's duty hands over. -/
theorem copy_pay (c : Dev nD) (fd : Buf (Elt F) ((rowM c 0).view.loc (c : Thread nD τ))) :
    iprop(((rowM c 0).view.loc (c : Thread nD τ) ↦[(rowM c 0).view.set]{fullShare} ((rowM c 0).view.write (Elt F) fd ((colM c 0).view.read (Elt F) (m ((c : Thread nD τ).loc main_arg0))) Finset.univ))
        ∗ ((colM c 0).view.loc (c : Thread nD τ) ↦[(colM c 0).view.set]{fullShare} m ((c : Thread nD τ).loc main_arg0)))
      ⊢ (copyPay m c : sProp 𝕄) := by
  refine Entails.of_eq ?_
  unfold copyPay rowPts colPts
  rw [pointsTo_congr (local_write_eq m c fd)]

/-- The row block a transfer of step `e` has landed in, at the receiver, is what the receiver's receive cell `e` hands over. -/
theorem recv_pay (c : Dev nD) (e : Fin 3) (fd : Buf (Elt F) ((rowM c 0).view.loc ((peer e c : Dev nD) : Thread nD τ))) :
    ((rowM c 0).view.loc ((peer e c : Dev nD) : Thread nD τ) ↦[(rowM c 0).view.set]{fullShare} ((rowM c 0).view.write (Elt F) fd ((colM c e.succ).view.read (Elt F) (m ((c : Thread nD τ).loc main_arg0))) Finset.univ))
      ⊢ (recvPay m (peer e c) e : sProp 𝕄) := by
  refine Entails.of_eq ?_
  unfold recvPay rowPts
  rw [pointsTo_congr (remote_write_eq m c e fd)]
  show pointsTo (((peer e c : Dev nD) : Thread nD τ).loc main_v1) (rowM c 0).view.set fullShare (outFn m (peer e c))
      = pointsTo (((peer e c : Dev nD) : Thread nD τ).loc main_v1) (rowM (peer e c) (Fin.rev e.castSucc)).view.set fullShare (outFn m (peer e c))
  rw [rowM_set, rowM_set, rowRect_set_congr (rowOff_peer c e)]

/-! ## A whole buffer as its four blocks -/

/-- Holding a buffer on two disjoint sets of elements is holding it on each. -/
theorem pts_union_eq {ℓ : Loc nD τ sig} {I J : Finset (Idx ℓ)} (f : Buf (Elt F) ℓ) (h : Disjoint I J) :
    (pointsTo ℓ (I ∪ J) fullShare f : sProp 𝕄) = iprop(pointsTo ℓ I fullShare f ∗ pointsTo ℓ J fullShare f) :=
  BI.equiv_iff.mp ⟨(pointsTo_union h).1, (pointsTo_union h).2⟩

/-- A result buffer, whole, is its four row blocks (counted from any device `c`). -/
theorem rows_split (d c : Dev nD) (f : Buf (Elt F) ((d : Thread nD τ).loc main_v1)) :
    ((((d : Thread nD τ).loc main_v1) ↦{fullShare} f) : sProp 𝕄) ⊣⊢ iprop(rowPts d c 0 f ∗ rowPts d c 1 f ∗ rowPts d c 2 f ∗ rowPts d c 3 f) := by
  refine BIBase.BiEntails.of_eq ?_
  unfold rowPts
  show (pointsTo ((d : Thread nD τ).loc main_v1) Finset.univ fullShare f : sProp 𝕄)
      = (iprop(pointsTo ((d : Thread nD τ).loc main_v1) (rowM c 0).view.set fullShare f
          ∗ pointsTo ((d : Thread nD τ).loc main_v1) (rowM c 1).view.set fullShare f
          ∗ pointsTo ((d : Thread nD τ).loc main_v1) (rowM c 2).view.set fullShare f
          ∗ pointsTo ((d : Thread nD τ).loc main_v1) (rowM c 3).view.set fullShare f) : sProp 𝕄)
  have d23 : Disjoint (rowRect c 2).set (rowRect c 3).set := rowRect_disjoint c 2 3 (by decide)
  have d1 : Disjoint (rowRect c 1).set ((rowRect c 2).set ∪ (rowRect c 3).set) :=
    Finset.disjoint_union_right.mpr ⟨rowRect_disjoint c 1 2 (by decide), rowRect_disjoint c 1 3 (by decide)⟩
  have d0 : Disjoint (rowRect c 0).set ((rowRect c 1).set ∪ ((rowRect c 2).set ∪ (rowRect c 3).set)) :=
    Finset.disjoint_union_right.mpr ⟨rowRect_disjoint c 0 1 (by decide),
      Finset.disjoint_union_right.mpr ⟨rowRect_disjoint c 0 2 (by decide), rowRect_disjoint c 0 3 (by decide)⟩⟩
  rw [rowM_set, rowM_set, rowM_set, rowM_set, rows_cover c,
    pts_union_eq _ d0, pts_union_eq _ d1, pts_union_eq _ d23]

/-- An argument buffer, whole and at its launch contents, is its four column blocks. -/
theorem cols_split (c : Dev nD) :
    ((((c : Thread nD τ).loc main_arg0) ↦{fullShare} m ((c : Thread nD τ).loc main_arg0)) : sProp 𝕄) ⊣⊢ iprop(colPts m c 0 ∗ colPts m c 1 ∗ colPts m c 2 ∗ colPts m c 3) := by
  refine BIBase.BiEntails.of_eq ?_
  unfold colPts
  show (pointsTo ((c : Thread nD τ).loc main_arg0) Finset.univ fullShare (m ((c : Thread nD τ).loc main_arg0)) : sProp 𝕄)
      = (iprop(pointsTo ((c : Thread nD τ).loc main_arg0) (colM c 0).view.set fullShare (m ((c : Thread nD τ).loc main_arg0))
          ∗ pointsTo ((c : Thread nD τ).loc main_arg0) (colM c 1).view.set fullShare (m ((c : Thread nD τ).loc main_arg0))
          ∗ pointsTo ((c : Thread nD τ).loc main_arg0) (colM c 2).view.set fullShare (m ((c : Thread nD τ).loc main_arg0))
          ∗ pointsTo ((c : Thread nD τ).loc main_arg0) (colM c 3).view.set fullShare (m ((c : Thread nD τ).loc main_arg0))) : sProp 𝕄)
  have d23 : Disjoint (colRect c 2).set (colRect c 3).set := colRect_disjoint c 2 3 (by decide)
  have d1 : Disjoint (colRect c 1).set ((colRect c 2).set ∪ (colRect c 3).set) :=
    Finset.disjoint_union_right.mpr ⟨colRect_disjoint c 1 2 (by decide), colRect_disjoint c 1 3 (by decide)⟩
  have d0 : Disjoint (colRect c 0).set ((colRect c 1).set ∪ ((colRect c 2).set ∪ (colRect c 3).set)) :=
    Finset.disjoint_union_right.mpr ⟨colRect_disjoint c 0 1 (by decide),
      Finset.disjoint_union_right.mpr ⟨colRect_disjoint c 0 2 (by decide), colRect_disjoint c 0 3 (by decide)⟩⟩
  rw [colM_set, colM_set, colM_set, colM_set, cols_cover c,
    pts_union_eq _ d0, pts_union_eq _ d1, pts_union_eq _ d23]

/-! ## Renaming a block -/

/-- Blocks counted from different devices that start at the same place are the same slice of the buffer. -/
theorem rowM_congr (c c' : Dev nD) (k k' : Fin 4) (h : rowOff c k = rowOff c' k') : rowM c k = rowM c' k' :=
  rowM_of_off (rowOff_inb c k) c' k' h

/-- The same, of the assertion that a device's result buffer holds `f` on the block. -/
theorem rowPts_congr (d c c' : Dev nD) (k k' : Fin 4) (h : rowOff c k = rowOff c' k') (f : Buf (Elt F) ((d : Thread nD τ).loc main_v1)) :
    (rowPts d c k f : sProp 𝕄) = rowPts d c' k' f := by
  unfold rowPts
  show (pointsTo ((d : Thread nD τ).loc main_v1) (rowM c k).view.set fullShare f : sProp 𝕄)
      = pointsTo ((d : Thread nD τ).loc main_v1) (rowM c' k').view.set fullShare f
  rw [rowM_set, rowM_set, rowRect_set_congr h]

/-- Device `c`'s row block `e + 1` is the block at its step-`e` peer's position. -/
theorem rowPts_hand (c : Dev nD) (e : Fin 3) (f : Buf (Elt F) ((c : Thread nD τ).loc main_v1)) :
    (rowPts c c e.succ f : sProp 𝕄) = rowPts c (peer e c) 0 f :=
  rowPts_congr c c (peer e c) e.succ 0 (rowOff_succ c e) f

/-- The block of the peer's result at `c`'s position is, counted from the peer, its block `3 - e`. -/
theorem rowPts_land (c : Dev nD) (e : Fin 3) (f : Buf (Elt F) (((peer e c : Dev nD) : Thread nD τ).loc main_v1)) :
    (rowPts (peer e c) c 0 f : sProp 𝕄) = rowPts (peer e c) (peer e c) (Fin.rev e.castSucc) f :=
  rowPts_congr (peer e c) c (peer e c) 0 (Fin.rev e.castSucc) (rowOff_peer c e).symm f

/-- info: 'Cert.KernelProof.local_write_eq' depends on axioms: [propext, Classical.choice, Quot.sound] -/
#guard_msgs in #print axioms Cert.KernelProof.local_write_eq
/-- info: 'Cert.KernelProof.remote_write_eq' depends on axioms: [propext, Classical.choice, Quot.sound] -/
#guard_msgs in #print axioms Cert.KernelProof.remote_write_eq
/-- info: 'Cert.KernelProof.copy_pay' depends on axioms: [propext, Classical.choice, Quot.sound] -/
#guard_msgs in #print axioms Cert.KernelProof.copy_pay
/-- info: 'Cert.KernelProof.recv_pay' depends on axioms: [propext, Classical.choice, Quot.sound] -/
#guard_msgs in #print axioms Cert.KernelProof.recv_pay
/-- info: 'Cert.KernelProof.rows_split' depends on axioms: [propext, Classical.choice, Quot.sound] -/
#guard_msgs in #print axioms Cert.KernelProof.rows_split
/-- info: 'Cert.KernelProof.cols_split' depends on axioms: [propext, Classical.choice, Quot.sound] -/
#guard_msgs in #print axioms Cert.KernelProof.cols_split
/-- info: 'Cert.KernelProof.rowM_congr' depends on axioms: [propext, Classical.choice, Quot.sound] -/
#guard_msgs in #print axioms Cert.KernelProof.rowM_congr
/-- info: 'Cert.KernelProof.rowPts_congr' depends on axioms: [propext, Classical.choice, Quot.sound] -/
#guard_msgs in #print axioms Cert.KernelProof.rowPts_congr
/-- info: 'Cert.KernelProof.rowPts_hand' depends on axioms: [propext, Classical.choice, Quot.sound] -/
#guard_msgs in #print axioms Cert.KernelProof.rowPts_hand
/-- info: 'Cert.KernelProof.rowPts_land' depends on axioms: [propext, Classical.choice, Quot.sound] -/
#guard_msgs in #print axioms Cert.KernelProof.rowPts_land

end Cert.KernelProof

end
-- ==== Proof.KBody.lean ====
/-
  The body of one device's kernel, stepped from its invariant.

  In program order: three signals, each paying one duty of a peer's barrier cell and handing that peer the row block
  it will write; the wait for the three units of the device's own barrier cell, which brings the three peers' row
  blocks at the device's position; the local copy of the device's own column block into its own row block; three
  transfers, each reading one column block and writing the peer's row block received with the barrier; the waits
  on the copy cell, the three send cells and the three receive cells, which bring every block back, the row
  blocks holding what the all-to-all leaves there. The four column blocks rejoin to the argument as it was and the
  four row blocks to the result.
-/
import proofs.«900657_g7700000000000658_dist_a2a_v7x_xyz2x4x4_z_m4096_n1024_f32_1_alg».proof.Proof.KData
import proofs.«900657_g7700000000000658_dist_a2a_v7x_xyz2x4x4_z_m4096_n1024_f32_1_alg».proof.Proof.KTables
import proofs.«900657_g7700000000000658_dist_a2a_v7x_xyz2x4x4_z_m4096_n1024_f32_1_alg».proof.Proof.KRegions
import proofs.«900657_g7700000000000658_dist_a2a_v7x_xyz2x4x4_z_m4096_n1024_f32_1_alg».proof.Proof.Gen.Kernel.Points

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.Tactic

/-- The peer of step `s` reaches the device back in its own step `2 - s`. -/
theorem peer_rev_peer : ∀ (s : Fin 3) (c : Dev nD), peer (Fin.rev s) (peer s c) = c := by decide

section Body

variable (K : Dev nD × CellIx → ℕ)

/-- The signal of step `s`: it pays duty `2 - s` of the peer's barrier cell, handing over the row block the peer will
    write and that the device's receive cell `2 - s` is open. -/
theorem wp_sig (c : Dev nD) (s : Fin 3) (t : Dev nD) (ht : t = peer s c) (O' O : CellTallies nD τ sig Unit)
    (hO : O' = O + tallyAt (barCell (peer s c)) () 1) (W : Waits sig Unit)
    (f : Buf (Elt F) ((c : Thread nD τ).loc main_v1))
    {α : Type} {Q : α → sProp 𝕄} {k : PUnit → Prog (TpuEff nD τ sig (Elt F) Λ₀ .tc) α} :
    iprop(cellInv ER (a2aRd m) (K (peer s c, .bar)) (barCell (peer s c))
        ∗ owes (c : Thread nD τ) O' W
        ∗ dutyTok ER (barCell (peer s c)) 0 (Fin.rev s)
        ∗ rowPts c c s.succ f ∗ reached ER (recvCell (Fin.rev s) c) 0
        ∗ reached ER (barCell (peer s c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((t : Dev nD), Proc.tc) barS 1) k) Q) := by
  subst ht
  iintro ⟨#HI, HO, Ht, Hv, #Hrq, #Hrb⟩
  iapply (Rounds.wp_signal 𝒱₀ ER (a2aRd m) (c : Thread nD τ) none (dst := ((peer s c : Dev nD) : Thread nD τ)) (κ := K (peer s c, .bar))
      (d := Fin.rev s) (by rw [duties_bar]; exact Finset.mem_univ _) (amount_bar m (peer s c) (Fin.rev s)) () O hO)
    $$ [HO Ht Hv]
  · isplitr; · iexact HI
    isplitl [HO]; · iexact HO
    isplitl [Ht]; · iexact Ht
    isplitl [Hv]
    · rw [payload_bar]; unfold barPay; rw [peer_rev_peer]
      isplitl [Hv]
      · iexists f; rw [← rowPts_hand]; iexact Hv
      · iexact Hrq
    · iexact Hrb

/-- The transfer of step `e`: it reads column block `e + 1` and writes the peer's row block at the device's position,
    paying the one duty of the device's send cell `e` and of the peer's receive cell `e`. Stated for any spelling of the
    peer, the source block and the two semaphores that equals these. -/
theorem wp_xfer (c : Dev nD) (e : Fin 3) (t : Dev nD) (ht : t = peer e c)
    {src : Memref sig .tc .hbm S4096x1024 .f32} (hs : src = colM c e.succ)
    {sS sR : DmaSem sig} (hsS : sS = sendS e) (hsR : sR = recvS e)
    {hsc : (rowM c 0 : Memref sig (Dev.tc t : Thread nD τ).2.kind .hbm S4096x1024 .f32).view.ref.isScScratch = false}
    {hsrc : src.view.WordExact} {hdst : (rowM c 0).view.WordExact}
    {hsem : DmaTarget.Typed .hbm (.dma sR) (.remote (Dev.tc t : Thread nD τ) (rowM c 0) (.dma sS) hsc)}
    {α : Type} {Q : α → sProp 𝕄} {k : PUnit → Prog (TpuEff nD τ sig (Elt F) Λ₀ .tc) α}
    (fd : Buf (Elt F) ((rowM c 0).view.loc ((peer e c : Dev nD) : Thread nD τ))) (O' O : CellTallies nD τ sig Unit)
    (hO : O' = O + tallyAt (recvCell e (peer e c)) () N) (W : Waits sig Unit) :
    iprop(cellInv ER (a2aRd m) (K (c, .send e)) (sendCell e c) ∗ cellInv ER (a2aRd m) (K (peer e c, .recv e)) (recvCell e (peer e c))
        ∗ colPts m c e.succ ∗ rowPts (peer e c) c 0 fd
        ∗ owes (c : Thread nD τ) O' W
        ∗ dutyTok ER (sendCell e c) 0 0 ∗ reached ER (sendCell e c) 0
        ∗ dutyTok ER (recvCell e (peer e c)) 0 0 ∗ reached ER (recvCell e (peer e c)) 0)
      ⊢ iprop(((cred (tallyAt (sendCell e c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t : Thread nD τ) (rowM c 0) (.dma sS) hsc) (.dma sR) hsrc hdst hsem) k) Q) := by
  subst ht hs hsS hsR
  unfold colPts rowPts
  exact Rounds.wp_send_pointsTo 𝒱₀ ER (a2aRd m) (c : Thread nD τ) none (src := colM c e.succ) (dst := rowM c 0) (c' := ((peer e c : Dev nD) : Thread nD τ))
    (q := fullShare) (fs := m ((c : Thread nD τ).loc main_arg0))
    (κ₁ := K (c, .send e)) (κ₂ := K (peer e c, .recv e))
    (r₁ := 0) (r₂ := 0) (d₁ := 0) (d₂ := 0) (fd := fd)
    (by rw [duties_dma]; exact Finset.mem_singleton_self _) (by rw [duties_dma]; exact Finset.mem_singleton_self _)
    () () N rfl (amount_dma m c (sendS e) 0) (amount_dma m (peer e c) (recvS e) 0) O hO (W := W)
    (by rw [payload_send]; unfold sendPay colPts; exact BI.Entails.refl _)
    (by rw [payload_recv]; exact recv_pay m c e fd)

/-- The wait on one of the device's own DMA cells, owing nothing: the whole of its one round comes back. Stated for any
    spelling of the semaphore that equals the cell's, and any views whose destination carries a block's credit. -/
theorem wp_dwait (c : Dev nD) (q : DmaSem sig) (κ : ℕ) {sem : DmaSem sig} (hq : sem = q)
    {sp sp' : Space} {s s' : Shape} {e e' : EltTy} {src : Memref sig .tc sp' s' e'} {dst : Memref sig .tc sp s e}
    {hsrc : src.view.WordExact} {hdst : dst.view.WordExact} (hcr : dst.view.dmaCredit = N) (W : Waits sig Unit)
    {α : Type} {Q : α → sProp 𝕄} {k : PUnit → Prog (TpuEff nD τ sig (Elt F) Λ₀ .tc) α} :
    iprop(cellInv ER (a2aRd m) κ ((c : Thread nD τ), .dma q) ∗ cred (tallyAt ((c : Thread nD τ), .dma q) () N)
        ∗ owes (c : Thread nD τ) 0 W ∗ atPos ER ((c : Thread nD τ), .dma q) 0 ∅ 0)
      ⊢ iprop(((owes (c : Thread nD τ) 0 (insert (SemLoc.dma q, ()) W)
              ∗ atPos ER ((c : Thread nD τ), .dma q) (0 + 1) ∅ 0 ∗ reached ER ((c : Thread nD τ), .dma q) (0 + 1)
              ∗ bigSep ((a2aRd m).duties ((c : Thread nD τ), .dma q) 0 \ ∅) (fun d => (a2aRd m).payload ((c : Thread nD τ), .dma q) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hq
  iintro ⟨#HI, Hc, HO, Hat⟩
  iapply (Rounds.wp_wait_rest_token 𝒱₀ ER (a2aRd m) (c : Thread nD τ) none (κ := κ)
      (wpE_waitDma2_eq 𝒱₀ (c : Thread nD τ) none Set.univ) (Set.mem_univ _) () (O := 0) (W := W) (R := 0) (m := 0) (T := ∅)
      ((Nat.zero_add _).trans (hcr.trans ((amount_dma m c sem 0).symm.trans (expect_dma' m c sem).symm)))) $$ [Hc HO Hat]
  isplitr; · iexact HI
  isplitl [Hc]; · rw [hcr]; iexact Hc
  isplitl [HO]; · iexact HO
  isplitr; · rw [MayWait_zero]; iempintro
  iexact Hat

/-- The local copy: it reads the device's own column block and writes its own row block, paying the one duty of the copy cell. -/
theorem wp_lcopy (c : Dev nD) {hsrc : (colM c 0).view.WordExact} {hdst : (rowM c 0).view.WordExact}
    {hsem}
    {α : Type} {Q : α → sProp 𝕄} {k : PUnit → Prog (TpuEff nD τ sig (Elt F) Λ₀ .tc) α}
    (fd : Buf (Elt F) ((rowM c 0).view.loc (c : Thread nD τ))) :
    iprop(cellInv ER (a2aRd m) (K (c, .copy)) (copyCell c) ∗ colPts m c 0 ∗ rowPts c c 0 fd
        ∗ dutyTok ER (copyCell c) 0 0 ∗ reached ER (copyCell c) 0)
      ⊢ iprop((cred (tallyAt (copyCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (colM c 0) (.here (rowM c 0)) (.dma copyS) hsrc hdst hsem) k) Q) := by
  unfold colPts rowPts
  exact Rounds.wp_copy_pointsTo 𝒱₀ ER (a2aRd m) (c : Thread nD τ) none (src := colM c 0) (dst := rowM c 0) (sem := .dma copyS) (q := fullShare)
    (fs := m ((c : Thread nD τ).loc main_arg0)) (fd := fd) (r := 0) (d := 0) (κ := K (c, .copy))
    (by rw [duties_dma]; exact Finset.mem_singleton_self _) () N rfl (amount_dma m c copyS 0)
    (by rw [payload_copy]; exact copy_pay m c fd)

def bodyPre (c : Dev nD) : sProp 𝕄 :=
  iprop((ghost m K c ∗ waitCred c ∗ levAts L lv ∗ bufs₀ m c) ∗ (dats m 0 c).owesAt () t₀.castSucc)

def bodyPost (c : Dev nD) : sProp 𝕄 :=
  iprop(Φ₁ m c ∗ (dats m 0 c).owesAt () t₀.succ)

set_option maxHeartbeats 1600000 in
/-- The body, one rule per effect in program order, from `bodyPre` to `bodyPost`. -/
theorem sound_body (hmw : ∀ c : Dev nD, (levAts L lv : sProp 𝕄) ⊢ MayWait (c : Thread nD τ) (.reg barS) () (Orecv c))
    (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _) cc0_scratch0 cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  have e31 : k0_off3 c 1#32 = colOff c 1 := off3_eq c 0
  have e32 : k0_off3 c 2#32 = colOff c 2 := off3_eq c 1
  have e33 : k0_off3 c 3#32 = colOff c 3 := off3_eq c 2
  have e41 : k0_off4 c 1#32 = rowOff c 3 := off4_eq c 0
  have e42 : k0_off4 c 2#32 = rowOff c 2 := off4_eq c 1
  have e43 : k0_off4 c 3#32 = rowOff c 1 := off4_eq c 2
  simp only [dev1_eq c, dev2_eq c, dev3_eq c, copyS_eq,
    rowM_of_off (k0_off1_inb c) c 0 (off1_eq c), colM_of_off (k0_off2_inb c) c 0 (off2_eq c)]
  unfold bodyPre ghost invs reachedAll positions payToks waitCred bufs₀
  iintro ⟨⟨⟨⟨⟨#HIbar, #HIcp, ⟨#HIs0, #HIs1, #HIs2⟩, ⟨#HIr0, #HIr1, #HIr2⟩, ⟨#HIb0, #HIb1, #HIb2⟩, ⟨#HIq0, #HIq1, #HIq2⟩⟩,
        ⟨⟨#HRb0, #HRb1, #HRb2⟩, ⟨#HRq0, #HRq1, #HRq2⟩, #HRcp, ⟨#HRs0, #HRs1, #HRs2⟩, ⟨#HRr0, #HRr1, #HRr2⟩⟩,
        ⟨HaB, HaC, ⟨HaS0, HaS1, HaS2⟩, ⟨HaR0, HaR1, HaR2⟩⟩,
        ⟨⟨HtB0, HtB1, HtB2⟩, ⟨HtQ0, HtQ1, HtQ2⟩, ⟨HtS0, HtS1, HtS2⟩, HtC⟩⟩,
      ⟨HcB, HcR0, HcR1, HcR2⟩, #Hlev, ⟨Hx, Hv⟩⟩, Ho⟩, Hk⟩
  unfold Dat.owesAt Pipeline.owesWithin
  icases Ho with ⟨%W, %hW, HO⟩
  rw [show (dats m 0 c).owed t₀.castSucc = O₀ c from rfl]
  -- the two buffers by blocks
  ihave Hx4 := (cols_split m c).1 $$ Hx
  icases Hx4 with ⟨Hx0, Hx1, Hx2, Hx3⟩
  ihave Hv4 := (rows_split c c (m ((c : Thread nD τ).loc main_v1))).1 $$ Hv
  icases Hv4 with ⟨Hv0, Hv1, Hv2, Hv3⟩
  -- the three signals
  iapply (wp_sig m K c 0 (peer 0 c) rfl (O₀ c) (O₁ c) rfl W (m ((c : Thread nD τ).loc main_v1))) $$ [HO HtB0 Hv1]
  · isplitr; · iexact HIb0
    isplitl [HO]; · iexact HO
    isplitl [HtB0]; · iexact HtB0
    isplitl [Hv1]; · iexact Hv1
    isplitr; · iexact HRr2
    iexact HRb0
  iintro HO
  iapply (wp_sig m K c 1 (peer 1 c) rfl (O₁ c) (O₂ c) rfl W (m ((c : Thread nD τ).loc main_v1))) $$ [HO HtB1 Hv2]
  · isplitr; · iexact HIb1
    isplitl [HO]; · iexact HO
    isplitl [HtB1]; · iexact HtB1
    isplitl [Hv2]; · iexact Hv2
    isplitr; · iexact HRr1
    iexact HRb1
  iintro HO
  iapply (wp_sig m K c 2 (peer 2 c) rfl (O₂ c) (Orecv c) rfl W (m ((c : Thread nD τ).loc main_v1))) $$ [HO HtB2 Hv3]
  · isplitr; · iexact HIb2
    isplitl [HO]; · iexact HO
    isplitl [HtB2]; · iexact HtB2
    isplitl [Hv3]; · iexact Hv3
    isplitr; · iexact HRr0
    iexact HRb2
  iintro HO
  -- the wait for the three units of the device's own barrier cell, owing the three receive credits
  iapply (Rounds.wp_wait_rest_token 𝒱₀ ER (a2aRd m) (c : Thread nD τ) none (κ := K (c, .bar))
      (wpE_semWait_eq 𝒱₀ (c : Thread nD τ) none Set.univ) (Set.mem_univ _) () (O := Orecv c) (W := W) (R := 0) (m := 0) (T := ∅)
      (show 0 + _ = _ from (Nat.zero_add _).trans (expect_bar m c).symm)) $$ [HcB HO HaB]
  · isplitr; · iexact HIbar
    isplitl [HcB]; · iexact HcB
    isplitl [HO]; · iexact HO
    isplitr; · iapply (hmw c); iexact Hlev
    iexact HaB
  iintro ⟨HO, HaB, -, Hpay⟩
  ihave Hp := (Entails.of_eq (rest_bar m c)) $$ Hpay
  unfold barPay
  icases Hp with ⟨⟨⟨%g0, Hd0⟩, #Hq0⟩, ⟨⟨%g1, Hd1⟩, #Hq1⟩, ⟨%g2, Hd2⟩, #Hq2⟩
  -- the local copy
  iapply (wp_lcopy m K c (m ((c : Thread nD τ).loc main_v1))) $$ [Hx0 Hv0 HtC]
  · isplitr; · iexact HIcp
    isplitl [Hx0]; · iexact Hx0
    isplitl [Hv0]; · iexact Hv0
    isplitl [HtC]; · iexact HtC
    iexact HRcp
  iintro HcC
  -- the three transfers
  iapply (wp_xfer m K c 0 ⟨k0_dev4 c, k0_dev4_lt c⟩ (dev4_eq c)
      (colM_of_off (off := k0_off3 c 1#32) (k0_off3_inb c 0) c 1 e31) sendS_0 recvS_0 g0 (Orecv c) (Or₁ c) rfl (insert (SemLoc.reg barS, ()) W)) $$ [Hx1 Hd0 HO HtS0 HtQ0]
  · isplitr; · iexact HIs0
    isplitr; · iexact HIq0
    isplitl [Hx1]; · iexact Hx1
    isplitl [Hd0]; · iexact Hd0
    isplitl [HO]; · iexact HO
    isplitl [HtS0]; · iexact HtS0
    isplitr; · iexact HRs0
    isplitl [HtQ0]; · iexact HtQ0
    iexact HRq0
  iintro ⟨HcS0, HO⟩
  iapply (wp_xfer m K c 1 ⟨k0_dev5 c, k0_dev5_lt c⟩ (dev5_eq c)
      (colM_of_off (off := k0_off3 c 2#32) (k0_off3_inb c 1) c 2 e32) sendS_1 recvS_1 g1 (Or₁ c) (tallyAt (recvCell 2 (peer 2 c)) () N) rfl (insert (SemLoc.reg barS, ()) W)) $$ [Hx2 Hd1 HO HtS1 HtQ1]
  · isplitr; · iexact HIs1
    isplitr; · iexact HIq1
    isplitl [Hx2]; · iexact Hx2
    isplitl [Hd1]; · iexact Hd1
    isplitl [HO]; · iexact HO
    isplitl [HtS1]; · iexact HtS1
    isplitr; · iexact HRs1
    isplitl [HtQ1]; · iexact HtQ1
    iexact HRq1
  iintro ⟨HcS1, HO⟩
  iapply (wp_xfer m K c 2 ⟨k0_dev6 c, k0_dev6_lt c⟩ (dev6_eq c)
      (colM_of_off (off := k0_off3 c 3#32) (k0_off3_inb c 2) c 3 e33) sendS_2 recvS_2 g2 (tallyAt (recvCell 2 (peer 2 c)) () N) (0) (zero_add _).symm (insert (SemLoc.reg barS, ()) W)) $$ [Hx3 Hd2 HO HtS2 HtQ2]
  · isplitr; · iexact HIs2
    isplitr; · iexact HIq2
    isplitl [Hx3]; · iexact Hx3
    isplitl [Hd2]; · iexact Hd2
    isplitl [HO]; · iexact HO
    isplitl [HtS2]; · iexact HtS2
    isplitr; · iexact HRs2
    isplitl [HtQ2]; · iexact HtQ2
    iexact HRq2
  iintro ⟨HcS2, HO⟩
  -- the waits: copy, sends, receives
  iapply (wp_dwait m c copyS (K (c, .copy)) rfl (dst := rowM c 0) rfl (insert (SemLoc.reg barS, ()) W)) $$ [HcC HO HaC]
  · isplitr; · iexact HIcp
    isplitl [HcC]; · iexact HcC
    isplitl [HO]; · iexact HO
    iexact HaC
  iintro ⟨HO, HaC, -, Hpay⟩
  ihave Hcp := (Entails.of_eq (rest_copy m c)) $$ Hpay
  unfold copyPay
  icases Hcp with ⟨Hv0, Hx0⟩
  iapply (wp_dwait m c (sendS 0) (K (c, .send 0)) sendS_0 (dst := ((Memref.whole main_arg0 : Memref sig .tc .hbm S4096x4096 .f32).slice (Rect.unit (s := S4096x4096) (k0_off3 c 1#32) S4096x1024.size (k0_off3_inb c 0)) (fun _ => rfl))) rfl (insert (SemLoc.dma copyS, ()) (insert (SemLoc.reg barS, ()) W))) $$ [HcS0 HO HaS0]
  · isplitr; · iexact HIs0
    isplitl [HcS0]; · iexact HcS0
    isplitl [HO]; · iexact HO
    iexact HaS0
  iintro ⟨HO, HaS0, -, Hpay⟩
  ihave Hx1 := (Entails.of_eq (rest_send m c 0)) $$ Hpay
  iapply (wp_dwait m c (sendS 1) (K (c, .send 1)) sendS_1 (dst := ((Memref.whole main_arg0 : Memref sig .tc .hbm S4096x4096 .f32).slice (Rect.unit (s := S4096x4096) (k0_off3 c 2#32) S4096x1024.size (k0_off3_inb c 1)) (fun _ => rfl))) rfl (insert (SemLoc.dma (sendS 0), ()) (insert (SemLoc.dma copyS, ()) (insert (SemLoc.reg barS, ()) W)))) $$ [HcS1 HO HaS1]
  · isplitr; · iexact HIs1
    isplitl [HcS1]; · iexact HcS1
    isplitl [HO]; · iexact HO
    iexact HaS1
  iintro ⟨HO, HaS1, -, Hpay⟩
  ihave Hx2 := (Entails.of_eq (rest_send m c 1)) $$ Hpay
  iapply (wp_dwait m c (sendS 2) (K (c, .send 2)) sendS_2 (dst := ((Memref.whole main_arg0 : Memref sig .tc .hbm S4096x4096 .f32).slice (Rect.unit (s := S4096x4096) (k0_off3 c 3#32) S4096x1024.size (k0_off3_inb c 2)) (fun _ => rfl))) rfl (insert (SemLoc.dma (sendS 1), ()) (insert (SemLoc.dma (sendS 0), ()) (insert (SemLoc.dma copyS, ()) (insert (SemLoc.reg barS, ()) W))))) $$ [HcS2 HO HaS2]
  · isplitr; · iexact HIs2
    isplitl [HcS2]; · iexact HcS2
    isplitl [HO]; · iexact HO
    iexact HaS2
  iintro ⟨HO, HaS2, -, Hpay⟩
  ihave Hx3 := (Entails.of_eq (rest_send m c 2)) $$ Hpay
  unfold sendPay
  iapply (wp_dwait m c (recvS 0) (K (c, .recv 0)) recvS_0 (dst := ((Memref.whole main_v1 : Memref sig .tc .hbm S16384x1024 .f32).slice (Rect.unit (s := S16384x1024) (k0_off4 c 1#32) S4096x1024.size (k0_off4_inb c 0)) (fun _ => rfl))) rfl (insert (SemLoc.dma (sendS 2), ()) (insert (SemLoc.dma (sendS 1), ()) (insert (SemLoc.dma (sendS 0), ()) (insert (SemLoc.dma copyS, ()) (insert (SemLoc.reg barS, ()) W)))))) $$ [HcR0 HO HaR0]
  · isplitr; · iexact HIr0
    isplitl [HcR0]; · iexact HcR0
    isplitl [HO]; · iexact HO
    iexact HaR0
  iintro ⟨HO, HaR0, -, Hpay⟩
  ihave Hv3 := (Entails.of_eq (rest_recv m c 0)) $$ Hpay
  iapply (wp_dwait m c (recvS 1) (K (c, .recv 1)) recvS_1 (dst := ((Memref.whole main_v1 : Memref sig .tc .hbm S16384x1024 .f32).slice (Rect.unit (s := S16384x1024) (k0_off4 c 2#32) S4096x1024.size (k0_off4_inb c 1)) (fun _ => rfl))) rfl (insert (SemLoc.dma (recvS 0), ()) (insert (SemLoc.dma (sendS 2), ()) (insert (SemLoc.dma (sendS 1), ()) (insert (SemLoc.dma (sendS 0), ()) (insert (SemLoc.dma copyS, ()) (insert (SemLoc.reg barS, ()) W))))))) $$ [HcR1 HO HaR1]
  · isplitr; · iexact HIr1
    isplitl [HcR1]; · iexact HcR1
    isplitl [HO]; · iexact HO
    iexact HaR1
  iintro ⟨HO, HaR1, -, Hpay⟩
  ihave Hv2 := (Entails.of_eq (rest_recv m c 1)) $$ Hpay
  iapply (wp_dwait m c (recvS 2) (K (c, .recv 2)) recvS_2 (dst := ((Memref.whole main_v1 : Memref sig .tc .hbm S16384x1024 .f32).slice (Rect.unit (s := S16384x1024) (k0_off4 c 3#32) S4096x1024.size (k0_off4_inb c 2)) (fun _ => rfl))) rfl (insert (SemLoc.dma (recvS 1), ()) (insert (SemLoc.dma (recvS 0), ()) (insert (SemLoc.dma (sendS 2), ()) (insert (SemLoc.dma (sendS 1), ()) (insert (SemLoc.dma (sendS 0), ()) (insert (SemLoc.dma copyS, ()) (insert (SemLoc.reg barS, ()) W)))))))) $$ [HcR2 HO HaR2]
  · isplitr; · iexact HIr2
    isplitl [HcR2]; · iexact HcR2
    isplitl [HO]; · iexact HO
    iexact HaR2
  iintro ⟨HO, HaR2, -, Hpay⟩
  ihave Hv1 := (Entails.of_eq (rest_recv m c 2)) $$ Hpay
  unfold recvPay
  -- the seven own cells close
  imod (Rounds.cell_close ER (a2aRd m) (Set.mem_univ (K (c, .copy))) (fun h => h) (R := 0 + 1) (duties_later m (copyCell c))) $$ [HaC] with HzC
  · isplitr; · iexact HIcp
    iexact HaC
  imod (Rounds.cell_close ER (a2aRd m) (Set.mem_univ (K (c, .send 0))) (fun h => h) (R := 0 + 1) (duties_later m (sendCell 0 c))) $$ [HaS0] with HzS0
  · isplitr; · iexact HIs0
    iexact HaS0
  imod (Rounds.cell_close ER (a2aRd m) (Set.mem_univ (K (c, .send 1))) (fun h => h) (R := 0 + 1) (duties_later m (sendCell 1 c))) $$ [HaS1] with HzS1
  · isplitr; · iexact HIs1
    iexact HaS1
  imod (Rounds.cell_close ER (a2aRd m) (Set.mem_univ (K (c, .send 2))) (fun h => h) (R := 0 + 1) (duties_later m (sendCell 2 c))) $$ [HaS2] with HzS2
  · isplitr; · iexact HIs2
    iexact HaS2
  imod (Rounds.cell_close ER (a2aRd m) (Set.mem_univ (K (c, .recv 0))) (fun h => h) (R := 0 + 1) (duties_later m (recvCell 0 c))) $$ [HaR0] with HzR0
  · isplitr; · iexact HIr0
    iexact HaR0
  imod (Rounds.cell_close ER (a2aRd m) (Set.mem_univ (K (c, .recv 1))) (fun h => h) (R := 0 + 1) (duties_later m (recvCell 1 c))) $$ [HaR1] with HzR1
  · isplitr; · iexact HIr1
    iexact HaR1
  imod (Rounds.cell_close ER (a2aRd m) (Set.mem_univ (K (c, .recv 2))) (fun h => h) (R := 0 + 1) (duties_later m (recvCell 2 c))) $$ [HaR2] with HzR2
  · isplitr; · iexact HIr2
    iexact HaR2
  -- the blocks rejoin
  ihave Hx := (cols_split m c).2 $$ [Hx0 Hx1 Hx2 Hx3]
  · isplitl [Hx0]; · iexact Hx0
    isplitl [Hx1]; · iexact Hx1
    isplitl [Hx2]; · iexact Hx2
    iexact Hx3
  ihave Hv := (rows_split c c (outFn m c)).2 $$ [Hv0 Hv1 Hv2 Hv3]
  · isplitl [Hv0]; · iexact Hv0
    isplitl [Hv1]; · iexact Hv1
    isplitl [Hv2]; · iexact Hv2
    iexact Hv3
  rw [wp_ret]; imodintro
  iapply Hk
  unfold bodyPost Φ₁ bufs₁ closedSems Dat.owesAt Pipeline.owesWithin
  rw [show (dats m 0 c).owed t₀.succ = 0 from rfl]
  isplitr [HO]
  · isplitl [Hx Hv]
    · isplitl [Hx]; · iexact Hx
      iexact Hv
    · isplitl [HzC]; · iexact HzC
      isplitl [HzS0 HzS1 HzS2]
      · isplitl [HzS0]; · iexact HzS0
        isplitl [HzS1]; · iexact HzS1
        iexact HzS2
      · isplitl [HzR0]; · iexact HzR0
        isplitl [HzR1]; · iexact HzR1
        iexact HzR2
  · iexists (insert (SemLoc.dma (recvS 2), ()) (insert (SemLoc.dma (recvS 1), ()) (insert (SemLoc.dma (recvS 0), ()) (insert (SemLoc.dma (sendS 2), ()) (insert (SemLoc.dma (sendS 1), ()) (insert (SemLoc.dma (sendS 0), ()) (insert (SemLoc.dma copyS, ()) (insert (SemLoc.reg barS, ()) W))))))))
    isplitr; · ipureintro; exact fun _ _ => Or.inl trivial
    iexact HO

omit [FloatOps F] in
/-- A product over the windows of a pipeline that has none. -/
theorem bigSep_W (Φ : Fin cfg0.W → sProp 𝕄) : bigSep Finset.univ Φ = iprop(emp) := by
  rw [show (Finset.univ : Finset (Fin cfg0.W)) = ∅ from Finset.eq_empty_of_forall_notMem fun w => w.elim0]
  exact BI.bigSep_empty

/-- The library's body obligation on device `c`: no window, one point. -/
theorem body_obligation (hmw : ∀ c : Dev nD, (levAts L lv : sProp 𝕄) ⊢ MayWait (c : Thread nD τ) (.reg barS) () (Orecv c)) (c : Dev nD) :
    BodyObligation (dats (F := F) m 0 c) (defs₀ (F := F)) 𝒱₀ () Set.univ := fun t => by
  rw [fin_N t, bigSep_W, bigSep_W]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _) cc0_scratch0 cc0_scratch1 cc0_scratch2)
    (fun _ => iprop(Φ₁ m c ∗ (dats m 0 c).owesAt () t₀.succ ∗ emp))
  unfold Φ₀ start
  iintro ⟨⟨⟨⟨%K, Hg⟩, Hcr, Hlev⟩, Hb⟩, Ho, -⟩
  iapply (sound_body m K hmw c fun _ => iprop(Φ₁ m c ∗ (dats m 0 c).owesAt () t₀.succ ∗ emp))
  unfold bodyPre
  isplitr []
  · isplitl [Hg Hcr Hlev Hb]
    · isplitl [Hg]; · iexact Hg
      isplitl [Hcr]; · iexact Hcr
      isplitl [Hlev]; · iexact Hlev
      iexact Hb
    · iexact Ho
  · unfold bodyPost
    iintro ⟨H1, H2⟩
    isplitl [H1]; · iexact H1
    isplitl [H2]; · iexact H2
    iempintro

end Body

end Cert.KernelProof

end
-- ==== Proof.KFrame.lean ====
/-
  The word-level kernel's frame claim.

  The run of the mesh is proved once, for any float instance: every device's body meets its contract, so every weakly
  fair execution terminates with each device's argument buffer as it was. Read at the word-level instance, over the
  program as printed, that is the frame claim.
-/
import proofs.«900657_g7700000000000658_dist_a2a_v7x_xyz2x4x4_z_m4096_n1024_f32_1_alg».proof.Defs
import proofs.«900657_g7700000000000658_dist_a2a_v7x_xyz2x4x4_z_m4096_n1024_f32_1_alg».proof.Proof.KRun
import proofs.«900657_g7700000000000658_dist_a2a_v7x_xyz2x4x4_z_m4096_n1024_f32_1_alg».proof.Proof.KLaunch
import proofs.«900657_g7700000000000658_dist_a2a_v7x_xyz2x4x4_z_m4096_n1024_f32_1_alg».proof.Proof.KBody
import proofs.«900657_g7700000000000658_dist_a2a_v7x_xyz2x4x4_z_m4096_n1024_f32_1_alg».proof.Proof.Gen.Pre_finite_inputs_Kernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The kernel as printed runs and leaves every device's argument buffer as it was. -/
theorem frame_kernel : Cert.frame_Kernel :=
  fun m ρ _ => (θ_run (Cert.Kernel.defs (F := Bits)) _ _).mono (fun _ h c => (h c).2)
    (run_main_of m ρ (G m) u₀ (fun c => body_obligation m (fun c => mayWait_bar c) c) ownSemFacts (hu₀ m) (glob m) (fun c => creds c))

/-- info: 'Cert.KernelProof.frame_kernel' depends on axioms: [propext, Classical.choice, Quot.sound] -/
#guard_msgs in #print axioms frame_kernel

end Cert.KernelProof

end
-- ==== Proof.lean ====
/-
  The certificate of the all-to-all along the z axis of a 2 x 4 x 4 mesh.

  Each of the thirty-two devices holds a row block (4096 x 4096) of a 16384 x 4096 array and must end holding a column
  block (16384 x 1024) of it: the reference is the identity on the whole array. Within each group of four devices that
  share their x and y coordinates, a device keeps the column block at its own position and sends each of the other
  three to the device at that position, which writes it into the row block at the sender's position.

  The protocol is proved once for any float instance. An entry handshake on the barrier semaphore (each device signals
  its three peers and waits for three units) hands every sender the receiver's row block before it is written; each
  transfer pays one duty on the sender's send cell and one on the receiver's receive cell; a device waits on a cell only
  while everything it still owes sits at a higher level, so every fair execution terminates. The value is pure data
  movement: what lands in row block s of device c is the column block at c's position of the argument of the device at
  position s, and read through the layout of the claim that is c's column block of the whole array.

  The two kernel frames are this run with the values dropped, at the word-level and at the exact instance; the
  reference's frame is its run of no operation; no operation of the kernel was rewritten for the exact reading.
-/
import proofs.«900657_g7700000000000658_dist_a2a_v7x_xyz2x4x4_z_m4096_n1024_f32_1_alg».proof.Defs
import proofs.«900657_g7700000000000658_dist_a2a_v7x_xyz2x4x4_z_m4096_n1024_f32_1_alg».proof.Proof.Claims
import proofs.«900657_g7700000000000658_dist_a2a_v7x_xyz2x4x4_z_m4096_n1024_f32_1_alg».proof.Proof.Body
import proofs.«900657_g7700000000000658_dist_a2a_v7x_xyz2x4x4_z_m4096_n1024_f32_1_alg».proof.Proof.KFrame

noncomputable section

namespace Cert.Proof

open Idealize.ShloMosaic Idealize.SL.Sem

/-- Every device's body meets its contract, at the exact instance. -/
theorem body_ideal (m : (ℓ : Loc Cert.KernelIdeal.nD Cert.KernelIdeal.τ Cert.KernelIdeal.sig) → Buf (Elt Ideal) ℓ) (c : Dev Cert.KernelIdeal.nD) :
    Pipeline.BodyObligation (Cert.KernelIdealProof.dats (F := Ideal) m 0 c) (Cert.KernelIdeal.defs₀ (F := Ideal)) Cert.KernelIdealProof.𝒱₀ () Set.univ :=
  Cert.KernelIdealProof.body_obligation m (fun c => Cert.KernelIdealProof.mayWait_bar c) c

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.KernelProof.frame_kernel, Cert.KernelIdealProof.frame_ideal_of body_ideal, Cert.KernelIdealProof.frame_ref, trivial,
    Cert.KernelIdealProof.algebraic_of body_ideal⟩

end Cert.Proof

end
